-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1024 : Shape := ⟨2, ![2048, 1024]⟩
abbrev S16x2048x2048 : Shape := ⟨3, ![16, 2048, 2048]⟩
abbrev S2047x2047 : Shape := ⟨2, ![2047, 2047]⟩
abbrev S1024x1024 : Shape := ⟨2, ![1024, 1024]⟩
abbrev S1024 : Shape := ⟨1, ![1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S16x2048x2048 : S_.BroadcastsInDim S16x2048x2048 (![] : Fin 0 → Fin S16x2048x2048.rank)
  reducesTo_S16x2048x2048_S_d0_1_2 : S16x2048x2048.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg8 : FVec F S1024 .f32) (main_arg9 : FVec F S1024x1024 .f32) (main_arg10 : FVec F S1024 .f32) (main_v33 : IVec S_ 1) : IVec S_ 1 :=
  let main_v34 : FVec F S1024 .f32 := Host.absf main_arg8
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x1024 .f32 := Host.absf main_arg9
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024 .f32 := Host.absf main_arg10
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  main_v48

def fn_part1 {F : FTy → Type} [FloatOps F] (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_v13 : IVec S_ 1) (main_v16 : IVec S16x2048x2048 1) : IVec S_ 1 :=
  let main_c_5 : IVec S_ 1 := constantI S_ 1 1#1
  let main_v17 : IVec S_ 1 := (fun x v => Host.reduce IntOp.andi x v reducesTo_S16x2048x2048_S_d0_1_2 h_S_) main_v16 main_c_5
  let main_v18 : IVec S_ 1 := andi main_v13 main_v17
  let main_v19 : FVec F S1024x1024 .f32 := Host.absf main_arg5
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg6
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg7
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg8 main_arg9 main_arg10 main_v33

def fn {F : FTy → Type} [FloatOps F] (main_arg0 : FVec F S2048x1024 .f32) (main_arg1 : FVec F S2048x1024 .f32) (main_arg2 : FVec F S2048x1024 .f32) (main_arg3 : FVec F S16x2048x2048 .f32) (main_arg4 : IVec S2047x2047 32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S2048x1024 .f32 := Host.absf main_arg2
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S16x2048x2048 .f32 := Host.absf main_arg3
  let main_cst_4 : FVec F S_ .f32 := constant S_ .f32 0x7F800000#32
  let main_v15 : FVec F S16x2048x2048 .f32 := broadcastInDim S16x2048x2048 ![] bcast_S_S16x2048x2048 main_cst_4
  let main_v16 : IVec S16x2048x2048 1 := cmpf .olt main_v14 main_v15
  fn_part1 (F := F) main_arg5 main_arg6 main_arg7 main_arg8 main_arg9 main_arg10 main_v13 main_v16
-- ==== Kernel.lean ====
abbrev S2048x1024 : Shape := ⟨2, ![2048, 1024]⟩
abbrev S16x2048x2048 : Shape := ⟨3, ![16, 2048, 2048]⟩
abbrev S2047x2047 : Shape := ⟨2, ![2047, 2047]⟩
abbrev S1024x1024 : Shape := ⟨2, ![1024, 1024]⟩
abbrev S1024 : Shape := ⟨1, ![1024]⟩
abbrev S1x2048x1024 : Shape := ⟨3, ![1, 2048, 1024]⟩
abbrev S3x2048x1024 : Shape := ⟨3, ![3, 2048, 1024]⟩
abbrev S1x1024x1024 : Shape := ⟨3, ![1, 1024, 1024]⟩
abbrev S3x1024x1024 : Shape := ⟨3, ![3, 1024, 1024]⟩
abbrev S1x1024 : Shape := ⟨2, ![1, 1024]⟩
abbrev S3x1024 : Shape := ⟨2, ![3, 1024]⟩
abbrev S3x1x1024 : Shape := ⟨3, ![3, 1, 1024]⟩
abbrev S1x512x1024 : Shape := ⟨3, ![1, 512, 1024]⟩
abbrev S1x1x1024 : Shape := ⟨3, ![1, 1, 1024]⟩
abbrev S512x1024 : Shape := ⟨2, ![512, 1024]⟩
abbrev S2048x16x64 : Shape := ⟨3, ![2048, 16, 64]⟩
abbrev S16x2048x64 : Shape := ⟨3, ![16, 2048, 64]⟩
abbrev S_ : Shape := ⟨0, ![]⟩
abbrev S2048x2048 : Shape := ⟨2, ![2048, 2048]⟩
abbrev S1 : Shape := ⟨1, ![1]⟩
abbrev S2 : Shape := ⟨1, ![2]⟩
abbrev S1x256x64 : Shape := ⟨3, ![1, 256, 64]⟩
abbrev S1x2048x64 : Shape := ⟨3, ![1, 2048, 64]⟩
abbrev S1x256x2048 : Shape := ⟨3, ![1, 256, 2048]⟩
abbrev S256x2048 : Shape := ⟨2, ![256, 2048]⟩
abbrev S256x64 : Shape := ⟨2, ![256, 64]⟩
abbrev S2048x64 : Shape := ⟨2, ![2048, 64]⟩
abbrev S64x2048 : Shape := ⟨2, ![64, 2048]⟩
abbrev S256 : Shape := ⟨1, ![256]⟩
abbrev S256x1 : Shape := ⟨2, ![256, 1]⟩

abbrev nBuf : Space → Nat
  | .hbm => 55
  | .vmem => 20
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S16x2048x2048, .f32⟩
  | .hbm, ⟨4, _⟩ => ⟨S2047x2047, .i32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1x2048x1024, .f32⟩
  | .hbm, ⟨12, _⟩ => ⟨S1x2048x1024, .f32⟩
  | .hbm, ⟨13, _⟩ => ⟨S1x2048x1024, .f32⟩
  | .hbm, ⟨14, _⟩ => ⟨S3x2048x1024, .f32⟩
  | .hbm, ⟨15, _⟩ => ⟨S1x1024x1024, .f32⟩
  | .hbm, ⟨16, _⟩ => ⟨S1x1024x1024, .f32⟩
  | .hbm, ⟨17, _⟩ => ⟨S1x1024x1024, .f32⟩
  | .hbm, ⟨18, _⟩ => ⟨S3x1024x1024, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S3x1024, .f32⟩
  | .hbm, ⟨23, _⟩ => ⟨S3x1x1024, .f32⟩
  | .hbm, ⟨24, _⟩ => ⟨S3x2048x1024, .f32⟩
  | .hbm, ⟨25, _⟩ => ⟨S1x2048x1024, .f32⟩
  | .hbm, ⟨26, _⟩ => ⟨S2048x1024, .f32⟩
  | .hbm, ⟨27, _⟩ => ⟨S1x2048x1024, .f32⟩
  | .hbm, ⟨28, _⟩ => ⟨S2048x1024, .f32⟩
  | .hbm, ⟨29, _⟩ => ⟨S1x2048x1024, .f32⟩
  | .hbm, ⟨30, _⟩ => ⟨S2048x1024, .f32⟩
  | .hbm, ⟨31, _⟩ => ⟨S2048x16x64, .f32⟩
  | .hbm, ⟨32, _⟩ => ⟨S16x2048x64, .f32⟩
  | .hbm, ⟨33, _⟩ => ⟨S_, .f32⟩
  | .hbm, ⟨34, _⟩ => ⟨S16x2048x64, .f32⟩
  | .hbm, ⟨35, _⟩ => ⟨S16x2048x64, .f32⟩
  | .hbm, ⟨36, _⟩ => ⟨S2048x16x64, .f32⟩
  | .hbm, ⟨37, _⟩ => ⟨S16x2048x64, .f32⟩
  | .hbm, ⟨38, _⟩ => ⟨S2048x16x64, .f32⟩
  | .hbm, ⟨39, _⟩ => ⟨S16x2048x64, .f32⟩
  | .hbm, ⟨40, _⟩ => ⟨S_, .i32⟩
  | .hbm, ⟨41, _⟩ => ⟨S2047x2047, .i32⟩
  | .hbm, ⟨42, _⟩ => ⟨S2047x2047, .i1⟩
  | .hbm, ⟨43, _⟩ => ⟨S2047x2047, .f32⟩
  | .hbm, ⟨44, _⟩ => ⟨S_, .f32⟩
  | .hbm, ⟨45, _⟩ => ⟨S2048x2048, .f32⟩
  | .hbm, ⟨46, _⟩ => ⟨S_, .i32⟩
  | .hbm, ⟨47, _⟩ => ⟨S1, .i32⟩
  | .hbm, ⟨48, _⟩ => ⟨S_, .i32⟩
  | .hbm, ⟨49, _⟩ => ⟨S1, .i32⟩
  | .hbm, ⟨50, _⟩ => ⟨S2, .i32⟩
  | .hbm, ⟨51, _⟩ => ⟨S2048x2048, .f32⟩
  | .hbm, ⟨52, _⟩ => ⟨S16x2048x64, .f32⟩
  | .hbm, ⟨53, _⟩ => ⟨S2048x16x64, .f32⟩
  | .hbm, ⟨54, _⟩ => ⟨S2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x512x1024, .f32⟩
  | .local _ .vmem, ⟨7, _⟩ => ⟨S1x512x1024, .f32⟩
  | .local _ .vmem, ⟨8, _⟩ => ⟨S1x256x64, .f32⟩
  | .local _ .vmem, ⟨9, _⟩ => ⟨S1x256x64, .f32⟩
  | .local _ .vmem, ⟨10, _⟩ => ⟨S1x2048x64, .f32⟩
  | .local _ .vmem, ⟨11, _⟩ => ⟨S1x2048x64, .f32⟩
  | .local _ .vmem, ⟨12, _⟩ => ⟨S1x2048x64, .f32⟩
  | .local _ .vmem, ⟨13, _⟩ => ⟨S1x2048x64, .f32⟩
  | .local _ .vmem, ⟨14, _⟩ => ⟨S1x256x2048, .f32⟩
  | .local _ .vmem, ⟨15, _⟩ => ⟨S1x256x2048, .f32⟩
  | .local _ .vmem, ⟨16, _⟩ => ⟨S256x2048, .f32⟩
  | .local _ .vmem, ⟨17, _⟩ => ⟨S256x2048, .f32⟩
  | .local _ .vmem, ⟨18, _⟩ => ⟨S1x256x64, .f32⟩
  | .local _ .vmem, ⟨19, _⟩ => ⟨S1x256x64, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_0 : Ref sig .tc := ⟨.hbm, 44, rfl⟩
abbrev main_v31 : Ref sig .tc := ⟨.hbm, 45, rfl⟩
abbrev main_c_1 : Ref sig .tc := ⟨.hbm, 46, rfl⟩
abbrev main_v32 : Ref sig .tc := ⟨.hbm, 47, rfl⟩
abbrev main_c_2 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨2, ![3, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![16, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x256x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S256x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S1x256x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  bcast_S2048x1024_S1x2048x1024_1_2 : S2048x1024.BroadcastsInDim S1x2048x1024 (![1, 2] : Fin 2 → Fin S1x2048x1024.rank)
  concatenates_S1x2048x1024_S1x2048x1024_S1x2048x1024_S3x2048x1024_d0 : Shape.Concatenates [S1x2048x1024, S1x2048x1024, S1x2048x1024] S3x2048x1024 0
  bcast_S1024x1024_S1x1024x1024_1_2 : S1024x1024.BroadcastsInDim S1x1024x1024 (![1, 2] : Fin 2 → Fin S1x1024x1024.rank)
  concatenates_S1x1024x1024_S1x1024x1024_S1x1024x1024_S3x1024x1024_d0 : Shape.Concatenates [S1x1024x1024, S1x1024x1024, S1x1024x1024] S3x1024x1024 0
  bcast_S1024_S1x1024_1 : S1024.BroadcastsInDim S1x1024 (![1] : Fin 1 → Fin S1x1024.rank)
  concatenates_S1x1024_S1x1024_S1x1024_S3x1024_d0 : Shape.Concatenates [S1x1024, S1x1024, S1x1024] S3x1024 0
  shapeCasts_S3x1024_S3x1x1024 : S3x1024.ShapeCasts S3x1x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  bitsLt_bf16_f32 : FTy.bits .bf16 < FTy.bits .f32
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S1x1024_S512x1024 : S1x1024.Broadcasts S512x1024
  shapeCasts_S512x1024_S1x512x1024 : S512x1024.ShapeCasts S1x512x1024
  slices_S3x2048x1024_S1x2048x1024_0_0_0 : S3x2048x1024.Slices ![0, 0, 0] S1x2048x1024
  shapeCasts_S1x2048x1024_S2048x1024 : S1x2048x1024.ShapeCasts S2048x1024
  slices_S3x2048x1024_S1x2048x1024_1_0_0 : S3x2048x1024.Slices ![1, 0, 0] S1x2048x1024
  slices_S3x2048x1024_S1x2048x1024_2_0_0 : S3x2048x1024.Slices ![2, 0, 0] S1x2048x1024
  shapeCasts_S2048x1024_S2048x16x64 : S2048x1024.ShapeCasts S2048x16x64
  transposes_S2048x16x64_S16x2048x64_1_0_2 : S2048x16x64.Transposes [1, 0, 2] S16x2048x64
  bcast_S_S16x2048x64 : S_.BroadcastsInDim S16x2048x64 (![] : Fin 0 → Fin S16x2048x64.rank)
  bcast_S_S2047x2047 : S_.BroadcastsInDim S2047x2047 (![] : Fin 0 → Fin S2047x2047.rank)
  bcast_S_S2048x2048 : S_.BroadcastsInDim S2048x2048 (![] : Fin 0 → Fin S2048x2048.rank)
  bcast_S_S1 : S_.BroadcastsInDim S1 (![] : Fin 0 → Fin S1.rank)
  concatenates_S1_S1_S2_d0 : Shape.Concatenates [S1, S1] S2 0
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  transposes_S2048x64_p1_0_S64x2048 : S2048x64.Transposes [1, 0] S64x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  reduces_S256x2048_S256 : S256x2048.Reduces [1] S256
  shapeCasts_S256_S256x1 : S256.ShapeCasts S256x1
  broadcasts_S256x1_S256x2048 : S256x1.Broadcasts S256x2048
  shapeCasts_S256x64_S1x256x64 : S256x64.ShapeCasts S1x256x64
  transposes_S16x2048x64_S2048x16x64_1_0_2 : S16x2048x64.Transposes [1, 0, 2] S2048x16x64
  shapeCasts_S2048x16x64_S2048x1024 : S2048x16x64.ShapeCasts S2048x1024
  dot_S512x1024_S1024x1024_S512x1024_1_0_0_1_n_n_wf : DotDims.WF S512x1024 S1024x1024 S512x1024 [1] [0] [0] [1] [] []
  scatter_S2048x2048_S2_S2047x2047_01_n_01_0_wf : ScatterDims.WF S2048x2048 S2 S2047x2047 [0, 1] [] [0, 1] 0
  dot_S256x64_S64x2048_S256x2048_1_0_0_1_n_n_wf : DotDims.WF S256x64 S64x2048 S256x2048 [1] [0] [0] [1] [] []
  dot_S256x2048_S2048x64_S256x64_1_0_0_1_n_n_wf : DotDims.WF S256x2048 S2048x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S3x2048x1024.size a
  hwx0_0 : ∀ i : grid0.Coords, EltTy.bits .f32 = 32 ∨ (Rect.block (s := S3x2048x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S3x1024x1024.size a
  hwx0_1 : ∀ i : grid0.Coords, EltTy.bits .f32 = 32 ∨ (Rect.block (s := S3x1024x1024) S1x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S3x1x1024.size a
  hwx0_2 : ∀ i : grid0.Coords, EltTy.bits .f32 = 32 ∨ (Rect.block (s := S3x1x1024) S1x1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1024.size a ≤ S3x2048x1024.size a
  hwx0_3 : ∀ i : grid0.Coords, EltTy.bits .f32 = 32 ∨ (Rect.block (s := S3x2048x1024) S1x512x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x64.size a ≤ S16x2048x64.size a
  hwx1_0 : ∀ i : grid1.Coords, EltTy.bits .f32 = 32 ∨ (Rect.block (s := S16x2048x64) S1x256x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x64.size a ≤ S16x2048x64.size a
  hwx1_1 : ∀ i : grid1.Coords, EltTy.bits .f32 = 32 ∨ (Rect.block (s := S16x2048x64) S1x2048x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x64.size a ≤ S16x2048x64.size a
  hwx1_2 : ∀ i : grid1.Coords, EltTy.bits .f32 = 32 ∨ (Rect.block (s := S16x2048x64) S1x2048x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x2048.size a ≤ S16x2048x2048.size a
  hwx1_3 : ∀ i : grid1.Coords, EltTy.bits .f32 = 32 ∨ (Rect.block (s := S16x2048x2048) S1x256x2048.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x2048.size a ≤ S2048x2048.size a
  hwx1_4 : ∀ i : grid1.Coords, EltTy.bits .f32 = 32 ∨ (Rect.block (s := S2048x2048) S256x2048.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x256x64.size a ≤ S16x2048x64.size a
  hwx1_5 : ∀ i : grid1.Coords, EltTy.bits .f32 = 32 ∨ (Rect.block (s := S16x2048x64) S1x256x64.size (cc1_transform_5 i) (hinb1_5 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def scatter_S2048x2048_S2_S2047x2047_01_n_01_0 : ScatterDims S2048x2048 S2 S2047x2047 where
  updateWindowDims := [0, 1]
  insertedWindowDims := []
  scatterDimsToOperandDims := [0, 1]
  indexVectorDim := 0
  wf := scatter_S2048x2048_S2_S2047x2047_01_n_01_0_wf
def dot_S256x64_S64x2048_S256x2048_1_0_0_1_n_n : DotDims S256x64 S64x2048 S256x2048 where
  lhsContracting := [1]
  rhsContracting := [0]
  lhsNonContracting := [0]
  rhsNonContracting := [1]
  lhsBatch := []
  rhsBatch := []
  wf := dot_S256x64_S64x2048_S256x2048_1_0_0_1_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_v3) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1x512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v23) S1x256x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S1x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S1x256x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v35) S256x2048.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v36) S1x256x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S2048x1024 : Shape := ⟨2, ![2048, 1024]⟩
abbrev S16x2048x2048 : Shape := ⟨3, ![16, 2048, 2048]⟩
abbrev S2047x2047 : Shape := ⟨2, ![2047, 2047]⟩
abbrev S1024x1024 : Shape := ⟨2, ![1024, 1024]⟩
abbrev S1024 : Shape := ⟨1, ![1024]⟩
abbrev S1x1024 : Shape := ⟨2, ![1, 1024]⟩
abbrev S2048x16x64 : Shape := ⟨3, ![2048, 16, 64]⟩
abbrev S16x2048x64 : Shape := ⟨3, ![16, 2048, 64]⟩
abbrev S_ : Shape := ⟨0, ![]⟩
abbrev S2048x2048 : Shape := ⟨2, ![2048, 2048]⟩
abbrev S1 : Shape := ⟨1, ![1]⟩
abbrev S2 : Shape := ⟨1, ![2]⟩
abbrev S1x2048x2048 : Shape := ⟨3, ![1, 2048, 2048]⟩
abbrev S16x2048 : Shape := ⟨2, ![16, 2048]⟩
abbrev S16x2048x1 : Shape := ⟨3, ![16, 2048, 1]⟩

abbrev nBuf : Space → Nat
  | .hbm => 67
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S16x2048x2048, .f32⟩
  | .hbm, ⟨4, _⟩ => ⟨S2047x2047, .i32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S2048x1024, .f32⟩
  | .hbm, ⟨12, _⟩ => ⟨S1x1024, .f32⟩
  | .hbm, ⟨13, _⟩ => ⟨S2048x1024, .f32⟩
  | .hbm, ⟨14, _⟩ => ⟨S2048x1024, .f32⟩
  | .hbm, ⟨15, _⟩ => ⟨S2048x16x64, .f32⟩
  | .hbm, ⟨16, _⟩ => ⟨S16x2048x64, .f32⟩
  | .hbm, ⟨17, _⟩ => ⟨S_, .f32⟩
  | .hbm, ⟨18, _⟩ => ⟨S16x2048x64, .f32⟩
  | .hbm, ⟨19, _⟩ => ⟨S16x2048x64, .f32⟩
  | .hbm, ⟨20, _⟩ => ⟨S2048x1024, .f32⟩
  | .hbm, ⟨21, _⟩ => ⟨S1x1024, .f32⟩
  | .hbm, ⟨22, _⟩ => ⟨S2048x1024, .f32⟩
  | .hbm, ⟨23, _⟩ => ⟨S2048x1024, .f32⟩
  | .hbm, ⟨24, _⟩ => ⟨S2048x16x64, .f32⟩
  | .hbm, ⟨25, _⟩ => ⟨S16x2048x64, .f32⟩
  | .hbm, ⟨26, _⟩ => ⟨S2048x1024, .f32⟩
  | .hbm, ⟨27, _⟩ => ⟨S1x1024, .f32⟩
  | .hbm, ⟨28, _⟩ => ⟨S2048x1024, .f32⟩
  | .hbm, ⟨29, _⟩ => ⟨S2048x1024, .f32⟩
  | .hbm, ⟨30, _⟩ => ⟨S2048x16x64, .f32⟩
  | .hbm, ⟨31, _⟩ => ⟨S16x2048x64, .f32⟩
  | .hbm, ⟨32, _⟩ => ⟨S16x2048x2048, .f32⟩
  | .hbm, ⟨33, _⟩ => ⟨S16x2048x2048, .f32⟩
  | .hbm, ⟨34, _⟩ => ⟨S_, .i1⟩
  | .hbm, ⟨35, _⟩ => ⟨S2048x2048, .i1⟩
  | .hbm, ⟨36, _⟩ => ⟨S_, .i32⟩
  | .hbm, ⟨37, _⟩ => ⟨S2047x2047, .i32⟩
  | .hbm, ⟨38, _⟩ => ⟨S2047x2047, .i1⟩
  | .hbm, ⟨39, _⟩ => ⟨S_, .i32⟩
  | .hbm, ⟨40, _⟩ => ⟨S1, .i32⟩
  | .hbm, ⟨41, _⟩ => ⟨S_, .i32⟩
  | .hbm, ⟨42, _⟩ => ⟨S1, .i32⟩
  | .hbm, ⟨43, _⟩ => ⟨S2, .i32⟩
  | .hbm, ⟨44, _⟩ => ⟨S2048x2048, .i1⟩
  | .hbm, ⟨45, _⟩ => ⟨S1x2048x2048, .i1⟩
  | .hbm, ⟨46, _⟩ => ⟨S_, .f32⟩
  | .hbm, ⟨47, _⟩ => ⟨S16x2048x2048, .i1⟩
  | .hbm, ⟨48, _⟩ => ⟨S16x2048x2048, .f32⟩
  | .hbm, ⟨49, _⟩ => ⟨S16x2048x2048, .f32⟩
  | .hbm, ⟨50, _⟩ => ⟨S_, .f32⟩
  | .hbm, ⟨51, _⟩ => ⟨S16x2048, .f32⟩
  | .hbm, ⟨52, _⟩ => ⟨S_, .f32⟩
  | .hbm, ⟨53, _⟩ => ⟨S16x2048, .f32⟩
  | .hbm, ⟨54, _⟩ => ⟨S16x2048, .f32⟩
  | .hbm, ⟨55, _⟩ => ⟨S16x2048x1, .f32⟩
  | .hbm, ⟨56, _⟩ => ⟨S16x2048x2048, .f32⟩
  | .hbm, ⟨57, _⟩ => ⟨S16x2048x2048, .f32⟩
  | .hbm, ⟨58, _⟩ => ⟨S16x2048x2048, .f32⟩
  | .hbm, ⟨59, _⟩ => ⟨S_, .f32⟩
  | .hbm, ⟨60, _⟩ => ⟨S16x2048, .f32⟩
  | .hbm, ⟨61, _⟩ => ⟨S16x2048x1, .f32⟩
  | .hbm, ⟨62, _⟩ => ⟨S16x2048x2048, .f32⟩
  | .hbm, ⟨63, _⟩ => ⟨S16x2048x2048, .f32⟩
  | .hbm, ⟨64, _⟩ => ⟨S16x2048x64, .f32⟩
  | .hbm, ⟨65, _⟩ => ⟨S2048x16x64, .f32⟩
  | .hbm, ⟨66, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c : Ref sig .tc := ⟨.hbm, 34, rfl⟩
abbrev main_v22 : Ref sig .tc := ⟨.hbm, 35, rfl⟩
abbrev main_c_0 : Ref sig .tc := ⟨.hbm, 36, rfl⟩
abbrev main_v23 : Ref sig .tc := ⟨.hbm, 37, rfl⟩
abbrev main_v24 : Ref sig .tc := ⟨.hbm, 38, rfl⟩
abbrev main_c_1 : Ref sig .tc := ⟨.hbm, 39, rfl⟩
abbrev main_v25 : Ref sig .tc := ⟨.hbm, 40, rfl⟩
abbrev main_c_2 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_3 : Ref sig .tc := ⟨.hbm, 46, rfl⟩
abbrev main_call0_v0 : Ref sig .tc := ⟨.hbm, 47, rfl⟩
abbrev main_call0_v1 : Ref sig .tc := ⟨.hbm, 48, rfl⟩
abbrev main_v30 : Ref sig .tc := ⟨.hbm, 49, rfl⟩
abbrev main_cst_4 : Ref sig .tc := ⟨.hbm, 50, rfl⟩
abbrev main_v31 : Ref sig .tc := ⟨.hbm, 51, rfl⟩
abbrev main_cst_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_6 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S2048x1024_0_1 : S1x1024.BroadcastsInDim S2048x1024 (![0, 1] : Fin 2 → Fin S2048x1024.rank)
  shapeCasts_S2048x1024_S2048x16x64 : S2048x1024.ShapeCasts S2048x16x64
  transposes_S2048x16x64_S16x2048x64_1_0_2 : S2048x16x64.Transposes [1, 0, 2] S16x2048x64
  bcast_S_S16x2048x64 : S_.BroadcastsInDim S16x2048x64 (![] : Fin 0 → Fin S16x2048x64.rank)
  bcast_S_S2048x2048 : S_.BroadcastsInDim S2048x2048 (![] : Fin 0 → Fin S2048x2048.rank)
  bcast_S_S2047x2047 : S_.BroadcastsInDim S2047x2047 (![] : Fin 0 → Fin S2047x2047.rank)
  bcast_S_S1 : S_.BroadcastsInDim S1 (![] : Fin 0 → Fin S1.rank)
  concatenates_S1_S1_S2_d0 : Shape.Concatenates [S1, S1] S2 0
  bcast_S2048x2048_S1x2048x2048_1_2 : S2048x2048.BroadcastsInDim S1x2048x2048 (![1, 2] : Fin 2 → Fin S1x2048x2048.rank)
  bcast_S1x2048x2048_S16x2048x2048_0_1_2 : S1x2048x2048.BroadcastsInDim S16x2048x2048 (![0, 1, 2] : Fin 3 → Fin S16x2048x2048.rank)
  bcast_S_S16x2048x2048 : S_.BroadcastsInDim S16x2048x2048 (![] : Fin 0 → Fin S16x2048x2048.rank)
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  transposes_S16x2048x64_S2048x16x64_1_0_2 : S16x2048x64.Transposes [1, 0, 2] S2048x16x64
  shapeCasts_S2048x16x64_S2048x1024 : S2048x16x64.ShapeCasts S2048x1024
  dot_S2048x1024_S1024x1024_S2048x1024_1_0_0_1_n_n_wf : DotDims.WF S2048x1024 S1024x1024 S2048x1024 [1] [0] [0] [1] [] []
  dot_S16x2048x64_S16x2048x64_S16x2048x2048_2_2_1_1_0_0_wf : DotDims.WF S16x2048x64 S16x2048x64 S16x2048x2048 [2] [2] [1] [1] [0] [0]
  scatter_S2048x2048_S2_S2047x2047_01_n_01_0_wf : ScatterDims.WF S2048x2048 S2 S2047x2047 [0, 1] [] [0, 1] 0
  dot_S16x2048x2048_S16x2048x64_S16x2048x64_2_1_1_2_0_0_wf : DotDims.WF S16x2048x2048 S16x2048x64 S16x2048x64 [2] [1] [1] [2] [0] [0]

variable [Facts₀]

def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf
def dot_S16x2048x64_S16x2048x64_S16x2048x2048_2_2_1_1_0_0 : DotDims S16x2048x64 S16x2048x64 S16x2048x2048 where
  lhsContracting := [2]
  rhsContracting := [2]
  lhsNonContracting := [1]
  rhsNonContracting := [1]
  lhsBatch := [0]
  rhsBatch := [0]
  wf := dot_S16x2048x64_S16x2048x64_S16x2048x2048_2_2_1_1_0_0_wf
def scatter_S2048x2048_S2_S2047x2047_01_n_01_0 : ScatterDims S2048x2048 S2 S2047x2047 where
  updateWindowDims := [0, 1]
  insertedWindowDims := []
  scatterDimsToOperandDims := [0, 1]
  indexVectorDim := 0
  wf := scatter_S2048x2048_S2_S2047x2047_01_n_01_0_wf
def dot_S16x2048x2048_S16x2048x64_S16x2048x64_2_1_1_2_0_0 : DotDims S16x2048x2048 S16x2048x64 S16x2048x64 where
  lhsContracting := [2]
  rhsContracting := [1]
  lhsNonContracting := [1]
  rhsNonContracting := [2]
  lhsBatch := [0]
  rhsBatch := [0]
  wf := dot_S16x2048x2048_S16x2048x64_S16x2048x64_2_1_1_2_0_0_wf

class Facts : Prop extends Facts₀ where

variable [Facts]
-- ==== Proof.KRegion0.lean ====
/-
  The projection kernel's region, as the pipeline runs it. At every grid point (i, j) the body loads the block
  X[i, 512 j .. 512 j + 511, :], the whole matrix W[i] and the row B[i], and stores X-block · W[i] + B[i] over the
  whole output block. Stated at a PARAMETER `V`, the TensorCore's buffer contents when the region is entered, and at any
  float family: what each window's staging buffer holds after the body, the body's Hoare triple, the pipeline's
  proof data and the obligation the pipeline's launch asks of the body.
-/
import proofs.«117108_j26259430048704_1_alg».proof.Proof.Gen.Kernel.Launch
import proofs.«117108_j26259430048704_1_alg».proof.Proof.Gen.Kernel.Skeleton
import proofs.«117108_j26259430048704_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the pipeline fetched it there or
    kept it from an earlier point (its block index did not move). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles the body loads and stores through. -/
abbrev rX : Rect S1x512x1024 := Rect.unit (s := S1x512x1024) ![0, 0, 0] S1x512x1024.size inb_S1x512x1024_S1x512x1024_0_0_0
abbrev rW : Rect S1x1024x1024 := Rect.unit (s := S1x1024x1024) ![0, 0, 0] S1x1024x1024.size inb_S1x1024x1024_S1x1024x1024_0_0_0
abbrev rB : Rect S1x1x1024 := Rect.unit (s := S1x1x1024) ![0, 0, 0] S1x1x1024.size inb_S1x1x1024_S1x1x1024_0_0_0

/-- What the body leaves in the output window's staging buffer, from the three input blocks: its one store, of the
    product plus the bias row, over the whole block. -/
def out0_3 (x0 : Vec F S1x512x1024 .f32) (x1 : Vec F S1x1024x1024 .f32) (x2 : Vec F S1x1x1024 .f32) : Vec F S1x512x1024 .f32 :=
  View.canon [⟨rX, k0_pay1 (View.ld x0 rX) (View.ld x1 rW) (View.ld x2 rB)⟩]

/-- The one store covers the block. -/
theorem cover0_3 (p0 : Vec F S1x512x1024 .f32) (y : S1x512x1024.Idx) :
    ∃ pc ∈ ([⟨rX, p0⟩] : List (View.Piece (Elt F) S1x512x1024 .f32)), y ∈ pc.1.set :=
  View.cover_of_tiled [⟨rX, p0⟩] S1x512x1024.size (by rfl) y

set_option maxHeartbeats 1000000 in
/-- The body's triple: on whole staging buffers, the inputs' holding `x0`, `x1`, `x2` and the output's anything, the
    body runs to its continuation with the inputs' as they were and the output's at `out0_3 x0 x1 x2`. -/
theorem sound_kernel0 (c : Dev nD) (E : Set ℕ) (i : grid0.Coords) (arg2 : Memref sig .tc .vmem S1x512x1024 .f32) (harg2 : arg2.IsWhole) (arg3 : Memref sig .tc .vmem S1x1024x1024 .f32) (harg3 : arg3.IsWhole) (arg4 : Memref sig .tc .vmem S1x1x1024 .f32) (harg4 : arg4.IsWhole) (arg5 : Memref sig .tc .vmem S1x512x1024 .f32) (harg5 : arg5.IsWhole)
    (x0 : Vec F S1x512x1024 .f32) (x1 : Vec F S1x1024x1024 .f32) (x2 : Vec F S1x1x1024 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out0_3 x0 x1 x2)) -∗ K ⟨⟩))
      ⊢ wp frame (wpE (defs₀ (F := F)) Variants.none c none) E (cc0__proj_kernel i arg2 harg2 arg3 harg3 arg4 harg4 arg5 harg5) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The pipeline's proof data on core `c`: the arrays as the region finds them; after the body at point `t` each
    input's buffer still at its block and the output's at `out0_3` of the input blocks; the invariant is the scoped
    rest and the generator register, untouched; nothing is owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the pipeline calls the body with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it must return. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation the pipeline's launch asks of the body, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KRegion1.lean ====
/-
  The attention kernel's region, as the pipeline runs it. At every grid point (h, j) the body loads 256 query rows of
  head h, all 2048 key rows and value rows of head h, the matching 256 x 2048 block of the bias and of the keep mask,
  forms the masked scores, their row-wise softmax and its product with the values, and stores that over the whole
  output block. Stated at a PARAMETER `V`, the TensorCore's buffer contents when the region is entered, and at any
  float family: what each window's staging buffer holds after the body, the body's Hoare triple, the pipeline's
  proof data and the obligation the pipeline's launch asks of the body.
-/
import proofs.«117108_j26259430048704_1_alg».proof.Proof.Gen.Kernel.Launch
import proofs.«117108_j26259430048704_1_alg».proof.Proof.Gen.Kernel.Skeleton
import proofs.«117108_j26259430048704_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the pipeline fetched it there or
    kept it from an earlier point (its block index did not move). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The whole-block rectangles the body loads and stores through. -/
abbrev rQ : Rect S1x256x64 := Rect.unit (s := S1x256x64) ![0, 0, 0] S1x256x64.size inb_S1x256x64_S1x256x64_0_0_0
abbrev rK : Rect S1x2048x64 := Rect.unit (s := S1x2048x64) ![0, 0, 0] S1x2048x64.size inb_S1x2048x64_S1x2048x64_0_0_0
abbrev rBias : Rect S1x256x2048 := Rect.unit (s := S1x256x2048) ![0, 0, 0] S1x256x2048.size inb_S1x256x2048_S1x256x2048_0_0_0
abbrev rKeep : Rect S256x2048 := Rect.unit (s := S256x2048) ![0, 0] S256x2048.size inb_S256x2048_S256x2048_0_0

/-- What the body leaves in the output window's staging buffer, from the five input blocks: its one store, of the
    softmax-weighted values, over the whole block. -/
def out1_5 (x0 : Vec F S1x256x64 .f32) (x1 : Vec F S1x2048x64 .f32) (x2 : Vec F S1x2048x64 .f32) (x3 : Vec F S1x256x2048 .f32) (x4 : Vec F S256x2048 .f32) : Vec F S1x256x64 .f32 :=
  View.canon [⟨rQ, k1_pay1 (k1_pay2 (View.ld x0 rQ) (View.ld x1 rK) (View.ld x2 rK) (View.ld x3 rBias) (View.ld x4 rKeep))⟩]

/-- The one store covers the block. -/
theorem cover1_5 (p0 : Vec F S1x256x64 .f32) (y : S1x256x64.Idx) :
    ∃ pc ∈ ([⟨rQ, p0⟩] : List (View.Piece (Elt F) S1x256x64 .f32)), y ∈ pc.1.set :=
  View.cover_of_tiled [⟨rQ, p0⟩] S1x256x64.size (by rfl) y

set_option maxHeartbeats 1000000 in
/-- The body's triple: on whole staging buffers, the inputs' holding `x0` … `x4` and the output's anything, the
    body runs to its continuation with the inputs' as they were and the output's at `out1_5 x0 x1 x2 x3 x4`. -/
theorem sound_kernel1 (c : Dev nD) (E : Set ℕ) (i : grid1.Coords) (arg2 : Memref sig .tc .vmem S1x256x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x256x2048 .f32) (harg5 : arg5.IsWhole) (arg6 : Memref sig .tc .vmem S256x2048 .f32) (harg6 : arg6.IsWhole) (arg7 : Memref sig .tc .vmem S1x256x64 .f32) (harg7 : arg7.IsWhole)
    (x0 : Vec F S1x256x64 .f32) (x1 : Vec F S1x2048x64 .f32) (x2 : Vec F S1x2048x64 .f32) (x3 : Vec F S1x256x2048 .f32) (x4 : Vec F S256x2048 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (out1_5 x0 x1 x2 x3 x4)) -∗ K ⟨⟩))
      ⊢ wp frame (wpE (defs₀ (F := F)) Variants.none c none) E (cc1__attn_kernel i arg2 harg2 arg3 harg3 arg4 harg4 arg5 harg5 arg6 harg6 arg7 harg7) K := by
  simp only [cc1__attn_kernel_eq_skeleton]; unfold cc1__attn_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The pipeline's proof data on core `c`: the arrays as the region finds them; after the body at point `t` each
    input's buffer still at its block and the output's at `out1_5` of the input blocks; the invariant is the scoped
    rest and the generator register, untouched; nothing is owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the pipeline calls the body with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it must return. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the triple applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The obligation the pipeline's launch asks of the body, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KRun.lean ====
/-
  The whole program as the pipeline library runs it: three stretches of host operations around the two kernel regions.
  The TensorCore's buffer contents are followed from the launch memory through every boundary: a host stretch
  applies its operations, a region leaves in each of its arrays what its write-backs fold to and every other buffer
  as it was. The run theorem says that every weakly fair execution terminates without a fault in a state whose
  unscoped buffers hold the last of those contents; the arguments are read back through the fold to their launch
  contents. Everything is stated at any float family.
-/
import proofs.«117108_j26259430048704_1_alg».proof.Proof.KRegion0
import proofs.«117108_j26259430048704_1_alg».proof.Proof.KRegion1
import proofs.«117108_j26259430048704_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- After the first host stretch: what the projection region is entered with. -/
abbrev W1 : Dev nD → Valuation τ sig (Elt F) := fun c => StableHlo.after hostOps0 (W0 m c)
/-- The same, read at the TensorCore's references. -/
abbrev E1 : (c : Dev nD) → (b : Ref sig .tc) → Buf (Elt F) ((c : Thread nD τ).loc b) := fun c b => W1 m c b
/-- At the projection region's exit: its arrays at what the pipeline leaves, every other buffer as entered. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev E2 : (c : Dev nD) → (b : Ref sig .tc) → Buf (Elt F) ((c : Thread nD τ).loc b) := fun c b => W2 m c b
theorem hF0' (c : Dev nD) (w : Fin cfg0.W) : (dat0 (E1 m) c).arrAt w cfg0.N = E2 m c (Pipeline.arrRef spec0 w) :=
  (W2_arr m c w).symm
theorem hrest0' (c : Dev nD) : ∀ b, b ∉ Finset.univ.image (Pipeline.arrRef spec0) → E2 m c b = E1 m c b :=
  fun b hb => W2_of_ne m c b fun w e => hb (Finset.mem_image.mpr ⟨w, Finset.mem_univ _, e⟩)

/-- After the second host stretch: what the attention region is entered with. -/
abbrev W3 : Dev nD → Valuation τ sig (Elt F) := fun c => StableHlo.after hostOps1 (W2 m c)
abbrev E3 : (c : Dev nD) → (b : Ref sig .tc) → Buf (Elt F) ((c : Thread nD τ).loc b) := fun c b => W3 m c b
/-- At the attention region's exit. -/
def W4 (c : Dev nD) : Valuation τ sig (Elt F) :=
  Pipeline.withArrays spec1 c (W3 m c) fun w => (dat1 (E3 m) c).arrAt w cfg1.N
theorem W4_arr (c : Dev nD) (w : Fin cfg1.W) :
    W4 m c (Proc.devRef .tc (Pipeline.arrRef spec1 w)) = (dat1 (E3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev E4 : (c : Dev nD) → (b : Ref sig .tc) → Buf (Elt F) ((c : Thread nD τ).loc b) := fun c b => W4 m c b
theorem hF1' (c : Dev nD) (w : Fin cfg1.W) : (dat1 (E3 m) c).arrAt w cfg1.N = E4 m c (Pipeline.arrRef spec1 w) :=
  (W4_arr m c w).symm
theorem hrest1' (c : Dev nD) : ∀ b, b ∉ Finset.univ.image (Pipeline.arrRef spec1) → E4 m c b = E3 m c b :=
  fun b hb => W4_of_ne m c b fun w e => hb (Finset.mem_image.mpr ⟨w, Finset.mem_univ _, e⟩)
/-- After the last host stretch: the contents at the return. -/
abbrev W5 : Dev nD → Valuation τ sig (Elt F) := fun c => StableHlo.after hostOps2 (W4 m c)

/-! ## The arguments end as launched -/

/-- A buffer that no host stretch writes and that is no array of either region holds at the end what it held at launch. -/
theorem W5_of_untouched (c : Dev nD) (r : Ref sig .tc) (h0 : r ∉ hostOps0_W) (h1 : r ∉ hostOps1_W) (h2 : r ∉ hostOps2_W)
    (ha : ∀ w, Pipeline.arrRef spec0 w ≠ r) (hb : ∀ w, Pipeline.arrRef spec1 w ≠ r) :
    W5 m c (Proc.devRef .tc r) = m ((c : Thread nD τ).loc r) :=
  calc W5 m c (Proc.devRef .tc r)
    _ = W4 m c (Proc.devRef .tc r) := StableHlo.after_of_writes_sub hostOps2 _ hostOps2_writes h2
    _ = W3 m c (Proc.devRef .tc r) := W4_of_ne m c r hb
    _ = W2 m c (Proc.devRef .tc r) := StableHlo.after_of_writes_sub hostOps1 _ hostOps1_writes h1
    _ = W1 m c (Proc.devRef .tc r) := W2_of_ne m c r ha
    _ = W0 m c (Proc.devRef .tc r) := StableHlo.after_of_writes_sub hostOps0 _ hostOps0_writes h0
    _ = m ((c : Thread nD τ).loc r) := rfl

theorem W5_main_arg0 (c : Dev nD) : W5 m c (Proc.devRef .tc main_arg0) = m ((c : Thread nD τ).loc main_arg0) :=
  W5_of_untouched m c main_arg0 (by decide) (by decide) (by decide) (by decide) (by decide)
theorem W5_main_arg1 (c : Dev nD) : W5 m c (Proc.devRef .tc main_arg1) = m ((c : Thread nD τ).loc main_arg1) :=
  W5_of_untouched m c main_arg1 (by decide) (by decide) (by decide) (by decide) (by decide)
theorem W5_main_arg2 (c : Dev nD) : W5 m c (Proc.devRef .tc main_arg2) = m ((c : Thread nD τ).loc main_arg2) :=
  W5_of_untouched m c main_arg2 (by decide) (by decide) (by decide) (by decide) (by decide)
theorem W5_main_arg4 (c : Dev nD) : W5 m c (Proc.devRef .tc main_arg4) = m ((c : Thread nD τ).loc main_arg4) :=
  W5_of_untouched m c main_arg4 (by decide) (by decide) (by decide) (by decide) (by decide)
theorem W5_main_arg5 (c : Dev nD) : W5 m c (Proc.devRef .tc main_arg5) = m ((c : Thread nD τ).loc main_arg5) :=
  W5_of_untouched m c main_arg5 (by decide) (by decide) (by decide) (by decide) (by decide)
theorem W5_main_arg6 (c : Dev nD) : W5 m c (Proc.devRef .tc main_arg6) = m ((c : Thread nD τ).loc main_arg6) :=
  W5_of_untouched m c main_arg6 (by decide) (by decide) (by decide) (by decide) (by decide)
theorem W5_main_arg7 (c : Dev nD) : W5 m c (Proc.devRef .tc main_arg7) = m ((c : Thread nD τ).loc main_arg7) :=
  W5_of_untouched m c main_arg7 (by decide) (by decide) (by decide) (by decide) (by decide)
theorem W5_main_arg8 (c : Dev nD) : W5 m c (Proc.devRef .tc main_arg8) = m ((c : Thread nD τ).loc main_arg8) :=
  W5_of_untouched m c main_arg8 (by decide) (by decide) (by decide) (by decide) (by decide)
theorem W5_main_arg9 (c : Dev nD) : W5 m c (Proc.devRef .tc main_arg9) = m ((c : Thread nD τ).loc main_arg9) :=
  W5_of_untouched m c main_arg9 (by decide) (by decide) (by decide) (by decide) (by decide)
theorem W5_main_arg10 (c : Dev nD) : W5 m c (Proc.devRef .tc main_arg10) = m ((c : Thread nD τ).loc main_arg10) :=
  W5_of_untouched m c main_arg10 (by decide) (by decide) (by decide) (by decide) (by decide)
/-- The bias is an input array of the attention region: the pipeline leaves an input array as it found it. -/
theorem W5_main_arg3 (c : Dev nD) : W5 m c (Proc.devRef .tc main_arg3) = m ((c : Thread nD τ).loc main_arg3) :=
  calc W5 m c (Proc.devRef .tc main_arg3)
    _ = W4 m c (Proc.devRef .tc main_arg3) := StableHlo.after_of_writes_sub hostOps2 _ hostOps2_writes (by decide)
    _ = W3 m c (Proc.devRef .tc main_arg3) := (W4_arr m c 3).trans (((dat1 (E3 m) c).arrAt_in 3 rfl _).trans (A_eq1 (E3 m) c 3))
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl

/-! ## The proof data family and the thread state -/

/-- No pipeline has a prefetched table. -/
abbrev hadm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) hadm p) c
  | ⟨0, _⟩ => fun c => dat0 (E1 m) c
  | ⟨1, _⟩ => fun c => dat1 (E3 m) c
abbrev 𝒱h : Variants := Variants.none
/-- No core owes another anything. -/
abbrev Lh : GSem nD τ sig → Finset Unit := fun _ => ∅
abbrev lvh : GSem nD τ sig → Unit → ℕ := fun _ _ => 0
/-- What rides beside the buffers through every segment: the generator register at some state, and nothing owed. -/
abbrev Rh (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱h Lh lvh :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rh
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last contents, the generator register at some state. -/
abbrev Tend (c : Dev nD) : sProp 𝕄 := iprop(StableHlo.held (c : Thread nD τ) (Pipeline.ucRefs τ sig) (W5 m c) ∗ ∃ r, prngReg c r)

/-! ## The regions as segments -/

set_option backward.isDefEq.respectTransparency.types false in
/-- Region 0 over the thread state: entered with every unscoped buffer at `W1`, left with them at `W2`. Its
    arrays are split out of the unscoped buffers on entry and put back at their exit contents; the generator register
    goes into the region's invariant and comes back; nothing is owed; the kernel has no semaphore of its own. -/
def reg0 : Pipeline.RegionSeg (pcfgs (F := F)) hadm (pdats m) () defs₀ 𝒱h Lh lvh 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ Lh lvh 0 fun _ _ => rfl
  pre c := iprop(StableHlo.held (c : Thread nD τ) (Pipeline.ucRefs τ sig) (W1 m c) ∗ Rh c)
  post c := iprop(StableHlo.held (c : Thread nD τ) (Pipeline.ucRefs τ sig) (W2 m c) ∗ Rh c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) hadm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) hadm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0' m c) (hrest0' m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W3`, left with them at `W4`. Its
    arrays are split out of the unscoped buffers on entry and put back at their exit contents; the generator register
    goes into the region's invariant and comes back; nothing is owed; the kernel has no semaphore of its own. -/
def reg1 : Pipeline.RegionSeg (pcfgs (F := F)) hadm (pdats m) () defs₀ 𝒱h Lh lvh 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ Lh lvh 1 fun _ _ => rfl
  pre c := iprop(StableHlo.held (c : Thread nD τ) (Pipeline.ucRefs τ sig) (W3 m c) ∗ Rh c)
  post c := iprop(StableHlo.held (c : Thread nD τ) (Pipeline.ucRefs τ sig) (W4 m c) ∗ Rh c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) hadm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) hadm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (hF1' m c) (hrest1' m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

abbrev hsegs : List (Pipeline.Seg (pcfgs (F := F)) hadm (pdats m) () defs₀ 𝒱h Lh lvh) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]
theorem main_run (c : Dev nD) : main (F := F) c = Pipeline.Seg.run (hsegs m) := (main_chain c).trans (by chain_rfl)

set_option backward.isDefEq.respectTransparency.types false in
/-- THE RUN. From any memory with zero counters, every weakly fair execution of the program on the TensorCores
    terminates, nothing faulting, and in every final state each unscoped buffer holds the last contents of the fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) hadm (pdats m) () cellOf_inj emb₁ defs₀ 𝒱h Lh lvh m ρ main (hsegs m)
    (fun c Q => by rw [main_run m c])
    (by simp only [hsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rh c)) (Tₙ := Tend m)
    (hch := ⟨fun _ => .rfl, fun _ => .rfl, fun _ => .rfl, fun _ => .rfl, fun _ => .rfl, fun c => by
      show (iprop(StableHlo.held (c : Thread nD τ) (Pipeline.ucRefs τ sig) (W5 m c) ∗ Rh c) : sProp 𝕄)
        ⊢ iprop(Tend m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach Lh lvh fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- THE FRAME: every weakly fair execution terminates, nothing faulting, with the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_arg0 (by decide))).trans (W5_main_arg0 m c),
    (h c _ (mem_uc main_arg1 (by decide))).trans (W5_main_arg1 m c),
    (h c _ (mem_uc main_arg2 (by decide))).trans (W5_main_arg2 m c),
    (h c _ (mem_uc main_arg3 (by decide))).trans (W5_main_arg3 m c),
    (h c _ (mem_uc main_arg4 (by decide))).trans (W5_main_arg4 m c),
    (h c _ (mem_uc main_arg5 (by decide))).trans (W5_main_arg5 m c),
    (h c _ (mem_uc main_arg6 (by decide))).trans (W5_main_arg6 m c),
    (h c _ (mem_uc main_arg7 (by decide))).trans (W5_main_arg7 m c),
    (h c _ (mem_uc main_arg8 (by decide))).trans (W5_main_arg8 m c),
    (h c _ (mem_uc main_arg9 (by decide))).trans (W5_main_arg9 m c),
    (h c _ (mem_uc main_arg10 (by decide))).trans (W5_main_arg10 m c)⟩) (run_all m ρ)

end Cert.Kernel.Hand

end
-- ==== Proof.KiRegion0.lean ====
/-
  The projection kernel's region, as the pipeline runs it. At every grid point (i, j) the body loads the block
  X[i, 512 j .. 512 j + 511, :], the whole matrix W[i] and the row B[i], and stores X-block · W[i] + B[i] over the
  whole output block. Stated at a PARAMETER `V`, the TensorCore's buffer contents when the region is entered, and at any
  float family: what each window's staging buffer holds after the body, the body's Hoare triple, the pipeline's
  proof data and the obligation the pipeline's launch asks of the body.
-/
import proofs.«117108_j26259430048704_1_alg».proof.Proof.Gen.KernelIdeal.Launch
import proofs.«117108_j26259430048704_1_alg».proof.Proof.Gen.KernelIdeal.Skeleton
import proofs.«117108_j26259430048704_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the pipeline fetched it there or
    kept it from an earlier point (its block index did not move). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles the body loads and stores through. -/
abbrev rX : Rect S1x512x1024 := Rect.unit (s := S1x512x1024) ![0, 0, 0] S1x512x1024.size inb_S1x512x1024_S1x512x1024_0_0_0
abbrev rW : Rect S1x1024x1024 := Rect.unit (s := S1x1024x1024) ![0, 0, 0] S1x1024x1024.size inb_S1x1024x1024_S1x1024x1024_0_0_0
abbrev rB : Rect S1x1x1024 := Rect.unit (s := S1x1x1024) ![0, 0, 0] S1x1x1024.size inb_S1x1x1024_S1x1x1024_0_0_0

/-- What the body leaves in the output window's staging buffer, from the three input blocks: its one store, of the
    product plus the bias row, over the whole block. -/
def out0_3 (x0 : Vec F S1x512x1024 .f32) (x1 : Vec F S1x1024x1024 .f32) (x2 : Vec F S1x1x1024 .f32) : Vec F S1x512x1024 .f32 :=
  View.canon [⟨rX, k0_pay1 (View.ld x0 rX) (View.ld x1 rW) (View.ld x2 rB)⟩]

/-- The one store covers the block. -/
theorem cover0_3 (p0 : Vec F S1x512x1024 .f32) (y : S1x512x1024.Idx) :
    ∃ pc ∈ ([⟨rX, p0⟩] : List (View.Piece (Elt F) S1x512x1024 .f32)), y ∈ pc.1.set :=
  View.cover_of_tiled [⟨rX, p0⟩] S1x512x1024.size (by rfl) y

set_option maxHeartbeats 1000000 in
/-- The body's triple: on whole staging buffers, the inputs' holding `x0`, `x1`, `x2` and the output's anything, the
    body runs to its continuation with the inputs' as they were and the output's at `out0_3 x0 x1 x2`. -/
theorem sound_kernel0 (c : Dev nD) (E : Set ℕ) (i : grid0.Coords) (arg2 : Memref sig .tc .vmem S1x512x1024 .f32) (harg2 : arg2.IsWhole) (arg3 : Memref sig .tc .vmem S1x1024x1024 .f32) (harg3 : arg3.IsWhole) (arg4 : Memref sig .tc .vmem S1x1x1024 .f32) (harg4 : arg4.IsWhole) (arg5 : Memref sig .tc .vmem S1x512x1024 .f32) (harg5 : arg5.IsWhole)
    (x0 : Vec F S1x512x1024 .f32) (x1 : Vec F S1x1024x1024 .f32) (x2 : Vec F S1x1x1024 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out0_3 x0 x1 x2)) -∗ K ⟨⟩))
      ⊢ wp frame (wpE (defs₀ (F := F)) Variants.none c none) E (cc0__proj_kernel i arg2 harg2 arg3 harg3 arg4 harg4 arg5 harg5) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The pipeline's proof data on core `c`: the arrays as the region finds them; after the body at point `t` each
    input's buffer still at its block and the output's at `out0_3` of the input blocks; the invariant is the scoped
    rest and the generator register, untouched; nothing is owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the pipeline calls the body with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it must return. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation the pipeline's launch asks of the body, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KiRegion1.lean ====
/-
  The attention kernel's region, as the pipeline runs it. At every grid point (h, j) the body loads 256 query rows of
  head h, all 2048 key rows and value rows of head h, the matching 256 x 2048 block of the bias and of the keep mask,
  forms the masked scores, their row-wise softmax and its product with the values, and stores that over the whole
  output block. Stated at a PARAMETER `V`, the TensorCore's buffer contents when the region is entered, and at any
  float family: what each window's staging buffer holds after the body, the body's Hoare triple, the pipeline's
  proof data and the obligation the pipeline's launch asks of the body.
-/
import proofs.«117108_j26259430048704_1_alg».proof.Proof.Gen.KernelIdeal.Launch
import proofs.«117108_j26259430048704_1_alg».proof.Proof.Gen.KernelIdeal.Skeleton
import proofs.«117108_j26259430048704_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the pipeline fetched it there or
    kept it from an earlier point (its block index did not move). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The whole-block rectangles the body loads and stores through. -/
abbrev rQ : Rect S1x256x64 := Rect.unit (s := S1x256x64) ![0, 0, 0] S1x256x64.size inb_S1x256x64_S1x256x64_0_0_0
abbrev rK : Rect S1x2048x64 := Rect.unit (s := S1x2048x64) ![0, 0, 0] S1x2048x64.size inb_S1x2048x64_S1x2048x64_0_0_0
abbrev rBias : Rect S1x256x2048 := Rect.unit (s := S1x256x2048) ![0, 0, 0] S1x256x2048.size inb_S1x256x2048_S1x256x2048_0_0_0
abbrev rKeep : Rect S256x2048 := Rect.unit (s := S256x2048) ![0, 0] S256x2048.size inb_S256x2048_S256x2048_0_0

/-- What the body leaves in the output window's staging buffer, from the five input blocks: its one store, of the
    softmax-weighted values, over the whole block. -/
def out1_5 (x0 : Vec F S1x256x64 .f32) (x1 : Vec F S1x2048x64 .f32) (x2 : Vec F S1x2048x64 .f32) (x3 : Vec F S1x256x2048 .f32) (x4 : Vec F S256x2048 .f32) : Vec F S1x256x64 .f32 :=
  View.canon [⟨rQ, k1_pay1 (k1_pay2 (View.ld x0 rQ) (View.ld x1 rK) (View.ld x2 rK) (View.ld x3 rBias) (View.ld x4 rKeep))⟩]

/-- The one store covers the block. -/
theorem cover1_5 (p0 : Vec F S1x256x64 .f32) (y : S1x256x64.Idx) :
    ∃ pc ∈ ([⟨rQ, p0⟩] : List (View.Piece (Elt F) S1x256x64 .f32)), y ∈ pc.1.set :=
  View.cover_of_tiled [⟨rQ, p0⟩] S1x256x64.size (by rfl) y

set_option maxHeartbeats 1000000 in
/-- The body's triple: on whole staging buffers, the inputs' holding `x0` … `x4` and the output's anything, the
    body runs to its continuation with the inputs' as they were and the output's at `out1_5 x0 x1 x2 x3 x4`. -/
theorem sound_kernel1 (c : Dev nD) (E : Set ℕ) (i : grid1.Coords) (arg2 : Memref sig .tc .vmem S1x256x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x256x2048 .f32) (harg5 : arg5.IsWhole) (arg6 : Memref sig .tc .vmem S256x2048 .f32) (harg6 : arg6.IsWhole) (arg7 : Memref sig .tc .vmem S1x256x64 .f32) (harg7 : arg7.IsWhole)
    (x0 : Vec F S1x256x64 .f32) (x1 : Vec F S1x2048x64 .f32) (x2 : Vec F S1x2048x64 .f32) (x3 : Vec F S1x256x2048 .f32) (x4 : Vec F S256x2048 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (out1_5 x0 x1 x2 x3 x4)) -∗ K ⟨⟩))
      ⊢ wp frame (wpE (defs₀ (F := F)) Variants.none c none) E (cc1__attn_kernel i arg2 harg2 arg3 harg3 arg4 harg4 arg5 harg5 arg6 harg6 arg7 harg7) K := by
  simp only [cc1__attn_kernel_eq_skeleton]; unfold cc1__attn_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The pipeline's proof data on core `c`: the arrays as the region finds them; after the body at point `t` each
    input's buffer still at its block and the output's at `out1_5` of the input blocks; the invariant is the scoped
    rest and the generator register, untouched; nothing is owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the pipeline calls the body with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it must return. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the triple applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The obligation the pipeline's launch asks of the body, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KiRun.lean ====
/-
  The whole program as the pipeline library runs it: three stretches of host operations around the two kernel regions.
  The TensorCore's buffer contents are followed from the launch memory through every boundary: a host stretch
  applies its operations, a region leaves in each of its arrays what its write-backs fold to and every other buffer
  as it was. The run theorem says that every weakly fair execution terminates without a fault in a state whose
  unscoped buffers hold the last of those contents; the arguments are read back through the fold to their launch
  contents. Everything is stated at any float family.
-/
import proofs.«117108_j26259430048704_1_alg».proof.Proof.KiRegion0
import proofs.«117108_j26259430048704_1_alg».proof.Proof.KiRegion1
import proofs.«117108_j26259430048704_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- After the first host stretch: what the projection region is entered with. -/
abbrev W1 : Dev nD → Valuation τ sig (Elt F) := fun c => StableHlo.after hostOps0 (W0 m c)
/-- The same, read at the TensorCore's references. -/
abbrev E1 : (c : Dev nD) → (b : Ref sig .tc) → Buf (Elt F) ((c : Thread nD τ).loc b) := fun c b => W1 m c b
/-- At the projection region's exit: its arrays at what the pipeline leaves, every other buffer as entered. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev E2 : (c : Dev nD) → (b : Ref sig .tc) → Buf (Elt F) ((c : Thread nD τ).loc b) := fun c b => W2 m c b
theorem hF0' (c : Dev nD) (w : Fin cfg0.W) : (dat0 (E1 m) c).arrAt w cfg0.N = E2 m c (Pipeline.arrRef spec0 w) :=
  (W2_arr m c w).symm
theorem hrest0' (c : Dev nD) : ∀ b, b ∉ Finset.univ.image (Pipeline.arrRef spec0) → E2 m c b = E1 m c b :=
  fun b hb => W2_of_ne m c b fun w e => hb (Finset.mem_image.mpr ⟨w, Finset.mem_univ _, e⟩)

/-- After the second host stretch: what the attention region is entered with. -/
abbrev W3 : Dev nD → Valuation τ sig (Elt F) := fun c => StableHlo.after hostOps1 (W2 m c)
abbrev E3 : (c : Dev nD) → (b : Ref sig .tc) → Buf (Elt F) ((c : Thread nD τ).loc b) := fun c b => W3 m c b
/-- At the attention region's exit. -/
def W4 (c : Dev nD) : Valuation τ sig (Elt F) :=
  Pipeline.withArrays spec1 c (W3 m c) fun w => (dat1 (E3 m) c).arrAt w cfg1.N
theorem W4_arr (c : Dev nD) (w : Fin cfg1.W) :
    W4 m c (Proc.devRef .tc (Pipeline.arrRef spec1 w)) = (dat1 (E3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev E4 : (c : Dev nD) → (b : Ref sig .tc) → Buf (Elt F) ((c : Thread nD τ).loc b) := fun c b => W4 m c b
theorem hF1' (c : Dev nD) (w : Fin cfg1.W) : (dat1 (E3 m) c).arrAt w cfg1.N = E4 m c (Pipeline.arrRef spec1 w) :=
  (W4_arr m c w).symm
theorem hrest1' (c : Dev nD) : ∀ b, b ∉ Finset.univ.image (Pipeline.arrRef spec1) → E4 m c b = E3 m c b :=
  fun b hb => W4_of_ne m c b fun w e => hb (Finset.mem_image.mpr ⟨w, Finset.mem_univ _, e⟩)
/-- After the last host stretch: the contents at the return. -/
abbrev W5 : Dev nD → Valuation τ sig (Elt F) := fun c => StableHlo.after hostOps2 (W4 m c)

/-! ## The arguments end as launched -/

/-- A buffer that no host stretch writes and that is no array of either region holds at the end what it held at launch. -/
theorem W5_of_untouched (c : Dev nD) (r : Ref sig .tc) (h0 : r ∉ hostOps0_W) (h1 : r ∉ hostOps1_W) (h2 : r ∉ hostOps2_W)
    (ha : ∀ w, Pipeline.arrRef spec0 w ≠ r) (hb : ∀ w, Pipeline.arrRef spec1 w ≠ r) :
    W5 m c (Proc.devRef .tc r) = m ((c : Thread nD τ).loc r) :=
  calc W5 m c (Proc.devRef .tc r)
    _ = W4 m c (Proc.devRef .tc r) := StableHlo.after_of_writes_sub hostOps2 _ hostOps2_writes h2
    _ = W3 m c (Proc.devRef .tc r) := W4_of_ne m c r hb
    _ = W2 m c (Proc.devRef .tc r) := StableHlo.after_of_writes_sub hostOps1 _ hostOps1_writes h1
    _ = W1 m c (Proc.devRef .tc r) := W2_of_ne m c r ha
    _ = W0 m c (Proc.devRef .tc r) := StableHlo.after_of_writes_sub hostOps0 _ hostOps0_writes h0
    _ = m ((c : Thread nD τ).loc r) := rfl

theorem W5_main_arg0 (c : Dev nD) : W5 m c (Proc.devRef .tc main_arg0) = m ((c : Thread nD τ).loc main_arg0) :=
  W5_of_untouched m c main_arg0 (by decide) (by decide) (by decide) (by decide) (by decide)
theorem W5_main_arg1 (c : Dev nD) : W5 m c (Proc.devRef .tc main_arg1) = m ((c : Thread nD τ).loc main_arg1) :=
  W5_of_untouched m c main_arg1 (by decide) (by decide) (by decide) (by decide) (by decide)
theorem W5_main_arg2 (c : Dev nD) : W5 m c (Proc.devRef .tc main_arg2) = m ((c : Thread nD τ).loc main_arg2) :=
  W5_of_untouched m c main_arg2 (by decide) (by decide) (by decide) (by decide) (by decide)
theorem W5_main_arg4 (c : Dev nD) : W5 m c (Proc.devRef .tc main_arg4) = m ((c : Thread nD τ).loc main_arg4) :=
  W5_of_untouched m c main_arg4 (by decide) (by decide) (by decide) (by decide) (by decide)
theorem W5_main_arg5 (c : Dev nD) : W5 m c (Proc.devRef .tc main_arg5) = m ((c : Thread nD τ).loc main_arg5) :=
  W5_of_untouched m c main_arg5 (by decide) (by decide) (by decide) (by decide) (by decide)
theorem W5_main_arg6 (c : Dev nD) : W5 m c (Proc.devRef .tc main_arg6) = m ((c : Thread nD τ).loc main_arg6) :=
  W5_of_untouched m c main_arg6 (by decide) (by decide) (by decide) (by decide) (by decide)
theorem W5_main_arg7 (c : Dev nD) : W5 m c (Proc.devRef .tc main_arg7) = m ((c : Thread nD τ).loc main_arg7) :=
  W5_of_untouched m c main_arg7 (by decide) (by decide) (by decide) (by decide) (by decide)
theorem W5_main_arg8 (c : Dev nD) : W5 m c (Proc.devRef .tc main_arg8) = m ((c : Thread nD τ).loc main_arg8) :=
  W5_of_untouched m c main_arg8 (by decide) (by decide) (by decide) (by decide) (by decide)
theorem W5_main_arg9 (c : Dev nD) : W5 m c (Proc.devRef .tc main_arg9) = m ((c : Thread nD τ).loc main_arg9) :=
  W5_of_untouched m c main_arg9 (by decide) (by decide) (by decide) (by decide) (by decide)
theorem W5_main_arg10 (c : Dev nD) : W5 m c (Proc.devRef .tc main_arg10) = m ((c : Thread nD τ).loc main_arg10) :=
  W5_of_untouched m c main_arg10 (by decide) (by decide) (by decide) (by decide) (by decide)
/-- The bias is an input array of the attention region: the pipeline leaves an input array as it found it. -/
theorem W5_main_arg3 (c : Dev nD) : W5 m c (Proc.devRef .tc main_arg3) = m ((c : Thread nD τ).loc main_arg3) :=
  calc W5 m c (Proc.devRef .tc main_arg3)
    _ = W4 m c (Proc.devRef .tc main_arg3) := StableHlo.after_of_writes_sub hostOps2 _ hostOps2_writes (by decide)
    _ = W3 m c (Proc.devRef .tc main_arg3) := (W4_arr m c 3).trans (((dat1 (E3 m) c).arrAt_in 3 rfl _).trans (A_eq1 (E3 m) c 3))
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl

/-! ## The proof data family and the thread state -/

/-- No pipeline has a prefetched table. -/
abbrev hadm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) hadm p) c
  | ⟨0, _⟩ => fun c => dat0 (E1 m) c
  | ⟨1, _⟩ => fun c => dat1 (E3 m) c
abbrev 𝒱h : Variants := Variants.none
/-- No core owes another anything. -/
abbrev Lh : GSem nD τ sig → Finset Unit := fun _ => ∅
abbrev lvh : GSem nD τ sig → Unit → ℕ := fun _ _ => 0
/-- What rides beside the buffers through every segment: the generator register at some state, and nothing owed. -/
abbrev Rh (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱h Lh lvh :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rh
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last contents, the generator register at some state. -/
abbrev Tend (c : Dev nD) : sProp 𝕄 := iprop(StableHlo.held (c : Thread nD τ) (Pipeline.ucRefs τ sig) (W5 m c) ∗ ∃ r, prngReg c r)

/-! ## The regions as segments -/

set_option backward.isDefEq.respectTransparency.types false in
/-- Region 0 over the thread state: entered with every unscoped buffer at `W1`, left with them at `W2`. Its
    arrays are split out of the unscoped buffers on entry and put back at their exit contents; the generator register
    goes into the region's invariant and comes back; nothing is owed; the kernel has no semaphore of its own. -/
def reg0 : Pipeline.RegionSeg (pcfgs (F := F)) hadm (pdats m) () defs₀ 𝒱h Lh lvh 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ Lh lvh 0 fun _ _ => rfl
  pre c := iprop(StableHlo.held (c : Thread nD τ) (Pipeline.ucRefs τ sig) (W1 m c) ∗ Rh c)
  post c := iprop(StableHlo.held (c : Thread nD τ) (Pipeline.ucRefs τ sig) (W2 m c) ∗ Rh c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) hadm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) hadm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0' m c) (hrest0' m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W3`, left with them at `W4`. Its
    arrays are split out of the unscoped buffers on entry and put back at their exit contents; the generator register
    goes into the region's invariant and comes back; nothing is owed; the kernel has no semaphore of its own. -/
def reg1 : Pipeline.RegionSeg (pcfgs (F := F)) hadm (pdats m) () defs₀ 𝒱h Lh lvh 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ Lh lvh 1 fun _ _ => rfl
  pre c := iprop(StableHlo.held (c : Thread nD τ) (Pipeline.ucRefs τ sig) (W3 m c) ∗ Rh c)
  post c := iprop(StableHlo.held (c : Thread nD τ) (Pipeline.ucRefs τ sig) (W4 m c) ∗ Rh c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) hadm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) hadm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (hF1' m c) (hrest1' m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

abbrev hsegs : List (Pipeline.Seg (pcfgs (F := F)) hadm (pdats m) () defs₀ 𝒱h Lh lvh) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]
theorem main_run (c : Dev nD) : main (F := F) c = Pipeline.Seg.run (hsegs m) := (main_chain c).trans (by chain_rfl)

set_option backward.isDefEq.respectTransparency.types false in
/-- THE RUN. From any memory with zero counters, every weakly fair execution of the program on the TensorCores
    terminates, nothing faulting, and in every final state each unscoped buffer holds the last contents of the fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) hadm (pdats m) () cellOf_inj emb₁ defs₀ 𝒱h Lh lvh m ρ main (hsegs m)
    (fun c Q => by rw [main_run m c])
    (by simp only [hsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rh c)) (Tₙ := Tend m)
    (hch := ⟨fun _ => .rfl, fun _ => .rfl, fun _ => .rfl, fun _ => .rfl, fun _ => .rfl, fun c => by
      show (iprop(StableHlo.held (c : Thread nD τ) (Pipeline.ucRefs τ sig) (W5 m c) ∗ Rh c) : sProp 𝕄)
        ⊢ iprop(Tend m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach Lh lvh fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- THE FRAME: every weakly fair execution terminates, nothing faulting, with the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_arg0 (by decide))).trans (W5_main_arg0 m c),
    (h c _ (mem_uc main_arg1 (by decide))).trans (W5_main_arg1 m c),
    (h c _ (mem_uc main_arg2 (by decide))).trans (W5_main_arg2 m c),
    (h c _ (mem_uc main_arg3 (by decide))).trans (W5_main_arg3 m c),
    (h c _ (mem_uc main_arg4 (by decide))).trans (W5_main_arg4 m c),
    (h c _ (mem_uc main_arg5 (by decide))).trans (W5_main_arg5 m c),
    (h c _ (mem_uc main_arg6 (by decide))).trans (W5_main_arg6 m c),
    (h c _ (mem_uc main_arg7 (by decide))).trans (W5_main_arg7 m c),
    (h c _ (mem_uc main_arg8 (by decide))).trans (W5_main_arg8 m c),
    (h c _ (mem_uc main_arg9 (by decide))).trans (W5_main_arg9 m c),
    (h c _ (mem_uc main_arg10 (by decide))).trans (W5_main_arg10 m c)⟩) (run_all m ρ)

end Cert.KernelIdeal.Hand

end
-- ==== Proof.KiHost.lean ====
/-
  What the three stretches of host operations compute, read off the fold of buffer contents. Before the projection
  region: the three inputs, the three matrices and the three bias rows stacked along a new leading axis. Between the
  regions: each projected slice re-laid as heads (the queries also scaled by 1/8), and the keep mask, ones with the
  indicator of explored ≠ 0 written from (1, 1) on. After the attention region: the heads re-laid as one matrix.
-/
import proofs.«117108_j26259430048704_1_alg».proof.Proof.KiRun
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem Idealize.ShloMosaic.StableHlo

variable {F : FTy → Type} [FloatOps F]
variable (m : (ℓ : Loc nD τ sig) → Buf (Elt F) ℓ)

/-! ## The fold read at a buffer -/

/-- A three-operand operation's result at its own buffer: its function at the three operands' contents, each read at its
    own reference. -/
private theorem nary3_result {x a b y : Ref sig .tc}
    (f : ((k : Fin 3) → ((![x, a, b] : Fin 3 → Ref sig .tc) k).ty.Contents (Elt F)) → y.ty.Contents (Elt F)) (hxs hy)
    (V : Valuation τ sig (Elt F)) :
    (StableHlo.nary (τ := τ) ![x, a, b] y f hxs hy).result V (Proc.devRef .tc y)
      = f (Fin.cons (V (Proc.devRef .tc x)) (Fin.cons (V (Proc.devRef .tc a)) (Fin.cons (V (Proc.devRef .tc b)) (fun i => i.elim0)))) := by
  rw [nary_result]; congr 1; funext k
  match k with
  | ⟨0, _⟩ => rfl
  | ⟨1, _⟩ => rfl
  | ⟨2, _⟩ => rfl

/-- The first stretch's fold read at one buffer: an operation's result at its own buffer is its function of its operands'
    contents, at any other buffer what was there. -/
local macro "results3" : tactic =>
  `(tactic| (simp only [after_cons, after_nil]
             repeat (first
               | rw [nary3_result] | rw [unary_result] | rw [reshape_result]
               | (rw [unary_result_ne]; rotate_left; decide)
               | (rw [nary_result_ne]; rotate_left; decide)
               | (rw [reshape_result_ne]; rotate_left; decide))))

/-! ## Before the projection region: the stacked operands -/

/-- The i-th input, matrix and bias among the program's arguments. -/
def stackX (c : Dev nD) : Fin 3 → FVec F S2048x1024 .f32
  | 0 => m ((c : Thread nD τ).loc main_arg0) | 1 => m ((c : Thread nD τ).loc main_arg1) | 2 => m ((c : Thread nD τ).loc main_arg2)
def stackW (c : Dev nD) : Fin 3 → FVec F S1024x1024 .f32
  | 0 => m ((c : Thread nD τ).loc main_arg5) | 1 => m ((c : Thread nD τ).loc main_arg7) | 2 => m ((c : Thread nD τ).loc main_arg9)
def stackB (c : Dev nD) : Fin 3 → FVec F S1024 .f32
  | 0 => m ((c : Thread nD τ).loc main_arg6) | 1 => m ((c : Thread nD τ).loc main_arg8) | 2 => m ((c : Thread nD τ).loc main_arg10)

/-- A matrix given a leading unit axis, read at `(u, r, k)`: the matrix at `(r, k)`. -/
private theorem lead_apply {α : Type} {a b : ℕ} (x : (⟨2, ![a, b]⟩ : Shape).Idx → α) (ha : a ≠ 1) (hb : b ≠ 1)
    (h : (⟨2, ![a, b]⟩ : Shape).BroadcastsInDim ⟨3, ![1, a, b]⟩ ![1, 2]) (u : Fin 1) (r : Fin a) (k : Fin b) :
    broadcastInDim ⟨3, ![1, a, b]⟩ ![1, 2] h x (ix3 u r k) = x (ix2 r k) :=
  broadcastInDim_apply _ h x _ _ fun ax => match ax with
    | ⟨0, _⟩ => (if_neg ha).symm
    | ⟨1, _⟩ => (if_neg hb).symm

theorem E1_v3_apply (c : Dev nD) (i : Fin 3) (r : Fin 2048) (k : Fin 1024) :
    (E1 m c main_v3 : FVec F S3x2048x1024 .f32) (ix3 i r k) = stackX m c i (ix2 r k) := by
  have e : (E1 m c main_v3 : FVec F S3x2048x1024 .f32)
      = concatenate S3x2048x1024 0
          (List.ofFn fun n : Fin 3 => (⟨S1x2048x1024, broadcastInDim S1x2048x1024 ![1, 2] bcast_S2048x1024_S1x2048x1024_1_2 (stackX m c n)⟩ : (s : Shape) × (s.Idx → F .f32)))
          concatenates_S1x2048x1024_S1x2048x1024_S1x2048x1024_S3x2048x1024_d0 := by
    show StableHlo.after hostOps0 _ (Proc.devRef .tc main_v3) = _
    results3; rfl
  refine (congrFun e _).trans ?_
  refine Eq.trans (concatenate_ofFn_unit_apply (t := S3x2048x1024) (s₁ := S1x2048x1024) 0 _ _ rfl rfl (ix3 i r k) i rfl (ix3 0 r k)
      (fun b hb => match b with | ⟨0, _⟩ => absurd rfl hb | ⟨1, _⟩ => rfl | ⟨2, _⟩ => rfl)) ?_
  exact lead_apply _ (by decide) (by decide) _ 0 r k

theorem E1_v7_apply (c : Dev nD) (i : Fin 3) (k : Fin 1024) (cc : Fin 1024) :
    (E1 m c main_v7 : FVec F S3x1024x1024 .f32) (ix3 i k cc) = stackW m c i (ix2 k cc) := by
  have e : (E1 m c main_v7 : FVec F S3x1024x1024 .f32)
      = concatenate S3x1024x1024 0
          (List.ofFn fun n : Fin 3 => (⟨S1x1024x1024, broadcastInDim S1x1024x1024 ![1, 2] bcast_S1024x1024_S1x1024x1024_1_2 (stackW m c n)⟩ : (s : Shape) × (s.Idx → F .f32)))
          concatenates_S1x1024x1024_S1x1024x1024_S1x1024x1024_S3x1024x1024_d0 := by
    show StableHlo.after hostOps0 _ (Proc.devRef .tc main_v7) = _
    results3; rfl
  refine (congrFun e _).trans ?_
  refine Eq.trans (concatenate_ofFn_unit_apply (t := S3x1024x1024) (s₁ := S1x1024x1024) 0 _ _ rfl rfl (ix3 i k cc) i rfl (ix3 0 k cc)
      (fun b hb => match b with | ⟨0, _⟩ => absurd rfl hb | ⟨1, _⟩ => rfl | ⟨2, _⟩ => rfl)) ?_
  exact lead_apply _ (by decide) (by decide) _ 0 k cc
theorem E1_v12_apply (c : Dev nD) (i : Fin 3) (cc : Fin 1024) :
    (E1 m c main_v12 : FVec F S3x1x1024 .f32) (ix3 i 0 cc) = stackB m c i (ix1 cc) := by
  have e : (E1 m c main_v12 : FVec F S3x1x1024 .f32)
      = shapeCast S3x1x1024 (concatenate S3x1024 0
          (List.ofFn fun n : Fin 3 => (⟨S1x1024, broadcastInDim S1x1024 ![1] bcast_S1024_S1x1024_1 (stackB m c n)⟩ : (s : Shape) × (s.Idx → F .f32)))
          concatenates_S1x1024_S1x1024_S1x1024_S3x1024_d0) shapeCasts_S3x1024_S3x1x1024 := by
    show StableHlo.after hostOps0 _ (Proc.devRef .tc main_v12) = _
    results3; rfl
  refine (congrFun e _).trans ?_
  refine (shapeCast_apply _ _ _ (ix2 i cc) ?_).trans ?_
  · rw [Shape.rowMajor_val_two, Shape.rowMajor_val_three]
    show i.val * 1024 + cc.val = (i.val * 1 + 0) * 1024 + cc.val
    omega
  refine Eq.trans (concatenate_ofFn_unit_apply (t := S3x1024) (s₁ := S1x1024) 0 _ _ rfl rfl (ix2 i cc) i rfl (ix2 0 cc)
      (fun b hb => match b with | ⟨0, _⟩ => absurd rfl hb | ⟨1, _⟩ => rfl)) ?_
  exact broadcastInDim_apply _ _ _ _ (ix1 cc) fun ax => match ax with | ⟨0, _⟩ => (if_neg (show ¬(1024 : ℕ) = 1 by decide)).symm

/-! ## Between the regions -/

/-- Slice i of the projection region's output array, as a matrix. -/
def projSlice (c : Dev nD) (i : Fin 3) : FVec F S2048x1024 .f32 :=
  fun j => (E2 m c main_v13 : FVec F S3x2048x1024 .f32) (ix3 i (j 0) (j 1))

theorem projSlice_apply (c : Dev nD) (i : Fin 3) (r : Fin 2048) (cc : Fin 1024) :
    projSlice m c i (ix2 r cc) = (E2 m c main_v13 : FVec F S3x2048x1024 .f32) (ix3 i r cc) := rfl

/-- The unit-thick slab cut at `i` along the leading axis, its unit axis dropped, is slice `i`: at `(r, cc)` both read
    the array at `(i, r, cc)`. -/
private theorem slab_eq (c : Dev nD) (i : Fin 3) (h : S3x2048x1024.Slices ![i.val, 0, 0] S1x2048x1024) :
    shapeCast S2048x1024 (extractStridedSlice S1x2048x1024 ![i.val, 0, 0] (E2 m c main_v13 : FVec F S3x2048x1024 .f32) h)
        shapeCasts_S1x2048x1024_S2048x1024 = projSlice m c i := by
  funext j
  obtain ⟨r, cc, rfl⟩ : ∃ r cc, j = ix2 r cc := ⟨j 0, j 1, eq_ix2 j⟩
  refine (shapeCast_1ab_ab_apply _ _ r cc).trans ?_
  exact extractStridedSlice_apply _ _ _ _ (ix3 i r cc) fun a => match a with
    | ⟨0, _⟩ => rfl
    | ⟨1, _⟩ => (Nat.zero_add _).symm
    | ⟨2, _⟩ => (Nat.zero_add _).symm

/-- The query heads: slice 0 split into heads, the head axis moved first, scaled by 1/8. -/
theorem E3_v23 (c : Dev nD) :
    (E3 m c main_v23 : FVec F S16x2048x64 .f32)
      = mulf (transpose S16x2048x64 [1, 0, 2] (shapeCast S2048x16x64 (projSlice m c 0) shapeCasts_S2048x1024_S2048x16x64) transposes_S2048x16x64_S16x2048x64_1_0_2)
          (broadcastInDim S16x2048x64 ![] bcast_S_S16x2048x64 (constant S_ .f32 0x3E000000#32)) := by
  have e : (E3 m c main_v23 : FVec F S16x2048x64 .f32)
      = mulf (transpose S16x2048x64 [1, 0, 2] (shapeCast S2048x16x64
            (shapeCast S2048x1024 (extractStridedSlice S1x2048x1024 ![0, 0, 0] (E2 m c main_v13 : FVec F S3x2048x1024 .f32) slices_S3x2048x1024_S1x2048x1024_0_0_0)
              shapeCasts_S1x2048x1024_S2048x1024)
            shapeCasts_S2048x1024_S2048x16x64) transposes_S2048x16x64_S16x2048x64_1_0_2)
          (broadcastInDim S16x2048x64 ![] bcast_S_S16x2048x64 (constant S_ .f32 0x3E000000#32)) := by
    show StableHlo.after hostOps1 _ (Proc.devRef .tc main_v23) = _
    after_results; rfl
  exact e.trans (congrArg (fun x => mulf (transpose S16x2048x64 [1, 0, 2] (shapeCast S2048x16x64 x shapeCasts_S2048x1024_S2048x16x64) transposes_S2048x16x64_S16x2048x64_1_0_2)
    (broadcastInDim S16x2048x64 ![] bcast_S_S16x2048x64 (constant S_ .f32 0x3E000000#32))) (slab_eq m c 0 slices_S3x2048x1024_S1x2048x1024_0_0_0))
/-- The key heads and the value heads: slices 1 and 2 split into heads, the head axis moved first. -/
theorem E3_v25 (c : Dev nD) :
    (E3 m c main_v25 : FVec F S16x2048x64 .f32)
      = transpose S16x2048x64 [1, 0, 2] (shapeCast S2048x16x64 (projSlice m c 1) shapeCasts_S2048x1024_S2048x16x64) transposes_S2048x16x64_S16x2048x64_1_0_2 := by
  have e : (E3 m c main_v25 : FVec F S16x2048x64 .f32)
      = transpose S16x2048x64 [1, 0, 2] (shapeCast S2048x16x64
            (shapeCast S2048x1024 (extractStridedSlice S1x2048x1024 ![1, 0, 0] (E2 m c main_v13 : FVec F S3x2048x1024 .f32) slices_S3x2048x1024_S1x2048x1024_1_0_0)
              shapeCasts_S1x2048x1024_S2048x1024)
            shapeCasts_S2048x1024_S2048x16x64) transposes_S2048x16x64_S16x2048x64_1_0_2 := by
    show StableHlo.after hostOps1 _ (Proc.devRef .tc main_v25) = _
    after_results; rfl
  exact e.trans (congrArg (fun x => transpose S16x2048x64 [1, 0, 2] (shapeCast S2048x16x64 x shapeCasts_S2048x1024_S2048x16x64) transposes_S2048x16x64_S16x2048x64_1_0_2)
    (slab_eq m c 1 slices_S3x2048x1024_S1x2048x1024_1_0_0))
theorem E3_v27 (c : Dev nD) :
    (E3 m c main_v27 : FVec F S16x2048x64 .f32)
      = transpose S16x2048x64 [1, 0, 2] (shapeCast S2048x16x64 (projSlice m c 2) shapeCasts_S2048x1024_S2048x16x64) transposes_S2048x16x64_S16x2048x64_1_0_2 := by
  have e : (E3 m c main_v27 : FVec F S16x2048x64 .f32)
      = transpose S16x2048x64 [1, 0, 2] (shapeCast S2048x16x64
            (shapeCast S2048x1024 (extractStridedSlice S1x2048x1024 ![2, 0, 0] (E2 m c main_v13 : FVec F S3x2048x1024 .f32) slices_S3x2048x1024_S1x2048x1024_2_0_0)
              shapeCasts_S1x2048x1024_S2048x1024)
            shapeCasts_S2048x1024_S2048x16x64) transposes_S2048x16x64_S16x2048x64_1_0_2 := by
    show StableHlo.after hostOps1 _ (Proc.devRef .tc main_v27) = _
    after_results; rfl
  exact e.trans (congrArg (fun x => transpose S16x2048x64 [1, 0, 2] (shapeCast S2048x16x64 x shapeCasts_S2048x1024_S2048x16x64) transposes_S2048x16x64_S16x2048x64_1_0_2)
    (slab_eq m c 2 slices_S3x2048x1024_S1x2048x1024_2_0_0))
/-- The bias is the program's argument still. -/
theorem E3_arg3 (c : Dev nD) : E3 m c main_arg3 = m ((c : Thread nD τ).loc main_arg3) :=
  calc W3 m c (Proc.devRef .tc main_arg3)
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl
/-- The keep mask as floats: ones, overwritten from (1, 1) on by the indicator of explored ≠ 0. -/
theorem E3_v35 (c : Dev nD) :
    (E3 m c main_v35 : FVec F S2048x2048 .f32)
      = Host.scatter scatter_S2048x2048_S2_S2047x2047_01_n_01_0 (fun _ b => b)
          (broadcastInDim S2048x2048 ![] bcast_S_S2048x2048 (constant (F := F) S_ .f32 0x3F800000#32))
          (concatenate S2 0 [⟨S1, broadcastInDim S1 ![] bcast_S_S1 (constantI S_ 32 1#32)⟩, ⟨S1, broadcastInDim S1 ![] bcast_S_S1 (constantI S_ 32 1#32)⟩] concatenates_S1_S1_S2_d0)
          (uitofp (F := F) .f32 (cmpi .ne (m ((c : Thread nD τ).loc main_arg4) : IVec S2047x2047 32) (broadcastInDim S2047x2047 ![] bcast_S_S2047x2047 (constantI S_ 32 0#32)))) := by
  have h4 : W2 m c (Proc.devRef .tc main_arg4) = m ((c : Thread nD τ).loc main_arg4) :=
    (W2_of_ne m c main_arg4 (by decide)).trans (StableHlo.after_of_writes_sub hostOps0 _ hostOps0_writes (by decide))
  show StableHlo.after hostOps1 _ (Proc.devRef .tc main_v35) = _
  after_results
  rw [h4]

/-! ## After the attention region -/

/-- The result: the attention region's output with the head axis moved back and merged. -/
theorem W5_v38 (c : Dev nD) :
    (W5 m c main_v38 : FVec F S2048x1024 .f32)
      = shapeCast S2048x1024 (transpose S2048x16x64 [1, 0, 2] (E4 m c main_v36 : FVec F S16x2048x64 .f32) transposes_S16x2048x64_S2048x16x64_1_0_2) shapeCasts_S2048x16x64_S2048x1024 := by
  show StableHlo.after hostOps2 _ (Proc.devRef .tc main_v38) = _
  after_results; rfl

end Cert.KernelIdeal.Hand

end
-- ==== Proof.Spec.lean ====
/-
  The functions the certificate is about, written over the extended reals with explicit coordinates and no program in
  sight. `projAt` is one entry of a projection x · w + b. `rowAttn` is softmax attention along ONE row: the row's scores
  are shifted by their maximum (taken from −∞), exponentiated, divided by their sum, and the resulting weights average
  the row of values. `maskedScore` is a score with its bias, replaced by zero where the keep bit is clear.
-/
import Idealize.ShloMosaic.PureOps.Ideal
import Idealize.ShloMosaic.Lib.ValueIdx

noncomputable section

namespace Cert.Spec

open Idealize.ShloMosaic Idealize.ShloMosaic.ValueIdx

/-- Arrays of extended reals over literal shapes. -/
abbrev A1 (a : Nat) := (⟨1, ![a]⟩ : Shape).Idx → EReal
abbrev A2 (a b : Nat) := (⟨2, ![a, b]⟩ : Shape).Idx → EReal
abbrev A3 (a b c : Nat) := (⟨3, ![a, b, c]⟩ : Shape).Idx → EReal

/-- The two float patterns that occur: −∞ (the maximum's starting value) and 0 (the masked score). -/
abbrev negInf : EReal := Ideal.ofBits .f32 0xFF800000#32
abbrev zeroF : EReal := Ideal.ofBits .f32 0x00000000#32

/-- Entry (r, c) of x · w + b. -/
def projAt (x : A2 2048 1024) (w : A2 1024 1024) (b : A1 1024) (r : Fin 2048) (c : Fin 1024) : EReal :=
  (∑ k : Fin 1024, x (ix2 r k) * w (ix2 k c)) + b (ix1 c)

/-- A score plus its bias where the keep bit is set, zero where it is clear. -/
def maskedScore (keep : BitVec 1) (qk bias : EReal) : EReal := Scalar.select keep (qk + bias) zeroF

/-- The largest score of a row, taken from −∞. -/
def rowMax (s : Fin 2048 → EReal) : EReal :=
  max negInf ((Finset.univ : Finset (Fin 2048)).fold max negInf s)

/-- Softmax attention along one row: scores `s`, values `v`. -/
def rowAttn (s v : Fin 2048 → EReal) : EReal :=
  ∑ m : Fin 2048, Ideal.div (Ideal.exp (s m - rowMax s)) (∑ m' : Fin 2048, Ideal.exp (s m' - rowMax s)) * v m

end Cert.Spec

end
-- ==== Proof.KiValue0.lean ====
/-
  What the projection region leaves in its output array, entry by entry at the exact instance: entry (i, r, c) is the
  inner product of row r of the i-th stacked input with column c of the i-th stacked matrix, plus entry c of the i-th
  stacked bias row. The body's payload is read at an index; a grid point writes back its block of that function; the
  blocks cover the array.
-/
import proofs.«117108_j26259430048704_1_alg».proof.Proof.KiRegion0
import proofs.«117108_j26259430048704_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-- The product's operand indices at output index `i` and contraction index `q`, axis by axis: the left operand is read at
    (row of `i`, `q`), the right operand at (`q`, column of `i`). -/
private theorem lhs_proj_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
private theorem lhs_proj_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
private theorem rhs_proj_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
private theorem rhs_proj_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The block product at (p, q): the sum over the contraction coordinate of the operands' products. -/
private theorem matmul_proj_apply (a : FVec Ideal S512x1024 .bf16) (b : FVec Ideal S1024x1024 .bf16) (p : Fin 512) (q : Fin 1024) :
    matmul (F := Ideal) dot_S512x1024_S1024x1024_S512x1024_1_0_0_1_n_n none a b (constant (F := Ideal) S512x1024 .f32 0x00000000#32) (ix2 p q)
      = ∑ k : Fin 1024, a (ix2 p k) * b (ix2 k q) := by
  simp only [matmul]
  rw [Ideal.matmul_constant_zero_apply, ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 p q) ((contrEquiv1 dot_S512x1024_S1024x1024_S512x1024_1_0_0_1_n_n 1024 rfl rfl).symm k) = ix2 p k := funext fun a => Fin.ext (by
    match a with
    | ⟨0, _⟩ => exact lhs_proj_0 _ _
    | ⟨1, _⟩ => exact (lhs_proj_1 _ _).trans hk)
  have er : dot_S512x1024_S1024x1024_S512x1024_1_0_0_1_n_n.rhsIdx (ix2 p q) ((contrEquiv1 dot_S512x1024_S1024x1024_S512x1024_1_0_0_1_n_n 1024 rfl rfl).symm k) = ix2 k q := funext fun a => Fin.ext (by
    match a with
    | ⟨0, _⟩ => exact (rhs_proj_0 _ _).trans hk
    | ⟨1, _⟩ => exact rhs_proj_1 _ _)
  rw [el, er]

/-- THE BODY'S RESULT at (0, p, q), from the three loaded blocks. -/
private theorem pay0_apply (x0 : Vec Ideal S1x512x1024 .f32) (x1 : Vec Ideal S1x1024x1024 .f32) (x2 : Vec Ideal S1x1x1024 .f32)
    (p : Fin 512) (q : Fin 1024) :
    k0_pay1 (F := Ideal) x0 x1 x2 (ix3 0 p q)
      = (∑ k : Fin 1024, x0 (ix3 0 p k) * x1 (ix3 0 k q)) + x2 (ix3 0 0 q) := by
  unfold k0_pay1
  refine (shapeCast_ab_1ab_apply _ _ 0 p q).trans ?_
  refine (addf_apply _ _ _).trans ?_
  refine congrArg₂ (· + ·) ?_ ?_
  · refine (matmul_proj_apply _ _ p q).trans ?_
    refine Finset.sum_congr rfl fun k _ => ?_
    refine congrArg₂ (· * ·) ?_ ?_
    · exact (truncf_apply (ψ := .bf16) _ bitsLt_bf16_f32 _).trans (shapeCast_1ab_ab_apply x0 _ p k)
    · exact (truncf_apply (ψ := .bf16) _ bitsLt_bf16_f32 _).trans (shapeCast_1ab_ab_apply x1 _ k q)
  · refine (broadcastTo_apply _ broadcasts_S1x1024_S512x1024 (ix2 p q) (ix2 (0 : Fin 1) q) (fun a => match a with
      | ⟨0, _⟩ => by show (0 : Nat) = if (1 : Nat) = 1 then 0 else p.val; rw [if_pos rfl]
      | ⟨1, _⟩ => by show q.val = if (1024 : Nat) = 1 then 0 else q.val; rw [if_neg (by decide)])).trans ?_
    exact shapeCast_1ab_ab_apply x2 _ (0 : Fin 1) q

variable (V : (c : Dev nD) → (b : Ref sig .tc) → Buf (Elt Ideal) ((c : Thread nD τ).loc b))

/-- The three stacked arrays the projection region reads, and the one it writes, by their literal types. -/
abbrev xsA (c : Dev nD) : FVec Ideal S3x2048x1024 .f32 := V c main_v3
abbrev wsA (c : Dev nD) : FVec Ideal S3x1024x1024 .f32 := V c main_v7
abbrev bsA (c : Dev nD) : FVec Ideal S3x1x1024 .f32 := V c main_v12
abbrev projA (c : Dev nD) : FVec Ideal S3x2048x1024 .f32 := (dat0 V c).arrAt 3 cfg0.N

/-- The offsets of a whole-block rectangle are zero. -/
private theorem zeros3 : (![0, 0, 0] : Fin 3 → Nat) = fun _ => 0 := funext fun a => by fin_cases a <;> rfl

/-- The projection as one function of the three stacked arrays, entry by entry. -/
private def projG (xs : FVec Ideal S3x2048x1024 .f32) (ws : FVec Ideal S3x1024x1024 .f32) (bs : FVec Ideal S3x1x1024 .f32) :
    FVec Ideal S3x2048x1024 .f32 :=
  fun i => (∑ k : Fin 1024, xs (ix3 (i 0) (i 1) k) * ws (ix3 (i 0) k (i 2))) + bs (ix3 (i 0) 0 (i 2))

/-- The printed index maps, decided over the grid: every input window's block index along the stack is the output's, the
    rows' block index along the rows is the output's, every other block index is zero; the output's stay in their ranges. -/
private theorem idx_facts_proj : ∀ t : Fin cfg0.N,
    win0_0.index t (0 : Fin 3) = win0_3.index t (0 : Fin 3)
    ∧ win0_0.index t (1 : Fin 3) = win0_3.index t (1 : Fin 3)
    ∧ win0_0.index t (2 : Fin 3) = 0
    ∧ win0_1.index t (0 : Fin 3) = win0_3.index t (0 : Fin 3)
    ∧ win0_1.index t (1 : Fin 3) = 0
    ∧ win0_1.index t (2 : Fin 3) = 0
    ∧ win0_2.index t (0 : Fin 3) = win0_3.index t (0 : Fin 3)
    ∧ win0_2.index t (1 : Fin 3) = 0
    ∧ win0_2.index t (2 : Fin 3) = 0
    ∧ win0_3.index t (0 : Fin 3) ≤ 2
    ∧ win0_3.index t (1 : Fin 3) ≤ 3
    ∧ win0_3.index t (2 : Fin 3) = 0 :=
  (by decide +kernel : ∀ t : Fin grid0.N, _)

/-- Every block of the output array is some point's. -/
private theorem idx_onto_proj : ∀ (q0 : Fin 3) (q1 : Fin 4), ∃ t : Fin cfg0.N, win0_3.index t = ![q0.val, q1.val, 0] :=
  (by decide +kernel : ∀ (q0 : Fin 3) (q1 : Fin 4), ∃ t : Fin grid0.N, win0_3.index t = ![q0.val, q1.val, 0])

/-- Where point `t`'s output block puts its entry (0, p, q): stack index and row are the block's indices times the block's extents plus the coordinates inside. -/
private theorem emb_out_proj (t : Fin cfg0.N) (p : Fin 512) (q : Fin 1024) :
    ∃ (a : Fin 3) (r : Fin 2048), a.val = win0_3.index t (0 : Fin 3) ∧ r.val = win0_3.index t (1 : Fin 3) * 512 + p.val
      ∧ ((cfg0.win 3).blk t).view.emb (ix3 (0 : Fin 1) p q) = ix3 a r q := by
  obtain ⟨-, -, -, -, -, -, -, -, -, b0, b1, b2⟩ := idx_facts_proj t
  have hp : p.val < 512 := p.isLt
  refine ⟨⟨win0_3.index t (0 : Fin 3), by omega⟩, ⟨win0_3.index t (1 : Fin 3) * 512 + p.val, by omega⟩, rfl, rfl, funext fun a => Fin.ext ?_⟩
  match a with
  | ⟨0, _⟩ => show win0_3.index t (0 : Fin 3) * 1 + 1 * 0 = win0_3.index t (0 : Fin 3); omega
  | ⟨1, _⟩ => show win0_3.index t (1 : Fin 3) * 512 + 1 * p.val = win0_3.index t (1 : Fin 3) * 512 + p.val; omega
  | ⟨2, _⟩ => show win0_3.index t (2 : Fin 3) * 1024 + 1 * q.val = q.val; omega

/-- The body's result at an entry of point `t`'s block is the projection's entry where the block puts it: the input
    blocks at `t` are the rows, the matrix and the bias row that entry's formula reads. -/
private theorem block_proj_eq (c : Dev nD) (t : Fin cfg0.N) (j : S1x512x1024.Idx) :
    k0_pay1 (F := Ideal) (iblk0 V c 0 t) (iblk0 V c 1 t) (iblk0 V c 2 t) j
      = projG (xsA V c) (wsA V c) (bsA V c) (((cfg0.win 3).blk t).view.emb j) := by
  obtain ⟨u, p, q, rfl⟩ : ∃ (u : Fin 1) (p : Fin 512) (q : Fin 1024), j = ix3 u p q := ⟨j 0, j 1, j 2, eq_ix3 j⟩
  have hu : u = 0 := Subsingleton.elim _ _
  subst hu
  obtain ⟨a, r, ha, hr, hE⟩ := emb_out_proj t p q
  obtain ⟨e00, e01, e02, e10, e11, e12, e20, e21, e22, b0, b1, b2⟩ := idx_facts_proj t
  rw [hE]
  refine (pay0_apply _ _ _ p q).trans ?_
  show _ = (∑ k : Fin 1024, xsA V c (ix3 a r k) * wsA V c (ix3 a k q)) + bsA V c (ix3 a 0 q)
  refine congrArg₂ (· + ·) (Finset.sum_congr rfl fun k _ => congrArg₂ (· * ·) ?_ ?_) ?_
  · show V c main_v3 (((cfg0.win 0).blk t).view.emb (ix3 (0 : Fin 1) p k)) = V c main_v3 (ix3 a r k)
    refine congrArg (V c main_v3) (funext fun d => Fin.ext ?_)
    match d with
    | ⟨0, _⟩ => show win0_0.index t (0 : Fin 3) * 1 + 1 * 0 = a.val; omega
    | ⟨1, _⟩ => show win0_0.index t (1 : Fin 3) * 512 + 1 * p.val = r.val; omega
    | ⟨2, _⟩ => show win0_0.index t (2 : Fin 3) * 1024 + 1 * k.val = k.val; omega
  · show V c main_v7 (((cfg0.win 1).blk t).view.emb (ix3 (0 : Fin 1) k q)) = V c main_v7 (ix3 a k q)
    refine congrArg (V c main_v7) (funext fun d => Fin.ext ?_)
    match d with
    | ⟨0, _⟩ => show win0_1.index t (0 : Fin 3) * 1 + 1 * 0 = a.val; omega
    | ⟨1, _⟩ => show win0_1.index t (1 : Fin 3) * 1024 + 1 * k.val = k.val; omega
    | ⟨2, _⟩ => show win0_1.index t (2 : Fin 3) * 1024 + 1 * q.val = q.val; omega
  · show V c main_v12 (((cfg0.win 2).blk t).view.emb (ix3 (0 : Fin 1) (0 : Fin 1) q)) = V c main_v12 (ix3 a (0 : Fin 1) q)
    refine congrArg (V c main_v12) (funext fun d => Fin.ext ?_)
    match d with
    | ⟨0, _⟩ => show win0_2.index t (0 : Fin 3) * 1 + 1 * 0 = a.val; omega
    | ⟨1, _⟩ => show win0_2.index t (1 : Fin 3) * 1 + 1 * 0 = 0; omega
    | ⟨2, _⟩ => show win0_2.index t (2 : Fin 3) * 1024 + 1 * q.val = q.val; omega

/-- WHAT POINT `t` WRITES BACK is block `t` of the projection of the arrays as the region finds them. -/
private theorem flushed_proj_eq (c : Dev nD) (t : Fin cfg0.N) :
    (dat0 V c).flushed 3 t = ((cfg0.win 3).blk t).view.read (Elt Ideal) (projG (xsA V c) (wsA V c) (bsA V c)) := by
  show (cfg0.win 3).cut (grid0.coords t) ((dat0 V c).after 3 t) = _
  rw [after0_3]
  unfold out0_3
  rw [View.canon_unit_zero zeros3]
  simp only [View.ld_unit_zero (S := S1x512x1024) zeros3, View.ld_unit_zero (S := S1x1024x1024) zeros3, View.ld_unit_zero (S := S1x1x1024) zeros3]
  funext j
  exact block_proj_eq V c t j

/-- An index of the array is in point `t`'s block iff each coordinate is in the block's range on its axis. -/
private theorem mem_blk_proj (t : Fin cfg0.N) (i : S3x2048x1024.Idx) :
    i ∈ ((cfg0.win 3).blk t).view.set ↔ ∀ a : Fin 3, win0_3.index t a * S1x512x1024.size a ≤ (i a).val ∧ (i a).val < win0_3.index t a * S1x512x1024.size a + S1x512x1024.size a := by
  show i ∈ ((View.whole main_v13).slice (win0_3.rect t)).set ↔ _
  rw [View.set_slice_whole, Rect.mem_set_unit]
  exact Iff.rfl

/-- The output's blocks cover the array: entry (i, r, ·) is in the block of the point with block indices (i, r / 512, 0). -/
private theorem cover_proj (i : S3x2048x1024.Idx) :
    ∃ t : Fin cfg0.N, (cfg0.win 3).flush t = true ∧ i ∈ ((cfg0.win 3).blk t).view.set := by
  have hi0 : (i 0).val < 3 := (i 0).isLt
  have hi1 : (i 1).val < 2048 := (i 1).isLt
  have hi2 : (i 2).val < 1024 := (i 2).isLt
  obtain ⟨t, ht⟩ := idx_onto_proj ⟨(i 0).val, hi0⟩ ⟨(i 1).val / 512, by omega⟩
  have q0 : win0_3.index t (0 : Fin 3) = (i 0).val := congrFun ht 0
  have q1 : win0_3.index t (1 : Fin 3) = (i 1).val / 512 := congrFun ht 1
  have q2 : win0_3.index t (2 : Fin 3) = 0 := congrFun ht 2
  refine ⟨t, flush0_3 t, ?_⟩
  rw [mem_blk_proj]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 1024 ≤ (i 2).val ∧ (i 2).val < win0_3.index t (2 : Fin 3) * 1024 + 1024; omega

/-- THE ARRAY after the region is the projection of the arrays as the region finds them. -/
private theorem arr0_eq (c : Dev nD) : projA V c = projG (xsA V c) (wsA V c) (bsA V c) :=
  (dat0 V c).arrAt_eq_of_cover 3 (projG (xsA V c) (wsA V c) (bsA V c)) (fun t _ => flushed_proj_eq V c t) cover_proj

/-- THE PROJECTION REGION'S OUTPUT, entry by entry. -/
theorem arr0_apply (c : Dev nD) (i : Fin 3) (r : Fin 2048) (cc : Fin 1024) :
    projA V c (ix3 i r cc) = (∑ k : Fin 1024, xsA V c (ix3 i r k) * wsA V c (ix3 i k cc)) + bsA V c (ix3 i 0 cc) := by
  rw [arr0_eq]
  rfl

end Cert.KernelIdeal.Hand

end
-- ==== Proof.KiPay1.lean ====
/-
  The attention body's result read at an index, at the exact instance. From the five loaded blocks — 256 query rows, the
  head's 2048 key rows and value rows, the 256 x 2048 bias block and keep block — entry (rr, d) of what the body stores
  is softmax attention along row rr: the scores are the query row's inner products with the key rows plus the bias,
  zeroed where the keep entry is not positive; the values are column d of the value rows.
-/
import proofs.«117108_j26259430048704_1_alg».proof.Proof.Gen.KernelIdeal.Skeleton
import proofs.«117108_j26259430048704_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx

/-! ## The two products at an index

Each product contracts one axis: entry (r, c) is the sum over that axis's coordinate k of the left operand at (r, k)
times the right operand at (k, c). The four coordinate facts per product say where the output index and the contraction
index sit in the operands' indices. -/

private theorem lhs_qk_0 (i : S256x2048.Idx) (q : dot_S256x64_S64x2048_S256x2048_1_0_0_1_n_n.contr.Idx) :
    (dot_S256x64_S64x2048_S256x2048_1_0_0_1_n_n.lhsIdx i q 0).val = (i 0).val := by
  unfold DotDims.lhsIdx
  rw [dif_neg (show ¬(0 : Fin S256x64.rank) ∈ dot_S256x64_S64x2048_S256x2048_1_0_0_1_n_n.lhsBatch by decide), dif_pos (show (0 : Fin S256x64.rank) ∈ dot_S256x64_S64x2048_S256x2048_1_0_0_1_n_n.lhsNonContracting by decide)]
  rfl
private theorem lhs_qk_1 (i : S256x2048.Idx) (q : dot_S256x64_S64x2048_S256x2048_1_0_0_1_n_n.contr.Idx) :
    (dot_S256x64_S64x2048_S256x2048_1_0_0_1_n_n.lhsIdx i q 1).val = (q ⟨0, by decide⟩).val :=
  dot_S256x64_S64x2048_S256x2048_1_0_0_1_n_n.lhsIdx_val_of_single rfl i q
private theorem rhs_qk_0 (i : S256x2048.Idx) (q : dot_S256x64_S64x2048_S256x2048_1_0_0_1_n_n.contr.Idx) :
    (dot_S256x64_S64x2048_S256x2048_1_0_0_1_n_n.rhsIdx i q 0).val = (q ⟨0, by decide⟩).val :=
  dot_S256x64_S64x2048_S256x2048_1_0_0_1_n_n.rhsIdx_val_of_single rfl i q
private theorem rhs_qk_1 (i : S256x2048.Idx) (q : dot_S256x64_S64x2048_S256x2048_1_0_0_1_n_n.contr.Idx) :
    (dot_S256x64_S64x2048_S256x2048_1_0_0_1_n_n.rhsIdx i q 1).val = (i 1).val := by
  unfold DotDims.rhsIdx
  rw [dif_neg (show ¬(1 : Fin S64x2048.rank) ∈ dot_S256x64_S64x2048_S256x2048_1_0_0_1_n_n.rhsBatch by decide), dif_pos (show (1 : Fin S64x2048.rank) ∈ dot_S256x64_S64x2048_S256x2048_1_0_0_1_n_n.rhsNonContracting by decide)]
  rfl

/-- The first product, 256 x 64 by 64 x 2048 into the zero block, at (r, c). -/
private theorem qk_matmul_apply {φ₁ φ₂ : FTy} (a : FVec Ideal S256x64 φ₁) (b : FVec Ideal S64x2048 φ₂) (r : Fin 256) (c : Fin 2048) :
    matmul dot_S256x64_S64x2048_S256x2048_1_0_0_1_n_n none a b (constant (F := Ideal) S256x2048 .f32 0x00000000#32) (ix2 r c)
      = ∑ k : Fin 64, a (ix2 r k) * b (ix2 k c) := by
  refine (Ideal.matmul_constant_zero_apply dot_S256x64_S64x2048_S256x2048_1_0_0_1_n_n none a b (ix2 r c)).trans ?_
  rw [← Equiv.sum_comp (contrEquiv1 dot_S256x64_S64x2048_S256x2048_1_0_0_1_n_n 64 rfl rfl).symm]
  refine Finset.sum_congr rfl fun k _ => ?_
  have hk := contrEquiv1_symm_val dot_S256x64_S64x2048_S256x2048_1_0_0_1_n_n 64 rfl rfl k
  have el : dot_S256x64_S64x2048_S256x2048_1_0_0_1_n_n.lhsIdx (ix2 r c) ((contrEquiv1 dot_S256x64_S64x2048_S256x2048_1_0_0_1_n_n 64 rfl rfl).symm k) = ix2 r k := funext fun ax => Fin.ext (by
    match ax with
    | ⟨0, _⟩ => exact lhs_qk_0 _ _
    | ⟨1, _⟩ => exact (lhs_qk_1 _ _).trans hk)
  have er : dot_S256x64_S64x2048_S256x2048_1_0_0_1_n_n.rhsIdx (ix2 r c) ((contrEquiv1 dot_S256x64_S64x2048_S256x2048_1_0_0_1_n_n 64 rfl rfl).symm k) = ix2 k c := funext fun ax => Fin.ext (by
    match ax with
    | ⟨0, _⟩ => exact (rhs_qk_0 _ _).trans hk
    | ⟨1, _⟩ => exact rhs_qk_1 _ _)
  rw [el, er]

private theorem lhs_pv_0 (i : S256x64.Idx) (q : dot_S256x2048_S2048x64_S256x64_1_0_0_1_n_n.contr.Idx) :
    (dot_S256x2048_S2048x64_S256x64_1_0_0_1_n_n.lhsIdx i q 0).val = (i 0).val := by
  unfold DotDims.lhsIdx
  rw [dif_neg (show ¬(0 : Fin S256x2048.rank) ∈ dot_S256x2048_S2048x64_S256x64_1_0_0_1_n_n.lhsBatch by decide), dif_pos (show (0 : Fin S256x2048.rank) ∈ dot_S256x2048_S2048x64_S256x64_1_0_0_1_n_n.lhsNonContracting by decide)]
  rfl
private theorem lhs_pv_1 (i : S256x64.Idx) (q : dot_S256x2048_S2048x64_S256x64_1_0_0_1_n_n.contr.Idx) :
    (dot_S256x2048_S2048x64_S256x64_1_0_0_1_n_n.lhsIdx i q 1).val = (q ⟨0, by decide⟩).val :=
  dot_S256x2048_S2048x64_S256x64_1_0_0_1_n_n.lhsIdx_val_of_single rfl i q
private theorem rhs_pv_0 (i : S256x64.Idx) (q : dot_S256x2048_S2048x64_S256x64_1_0_0_1_n_n.contr.Idx) :
    (dot_S256x2048_S2048x64_S256x64_1_0_0_1_n_n.rhsIdx i q 0).val = (q ⟨0, by decide⟩).val :=
  dot_S256x2048_S2048x64_S256x64_1_0_0_1_n_n.rhsIdx_val_of_single rfl i q
private theorem rhs_pv_1 (i : S256x64.Idx) (q : dot_S256x2048_S2048x64_S256x64_1_0_0_1_n_n.contr.Idx) :
    (dot_S256x2048_S2048x64_S256x64_1_0_0_1_n_n.rhsIdx i q 1).val = (i 1).val := by
  unfold DotDims.rhsIdx
  rw [dif_neg (show ¬(1 : Fin S2048x64.rank) ∈ dot_S256x2048_S2048x64_S256x64_1_0_0_1_n_n.rhsBatch by decide), dif_pos (show (1 : Fin S2048x64.rank) ∈ dot_S256x2048_S2048x64_S256x64_1_0_0_1_n_n.rhsNonContracting by decide)]
  rfl

/-- The second product, 256 x 2048 by 2048 x 64 into the zero block, at (r, c). -/
private theorem pv_matmul_apply {φ₁ φ₂ : FTy} (a : FVec Ideal S256x2048 φ₁) (b : FVec Ideal S2048x64 φ₂) (r : Fin 256) (c : Fin 64) :
    matmul dot_S256x2048_S2048x64_S256x64_1_0_0_1_n_n none a b (constant (F := Ideal) S256x64 .f32 0x00000000#32) (ix2 r c)
      = ∑ k : Fin 2048, a (ix2 r k) * b (ix2 k c) := by
  refine (Ideal.matmul_constant_zero_apply dot_S256x2048_S2048x64_S256x64_1_0_0_1_n_n none a b (ix2 r c)).trans ?_
  rw [← Equiv.sum_comp (contrEquiv1 dot_S256x2048_S2048x64_S256x64_1_0_0_1_n_n 2048 rfl rfl).symm]
  refine Finset.sum_congr rfl fun k _ => ?_
  have hk := contrEquiv1_symm_val dot_S256x2048_S2048x64_S256x64_1_0_0_1_n_n 2048 rfl rfl k
  have el : dot_S256x2048_S2048x64_S256x64_1_0_0_1_n_n.lhsIdx (ix2 r c) ((contrEquiv1 dot_S256x2048_S2048x64_S256x64_1_0_0_1_n_n 2048 rfl rfl).symm k) = ix2 r k := funext fun ax => Fin.ext (by
    match ax with
    | ⟨0, _⟩ => exact lhs_pv_0 _ _
    | ⟨1, _⟩ => exact (lhs_pv_1 _ _).trans hk)
  have er : dot_S256x2048_S2048x64_S256x64_1_0_0_1_n_n.rhsIdx (ix2 r c) ((contrEquiv1 dot_S256x2048_S2048x64_S256x64_1_0_0_1_n_n 2048 rfl rfl).symm k) = ix2 k c := funext fun ax => Fin.ext (by
    match ax with
    | ⟨0, _⟩ => exact (rhs_pv_0 _ _).trans hk
    | ⟨1, _⟩ => exact rhs_pv_1 _ _)
  rw [el, er]

/-! ## The row operations at an index -/

/-- Row r of the 256 x 2048 block with column k put back into the reduced index is (r, k). -/
private theorem lift_row (h : S256x2048.Reduces [1] S256) (r : Fin 256) (k : Fin (S256x2048.size 1)) :
    h.lift (ix1 r) k = ix2 r (⟨k.val, k.isLt⟩ : Fin 2048) := by
  funext c; apply Fin.ext
  fin_cases c <;> rfl

/-- The maximum along a row, from −∞: the fold of max over the row's 2048 entries. -/
private theorem rowMax_apply (v : FVec Ideal S256x2048 .f32) (r : Fin 256) :
    multiReduction (F := Ideal) .maximumf [1] S256 v 0xFF800000#32 reduces_S256x2048_S256 (.inl rfl) rfl (ix1 r)
      = (Finset.univ : Finset (Fin 2048)).fold max Spec.negInf (fun m => v (ix2 r m)) := by
  refine (Ideal.multiReduction_maximumf_single v 0xFF800000#32 reduces_S256x2048_S256 (.inl rfl) rfl (ix1 r)).trans ?_
  have hf : (v ∘ reduces_S256x2048_S256.lift (ix1 r)) = fun m : Fin 2048 => v (ix2 r m) :=
    funext fun k => congrArg v (lift_row reduces_S256x2048_S256 r k)
  exact congrArg (fun f => Finset.fold max Spec.negInf f (Finset.univ : Finset (Fin 2048))) hf

/-- The sum along a row, from 0: the sum of the row's 2048 entries. -/
private theorem rowSum_apply (v : FVec Ideal S256x2048 .f32) (r : Fin 256) :
    multiReduction (F := Ideal) .add [1] S256 v 0x00000000#32 reduces_S256x2048_S256 (.inl rfl) rfl (ix1 r)
      = ∑ m : Fin 2048, v (ix2 r m) := by
  refine (Ideal.multiReduction_add_single v 0x00000000#32 reduces_S256x2048_S256 (.inl rfl) rfl (ix1 r)).trans ?_
  exact Finset.sum_congr rfl fun k _ => congrArg v (lift_row reduces_S256x2048_S256 r k)

/-- A vector of 256 entries cast to one column reads, at (r, 0), entry r. -/
private theorem shapeCast_col_apply {α : Type} (x : S256.Idx → α) (h : S256.ShapeCasts S256x1) (r : Fin 256) (u : Fin 1) :
    shapeCast S256x1 x h (ix2 r u) = x (ix1 r) :=
  shapeCast_apply x h _ _ (by
    have hu : u.val = 0 := by omega
    rw [Shape.rowMajor_val_one, Shape.rowMajor_val_two]
    show r.val = r.val * 1 + u.val
    rw [hu, Nat.mul_one, Nat.add_zero])

/-- One column broadcast over 2048 reads, at (r, m), the column's entry r. -/
private theorem broadcastTo_col_apply {α : Type} (x : S256x1.Idx → α) (h : S256x1.Broadcasts S256x2048) (r : Fin 256) (m : Fin 2048) :
    broadcastTo S256x2048 x h (ix2 r m) = x (ix2 r (0 : Fin 1)) := by
  refine broadcastTo_apply x h (ix2 r m) (ix2 r (0 : Fin 1)) fun ax => ?_
  match ax with
  | ⟨0, _⟩ =>
    show r.val = if (256 : Nat) = 1 then 0 else r.val
    rw [if_neg (by decide)]
  | ⟨1, _⟩ =>
    show (0 : Nat) = if (1 : Nat) = 1 then 0 else m.val
    rw [if_pos rfl]

/-- A row statistic kept as a column and broadcast back over the row: at (r, m), the statistic of row r. -/
private theorem keepdims_apply {α : Type} (x : S256.Idx → α) (r : Fin 256) (m : Fin 2048) :
    broadcastTo S256x2048 (shapeCast S256x1 x shapeCasts_S256_S256x1) broadcasts_S256x1_S256x2048 (ix2 r m) = x (ix1 r) :=
  (broadcastTo_col_apply _ broadcasts_S256x1_S256x2048 r m).trans (shapeCast_col_apply x shapeCasts_S256_S256x1 r 0)

/-! ## The body as a composition

The body's value is built in six steps: the masked scores, each row's maximum, the exponentials of the shifted scores,
each row's sum, the normalised weights, and the weights' product with the value rows. -/

/-- The query–key products: 256 x 2048. -/
private def qkOf (x0 : Vec Ideal S1x256x64 .f32) (x1 : Vec Ideal S1x2048x64 .f32) : FVec Ideal S256x2048 .f32 :=
  matmul dot_S256x64_S64x2048_S256x2048_1_0_0_1_n_n none
    (truncf .bf16 (shapeCast S256x64 x0 shapeCasts_S1x256x64_S256x64) bitsLt_bf16_f32)
    (transpose S64x2048 [1, 0] (truncf .bf16 (shapeCast S2048x64 x1 shapeCasts_S1x2048x64_S2048x64) bitsLt_bf16_f32)
      transposes_S2048x64_p1_0_S64x2048)
    (constant S256x2048 .f32 0x00000000#32)

/-- The masked scores: products plus bias where the keep entry is positive, zero elsewhere. -/
private def scoreOf (x0 : Vec Ideal S1x256x64 .f32) (x1 : Vec Ideal S1x2048x64 .f32) (x3 : Vec Ideal S1x256x2048 .f32)
    (x4 : Vec Ideal S256x2048 .f32) : FVec Ideal S256x2048 .f32 :=
  select
    (cmpf .ogt (shapeCast S256x2048 x4 shapeCasts_S256x2048_S256x2048 : FVec Ideal S256x2048 .f32)
      (broadcast S256x2048 (Scalar.ofBits .f32 0x00000000#32 : Ideal .f32)))
    (addf (qkOf x0 x1) (shapeCast S256x2048 x3 shapeCasts_S1x256x2048_S256x2048))
    (broadcast S256x2048 (Scalar.ofBits .f32 0x00000000#32 : Ideal .f32))

/-- Each row's maximum, taken from −∞. -/
private def mxOf (s : FVec Ideal S256x2048 .f32) : FVec Ideal S256 .f32 :=
  maximumf (broadcast S256 (Scalar.ofBits .f32 0xFF800000#32 : Ideal .f32))
    (multiReduction (F := Ideal) .maximumf [1] S256 s 0xFF800000#32 reduces_S256x2048_S256 (.inl rfl) rfl)

/-- The exponentials of the scores shifted by their row's maximum. -/
private def exOf (s : FVec Ideal S256x2048 .f32) : FVec Ideal S256x2048 .f32 :=
  exp (subf s (broadcastTo S256x2048 (shapeCast S256x1 (mxOf s) shapeCasts_S256_S256x1) broadcasts_S256x1_S256x2048))

/-- Each row's sum. -/
private def zOf (e : FVec Ideal S256x2048 .f32) : FVec Ideal S256 .f32 :=
  multiReduction (F := Ideal) .add [1] S256 e 0x00000000#32 reduces_S256x2048_S256 (.inl rfl) rfl

/-- The weights: each exponential over its row's sum. -/
private def pOf (e : FVec Ideal S256x2048 .f32) : FVec Ideal S256x2048 .bf16 :=
  truncf .bf16 (divf e (broadcastTo S256x2048 (shapeCast S256x1 (zOf e) shapeCasts_S256_S256x1) broadcasts_S256x1_S256x2048))
    bitsLt_bf16_f32

/-- The weights' product with the value rows: 256 x 64. -/
private def outOf (p : FVec Ideal S256x2048 .bf16) (x2 : Vec Ideal S1x2048x64 .f32) : FVec Ideal S256x64 .f32 :=
  matmul dot_S256x2048_S2048x64_S256x64_1_0_0_1_n_n none p
    (truncf .bf16 (shapeCast S2048x64 x2 shapeCasts_S1x2048x64_S2048x64) bitsLt_bf16_f32)
    (constant S256x64 .f32 0x00000000#32)

/-- The body's value is that composition. -/
private theorem pay2_eq (x0 : Vec Ideal S1x256x64 .f32) (x1 x2 : Vec Ideal S1x2048x64 .f32) (x3 : Vec Ideal S1x256x2048 .f32)
    (x4 : Vec Ideal S256x2048 .f32) :
    k1_pay2 (F := Ideal) x0 x1 x2 x3 x4 = outOf (pOf (exOf (scoreOf x0 x1 x3 x4))) x2 := rfl

/-! ## Each step at an index -/

/-- A product at (r, m): the query row r against the key row m. -/
private theorem qk_apply (x0 : Vec Ideal S1x256x64 .f32) (x1 : Vec Ideal S1x2048x64 .f32) (r : Fin 256) (m : Fin 2048) :
    qkOf x0 x1 (ix2 r m) = ∑ dd : Fin 64, x0 (ix3 0 r dd) * x1 (ix3 0 m dd) := by
  unfold qkOf
  refine (qk_matmul_apply _ _ r m).trans ?_
  refine Finset.sum_congr rfl fun k _ => ?_
  have ea : truncf .bf16 (shapeCast S256x64 x0 shapeCasts_S1x256x64_S256x64 : FVec Ideal S256x64 .f32) bitsLt_bf16_f32 (ix2 r k)
      = x0 (ix3 0 r k) := shapeCast_1ab_ab_apply x0 shapeCasts_S1x256x64_S256x64 r k
  have eb : transpose S64x2048 [1, 0]
        (truncf .bf16 (shapeCast S2048x64 x1 shapeCasts_S1x2048x64_S2048x64 : FVec Ideal S2048x64 .f32) bitsLt_bf16_f32)
        transposes_S2048x64_p1_0_S64x2048 (ix2 k m) = x1 (ix3 0 m k) :=
    (transpose_ix2_apply _ transposes_S2048x64_p1_0_S64x2048 k m).trans
      (shapeCast_1ab_ab_apply x1 shapeCasts_S1x2048x64_S2048x64 m k)
  rw [ea, eb]

/-- A masked score at (r, m). -/
private theorem score_apply (x0 : Vec Ideal S1x256x64 .f32) (x1 : Vec Ideal S1x2048x64 .f32) (x3 : Vec Ideal S1x256x2048 .f32)
    (x4 : Vec Ideal S256x2048 .f32) (r : Fin 256) (m : Fin 2048) :
    scoreOf x0 x1 x3 x4 (ix2 r m)
      = Spec.maskedScore (FloatOps.cmpf (F := Ideal) (φ := .f32) .ogt (x4 (ix2 r m)) Spec.zeroF)
          (∑ dd : Fin 64, x0 (ix3 0 r dd) * x1 (ix3 0 m dd)) (x3 (ix3 0 r m)) := by
  have e1 : shapeCast S256x2048 x4 shapeCasts_S256x2048_S256x2048 (ix2 r m) = x4 (ix2 r m) :=
    congrFun (shapeCast_self x4 shapeCasts_S256x2048_S256x2048) (ix2 r m)
  have e2 : shapeCast S256x2048 x3 shapeCasts_S1x256x2048_S256x2048 (ix2 r m) = x3 (ix3 0 r m) :=
    shapeCast_1ab_ab_apply x3 shapeCasts_S1x256x2048_S256x2048 r m
  have e3 := qk_apply x0 x1 r m
  unfold Spec.maskedScore
  show Scalar.select
      (FloatOps.cmpf (F := Ideal) (φ := .f32) .ogt (shapeCast S256x2048 x4 shapeCasts_S256x2048_S256x2048 (ix2 r m)) Spec.zeroF)
      (qkOf x0 x1 (ix2 r m) + shapeCast S256x2048 x3 shapeCasts_S1x256x2048_S256x2048 (ix2 r m)) Spec.zeroF = _
  rw [e1, e2, e3]

/-- A row's maximum at r. -/
private theorem mx_apply (s : FVec Ideal S256x2048 .f32) (r : Fin 256) :
    mxOf s (ix1 r) = Spec.rowMax fun m => s (ix2 r m) := by
  unfold mxOf Spec.rowMax
  exact congrArg (max Spec.negInf) (rowMax_apply s r)

/-- A shifted exponential at (r, m). -/
private theorem ex_apply (s : FVec Ideal S256x2048 .f32) (r : Fin 256) (m : Fin 2048) :
    exOf s (ix2 r m) = Ideal.exp (s (ix2 r m) - Spec.rowMax fun m' => s (ix2 r m')) := by
  have e := (keepdims_apply (mxOf s) r m).trans (mx_apply s r)
  show Ideal.exp (s (ix2 r m)
    - broadcastTo S256x2048 (shapeCast S256x1 (mxOf s) shapeCasts_S256_S256x1) broadcasts_S256x1_S256x2048 (ix2 r m)) = _
  rw [e]

/-- A row's sum at r. -/
private theorem z_apply (e : FVec Ideal S256x2048 .f32) (r : Fin 256) : zOf e (ix1 r) = ∑ m : Fin 2048, e (ix2 r m) :=
  rowSum_apply e r

/-- A weight at (r, m). -/
private theorem p_apply (e : FVec Ideal S256x2048 .f32) (r : Fin 256) (m : Fin 2048) :
    pOf e (ix2 r m) = Ideal.div (e (ix2 r m)) (∑ m' : Fin 2048, e (ix2 r m')) := by
  have h := (keepdims_apply (zOf e) r m).trans (z_apply e r)
  show Ideal.div (e (ix2 r m))
    (broadcastTo S256x2048 (shapeCast S256x1 (zOf e) shapeCasts_S256_S256x1) broadcasts_S256x1_S256x2048 (ix2 r m)) = _
  rw [h]

/-- The result at (r, d): the weights of row r against column d of the value rows. -/
private theorem out_apply (p : FVec Ideal S256x2048 .bf16) (x2 : Vec Ideal S1x2048x64 .f32) (r : Fin 256) (d : Fin 64) :
    outOf p x2 (ix2 r d) = ∑ m : Fin 2048, p (ix2 r m) * x2 (ix3 0 m d) := by
  unfold outOf
  refine (pv_matmul_apply _ _ r d).trans ?_
  refine Finset.sum_congr rfl fun m _ => ?_
  have eb : truncf .bf16 (shapeCast S2048x64 x2 shapeCasts_S1x2048x64_S2048x64 : FVec Ideal S2048x64 .f32) bitsLt_bf16_f32 (ix2 m d)
      = x2 (ix3 0 m d) := shapeCast_1ab_ab_apply x2 shapeCasts_S1x2048x64_S2048x64 m d
  rw [eb]

/-- THE ATTENTION BODY'S RESULT at (0, rr, d), from the loaded blocks. -/
theorem pay1_apply (x0 : Vec Ideal S1x256x64 .f32) (x1 x2 : Vec Ideal S1x2048x64 .f32) (x3 : Vec Ideal S1x256x2048 .f32) (x4 : Vec Ideal S256x2048 .f32)
    (rr : Fin 256) (d : Fin 64) :
    k1_pay1 (F := Ideal) (k1_pay2 (F := Ideal) x0 x1 x2 x3 x4) (ix3 0 rr d)
      = Spec.rowAttn
          (fun m => Spec.maskedScore (FloatOps.cmpf (F := Ideal) (φ := .f32) .ogt (x4 (ix2 rr m)) Spec.zeroF)
            (∑ dd : Fin 64, x0 (ix3 0 rr dd) * x1 (ix3 0 m dd)) (x3 (ix3 0 rr m)))
          (fun m => x2 (ix3 0 m d)) := by
  have hcast : k1_pay1 (F := Ideal) (k1_pay2 (F := Ideal) x0 x1 x2 x3 x4) (ix3 0 rr d)
      = k1_pay2 (F := Ideal) x0 x1 x2 x3 x4 (ix2 rr d) := by
    unfold k1_pay1
    exact shapeCast_ab_1ab_apply _ shapeCasts_S256x64_S1x256x64 0 rr d
  have hrow : (fun m : Fin 2048 => scoreOf x0 x1 x3 x4 (ix2 rr m))
      = fun m => Spec.maskedScore (FloatOps.cmpf (F := Ideal) (φ := .f32) .ogt (x4 (ix2 rr m)) Spec.zeroF)
          (∑ dd : Fin 64, x0 (ix3 0 rr dd) * x1 (ix3 0 m dd)) (x3 (ix3 0 rr m)) :=
    funext fun m => score_apply x0 x1 x3 x4 rr m
  refine hcast.trans ?_
  rw [pay2_eq]
  refine (out_apply _ x2 rr d).trans ?_
  unfold Spec.rowAttn
  rw [← hrow]
  refine Finset.sum_congr rfl fun m _ => ?_
  rw [p_apply, ex_apply]
  refine congrArg (fun z => Ideal.div _ z * _) ?_
  exact Finset.sum_congr rfl fun m' _ => ex_apply _ rr m'

end Cert.KernelIdeal.Hand

end
-- ==== Proof.KiValue1.lean ====
/-
  What the attention region leaves in its output array, entry by entry at the exact instance: entry (h, n, d) is
  softmax attention along query row n of head h. A grid point (h, j) writes back rows 256 j … 256 j + 255 of head h; its
  blocks of the queries, the bias and the keep mask are those rows, its blocks of the keys and values the whole head;
  the blocks cover the array.
-/
import proofs.«117108_j26259430048704_1_alg».proof.Proof.KiRegion1
import proofs.«117108_j26259430048704_1_alg».proof.Proof.KiPay1

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The five arrays the attention region reads, and the one it writes, by their literal types. -/
abbrev qA (c : Dev nD) : FVec Ideal S16x2048x64 .f32 := V c main_v23
abbrev kA (c : Dev nD) : FVec Ideal S16x2048x64 .f32 := V c main_v25
abbrev vA (c : Dev nD) : FVec Ideal S16x2048x64 .f32 := V c main_v27
abbrev biasA (c : Dev nD) : FVec Ideal S16x2048x2048 .f32 := V c main_arg3
abbrev keepA (c : Dev nD) : FVec Ideal S2048x2048 .f32 := V c main_v35
abbrev attnA (c : Dev nD) : FVec Ideal S16x2048x64 .f32 := (dat1 V c).arrAt 5 cfg1.N

/-- The offsets of a whole-block rectangle are all zero, in rank 3 and in rank 2. -/
private theorem zero3 : (![0, 0, 0] : Fin 3 → Nat) = fun _ => 0 := funext fun a => by fin_cases a <;> rfl
private theorem zero2 : (![0, 0] : Fin 2 → Nat) = fun _ => 0 := funext fun a => by fin_cases a <;> rfl

/-- The whole-array function: entry j of the output is softmax attention along query row (j 1) of head (j 0), read
    in column (j 2) of the head's values. -/
private def attnG (q k v : FVec Ideal S16x2048x64 .f32) (bias : FVec Ideal S16x2048x2048 .f32) (keep : FVec Ideal S2048x2048 .f32) :
    FVec Ideal S16x2048x64 .f32 := fun j =>
  Spec.rowAttn
    (fun m => Spec.maskedScore (FloatOps.cmpf (F := Ideal) (φ := .f32) .ogt (keep (ix2 (j 1) m)) Spec.zeroF)
      (∑ dd : Fin 64, q (ix3 (j 0) (j 1) dd) * k (ix3 (j 0) m dd)) (bias (ix3 (j 0) (j 1) m)))
    (fun m => v (ix3 (j 0) m (j 2)))

/-- The six windows' index maps at every one of the grid's points: the query, bias and output blocks share the block index (h, j, 0),
    the key and value blocks sit at (h, 0, 0), the keep block at (j, 0); h is below 16 and j below 8. -/
private theorem idx_facts1 : ∀ t : Fin cfg1.N,
    win1_0.index t (0 : Fin 3) = win1_5.index t (0 : Fin 3) ∧ win1_0.index t (1 : Fin 3) = win1_5.index t (1 : Fin 3) ∧ win1_0.index t (2 : Fin 3) = 0
    ∧ win1_1.index t (0 : Fin 3) = win1_5.index t (0 : Fin 3) ∧ win1_1.index t (1 : Fin 3) = 0 ∧ win1_1.index t (2 : Fin 3) = 0
    ∧ win1_2.index t (0 : Fin 3) = win1_5.index t (0 : Fin 3) ∧ win1_2.index t (1 : Fin 3) = 0 ∧ win1_2.index t (2 : Fin 3) = 0
    ∧ win1_3.index t (0 : Fin 3) = win1_5.index t (0 : Fin 3) ∧ win1_3.index t (1 : Fin 3) = win1_5.index t (1 : Fin 3) ∧ win1_3.index t (2 : Fin 3) = 0
    ∧ win1_4.index t (0 : Fin 2) = win1_5.index t (1 : Fin 3) ∧ win1_4.index t (1 : Fin 2) = 0
    ∧ win1_5.index t (0 : Fin 3) < 16 ∧ win1_5.index t (1 : Fin 3) < 8 ∧ win1_5.index t (2 : Fin 3) = 0 :=
  (by decide +kernel : ∀ t : Fin grid1.N, _)

/-- Every pair (head, row block) is some grid point's output block index. -/
private theorem idx_onto1 : ∀ (q0 : Fin 16) (q1 : Fin 8), ∃ t : Fin cfg1.N, win1_5.index t (0 : Fin 3) = q0.val ∧ win1_5.index t (1 : Fin 3) = q1.val :=
  (by decide +kernel : ∀ (q0 : Fin 16) (q1 : Fin 8), ∃ t : Fin grid1.N, win1_5.index t (0 : Fin 3) = q0.val ∧ win1_5.index t (1 : Fin 3) = q1.val)

/-- One entry of a point's result, over any five blocks that agree with the arrays where the point's rectangle says:
    the query, bias and keep blocks with row n, the key and value blocks with head h. -/
private theorem blk_attn (x0 : Vec Ideal S1x256x64 .f32) (x1 x2 : Vec Ideal S1x2048x64 .f32) (x3 : Vec Ideal S1x256x2048 .f32) (x4 : Vec Ideal S256x2048 .f32)
    (q k v : FVec Ideal S16x2048x64 .f32) (bias : FVec Ideal S16x2048x2048 .f32) (keep : FVec Ideal S2048x2048 .f32)
    (h : Fin 16) (n : Fin 2048) (rr : Fin 256) (d : Fin 64)
    (e0 : ∀ dd : Fin 64, x0 (ix3 0 rr dd) = q (ix3 h n dd))
    (e1 : ∀ (m : Fin 2048) (dd : Fin 64), x1 (ix3 0 m dd) = k (ix3 h m dd))
    (e2 : ∀ (m : Fin 2048) (dd : Fin 64), x2 (ix3 0 m dd) = v (ix3 h m dd))
    (e3 : ∀ m : Fin 2048, x3 (ix3 0 rr m) = bias (ix3 h n m))
    (e4 : ∀ m : Fin 2048, x4 (ix2 rr m) = keep (ix2 n m)) :
    k1_pay1 (F := Ideal) (k1_pay2 (F := Ideal) x0 x1 x2 x3 x4) (ix3 0 rr d) = attnG q k v bias keep (ix3 h n d) := by
  refine (pay1_apply x0 x1 x2 x3 x4 rr d).trans ?_
  show _ = Spec.rowAttn
    (fun m => Spec.maskedScore (FloatOps.cmpf (F := Ideal) (φ := .f32) .ogt (keep (ix2 n m)) Spec.zeroF)
      (∑ dd : Fin 64, q (ix3 h n dd) * k (ix3 h m dd)) (bias (ix3 h n m)))
    (fun m => v (ix3 h m d))
  simp only [e0, e1, e2, e3, e4]

/-- WHAT POINT t WRITES BACK is block t of the whole-array function of the arrays as the region finds them: the one
    store leaves the body's result; each input block is its array read at block index x size + the coordinate inside
    the block, and the relations between the index maps place those reads at head h = the output's first block index and at row
    256 j + rr. -/
private theorem flushed1_eq (c : Dev nD) (t : Fin cfg1.N) :
    (dat1 V c).flushed 5 t = ((cfg1.win 5).blk t).view.read (Elt Ideal) (attnG (qA V c) (kA V c) (vA V c) (biasA V c) (keepA V c)) := by
  show (cfg1.win 5).cut (grid1.coords t) ((dat1 V c).after 5 t) = _
  rw [after1_5]
  unfold out1_5
  rw [View.canon_unit_zero zero3]
  simp only [View.ld_unit_zero (S := S1x256x64) zero3, View.ld_unit_zero (S := S1x2048x64) zero3, View.ld_unit_zero (S := S1x256x2048) zero3, View.ld_unit_zero (S := S256x2048) zero2]
  obtain ⟨f00, f01, f02, f10, f11, f12, f20, f21, f22, f30, f31, f32, f40, f41, f50, f51, f52⟩ := idx_facts1 t
  funext y
  obtain ⟨a, rr, d, rfl⟩ : ∃ (a : Fin 1) (rr : Fin 256) (d : Fin 64), y = ix3 a rr d := ⟨y 0, y 1, y 2, eq_ix3 y⟩
  obtain rfl : a = 0 := Subsingleton.elim _ _
  have hrr : rr.val < 256 := rr.isLt
  have hd : d.val < 64 := d.isLt
  show k1_pay1 (F := Ideal) (k1_pay2 (F := Ideal) (iblk1 V c 0 t) (iblk1 V c 1 t) (iblk1 V c 2 t) (iblk1 V c 3 t) (iblk1 V c 4 t)) (ix3 0 rr d)
    = attnG (qA V c) (kA V c) (vA V c) (biasA V c) (keepA V c) (((cfg1.win 5).blk t).view.emb (ix3 0 rr d))
  have hemb : ((cfg1.win 5).blk t).view.emb (ix3 0 rr d)
      = ix3 (⟨win1_5.index t (0 : Fin 3), f50⟩ : Fin 16) (⟨win1_5.index t (1 : Fin 3) * 256 + rr.val, by omega⟩ : Fin 2048) d := by
    funext a; apply Fin.ext
    match a with
    | ⟨0, _⟩ => show win1_5.index t (0 : Fin 3) * 1 + 1 * 0 = win1_5.index t (0 : Fin 3); omega
    | ⟨1, _⟩ => show win1_5.index t (1 : Fin 3) * 256 + 1 * rr.val = win1_5.index t (1 : Fin 3) * 256 + rr.val; omega
    | ⟨2, _⟩ => show win1_5.index t (2 : Fin 3) * 64 + 1 * d.val = d.val; omega
  rw [hemb]
  refine blk_attn _ _ _ _ _ _ _ _ _ _ _ _ rr d ?_ ?_ ?_ ?_ ?_
  · intro dd
    have hdd : dd.val < 64 := dd.isLt
    show V c main_v23 (((cfg1.win 0).blk t).view.emb (ix3 0 rr dd)) = V c main_v23 (ix3 _ _ dd)
    refine congrArg (V c main_v23) ?_
    funext a; apply Fin.ext
    match a with
    | ⟨0, _⟩ => show win1_0.index t (0 : Fin 3) * 1 + 1 * 0 = win1_5.index t (0 : Fin 3); omega
    | ⟨1, _⟩ => show win1_0.index t (1 : Fin 3) * 256 + 1 * rr.val = win1_5.index t (1 : Fin 3) * 256 + rr.val; omega
    | ⟨2, _⟩ => show win1_0.index t (2 : Fin 3) * 64 + 1 * dd.val = dd.val; omega
  · intro m dd
    have hm : m.val < 2048 := m.isLt
    have hdd : dd.val < 64 := dd.isLt
    show V c main_v25 (((cfg1.win 1).blk t).view.emb (ix3 0 m dd)) = V c main_v25 (ix3 _ m dd)
    refine congrArg (V c main_v25) ?_
    funext a; apply Fin.ext
    match a with
    | ⟨0, _⟩ => show win1_1.index t (0 : Fin 3) * 1 + 1 * 0 = win1_5.index t (0 : Fin 3); omega
    | ⟨1, _⟩ => show win1_1.index t (1 : Fin 3) * 2048 + 1 * m.val = m.val; omega
    | ⟨2, _⟩ => show win1_1.index t (2 : Fin 3) * 64 + 1 * dd.val = dd.val; omega
  · intro m dd
    have hm : m.val < 2048 := m.isLt
    have hdd : dd.val < 64 := dd.isLt
    show V c main_v27 (((cfg1.win 2).blk t).view.emb (ix3 0 m dd)) = V c main_v27 (ix3 _ m dd)
    refine congrArg (V c main_v27) ?_
    funext a; apply Fin.ext
    match a with
    | ⟨0, _⟩ => show win1_2.index t (0 : Fin 3) * 1 + 1 * 0 = win1_5.index t (0 : Fin 3); omega
    | ⟨1, _⟩ => show win1_2.index t (1 : Fin 3) * 2048 + 1 * m.val = m.val; omega
    | ⟨2, _⟩ => show win1_2.index t (2 : Fin 3) * 64 + 1 * dd.val = dd.val; omega
  · intro m
    have hm : m.val < 2048 := m.isLt
    show V c main_arg3 (((cfg1.win 3).blk t).view.emb (ix3 0 rr m)) = V c main_arg3 (ix3 _ _ m)
    refine congrArg (V c main_arg3) ?_
    funext a; apply Fin.ext
    match a with
    | ⟨0, _⟩ => show win1_3.index t (0 : Fin 3) * 1 + 1 * 0 = win1_5.index t (0 : Fin 3); omega
    | ⟨1, _⟩ => show win1_3.index t (1 : Fin 3) * 256 + 1 * rr.val = win1_5.index t (1 : Fin 3) * 256 + rr.val; omega
    | ⟨2, _⟩ => show win1_3.index t (2 : Fin 3) * 2048 + 1 * m.val = m.val; omega
  · intro m
    have hm : m.val < 2048 := m.isLt
    show V c main_v35 (((cfg1.win 4).blk t).view.emb (ix2 rr m)) = V c main_v35 (ix2 _ m)
    refine congrArg (V c main_v35) ?_
    funext a; apply Fin.ext
    match a with
    | ⟨0, _⟩ => show win1_4.index t (0 : Fin 2) * 256 + 1 * rr.val = win1_5.index t (1 : Fin 3) * 256 + rr.val; omega
    | ⟨1, _⟩ => show win1_4.index t (1 : Fin 2) * 2048 + 1 * m.val = m.val; omega

/-- An index of the array is in point t's block iff each coordinate is in the block's range on its axis. -/
private theorem mem_blk1 (t : Fin cfg1.N) (i : S16x2048x64.Idx) :
    i ∈ ((cfg1.win 5).blk t).view.set ↔ ∀ a : Fin 3, win1_5.index t a * S1x256x64.size a ≤ (i a).val ∧ (i a).val < win1_5.index t a * S1x256x64.size a + S1x256x64.size a := by
  show i ∈ ((View.whole main_v36).slice (win1_5.rect t)).set ↔ _
  rw [View.set_slice_whole, Rect.mem_set_unit]
  exact Iff.rfl

/-- The output blocks cover the array: row n of head h lies in the block of the point whose output block index is
    (h, n / 256, 0). -/
private theorem cover1 (i : S16x2048x64.Idx) : ∃ t : Fin cfg1.N, (cfg1.win 5).flush t = true ∧ i ∈ ((cfg1.win 5).blk t).view.set := by
  have hi0 : (i 0).val < 16 := (i 0).isLt
  have hi1 : (i 1).val < 2048 := (i 1).isLt
  have hi2 : (i 2).val < 64 := (i 2).isLt
  obtain ⟨t, q0, q1⟩ := idx_onto1 ⟨(i 0).val, hi0⟩ ⟨(i 1).val / 256, by omega⟩
  obtain ⟨-, -, -, -, -, -, -, -, -, -, -, -, -, -, -, -, f52⟩ := idx_facts1 t
  have q0' : win1_5.index t (0 : Fin 3) = (i 0).val := q0
  have q1' : win1_5.index t (1 : Fin 3) = (i 1).val / 256 := q1
  refine ⟨t, flush1_5 t, ?_⟩
  rw [mem_blk1]
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 256 ≤ (i 1).val ∧ (i 1).val < win1_5.index t (1 : Fin 3) * 256 + 256; omega
  | ⟨2, _⟩ => show win1_5.index t (2 : Fin 3) * 64 ≤ (i 2).val ∧ (i 2).val < win1_5.index t (2 : Fin 3) * 64 + 64; omega

/-- THE ARRAY after the region: the whole-array function of the arrays the region reads. -/
private theorem final1 (c : Dev nD) :
    (dat1 V c).arrAt 5 cfg1.N = attnG (qA V c) (kA V c) (vA V c) (biasA V c) (keepA V c) :=
  (dat1 V c).arrAt_eq_of_cover 5 (attnG (qA V c) (kA V c) (vA V c) (biasA V c) (keepA V c)) (fun t _ => flushed1_eq V c t) cover1

/-- THE ATTENTION REGION'S OUTPUT, entry by entry. -/
theorem arr1_apply (c : Dev nD) (h : Fin 16) (n : Fin 2048) (d : Fin 64) :
    attnA V c (ix3 h n d)
      = Spec.rowAttn
          (fun m => Spec.maskedScore (FloatOps.cmpf (F := Ideal) (φ := .f32) .ogt (keepA V c (ix2 n m)) Spec.zeroF)
            (∑ dd : Fin 64, qA V c (ix3 h n dd) * kA V c (ix3 h m dd)) (biasA V c (ix3 h n m)))
          (fun m => vA V c (ix3 h m d)) := by
  show (dat1 V c).arrAt 5 cfg1.N (ix3 h n d) = _
  rw [final1]
  rfl

end Cert.KernelIdeal.Hand

end
-- ==== Proof.RefValue.lean ====
/-
  The reference's stages read at an index, at the exact instance: each projection x · w + b entry by entry, and the
  attention output entry by entry as softmax attention along one row over the reference's own projected heads, its bias
  argument and its keep mask.
-/
import proofs.«117108_j26259430048704_1_alg».proof.Proof.RefRead
import proofs.«117108_j26259430048704_1_alg».proof.Proof.Spec
import Idealize.ShloMosaic.PureOps.Ideal.Laws

set_option maxRecDepth 16384

noncomputable section

namespace Cert.ReferenceIdeal.RefValue

open Cert.ReferenceIdeal Cert.ReferenceIdeal.Gen Cert.ReferenceIdeal.ReadP
open Idealize.ShloMosaic Idealize.ShloMosaic.TcCoe Idealize.ShloMosaic.ValueIdx

/-! ## The projections -/

/-- Stage v0's contraction operands at (r, cc): row r of the input at column k, row k of the weights at column cc; the
    twice-broadcast bias at (r, cc) is its entry cc. -/
private theorem lidx_v0 (r : Fin 2048) (cc k : Fin 1024) : lidx_main_v0 (ix2 r cc) k = ix2 r k :=
  funext fun a => Fin.ext (by match a with | ⟨0, _⟩ => rfl | ⟨1, _⟩ => rfl)
private theorem ridx_v0 (r : Fin 2048) (cc k : Fin 1024) : ridx_main_v0 (ix2 r cc) k = ix2 k cc :=
  funext fun a => Fin.ext (by match a with | ⟨0, _⟩ => rfl | ⟨1, _⟩ => rfl)
private theorem bidx_v0 (r : Fin 2048) (cc : Fin 1024) : idx_main_v1 (idx_main_v2 (ix2 r cc)) = ix1 cc :=
  funext fun a => Fin.ext (by match a with | ⟨0, _⟩ => rfl)

/-- Stage v8's contraction operands at (r, cc): row r of the input at column k, row k of the weights at column cc; the
    twice-broadcast bias at (r, cc) is its entry cc. -/
private theorem lidx_v8 (r : Fin 2048) (cc k : Fin 1024) : lidx_main_v8 (ix2 r cc) k = ix2 r k :=
  funext fun a => Fin.ext (by match a with | ⟨0, _⟩ => rfl | ⟨1, _⟩ => rfl)
private theorem ridx_v8 (r : Fin 2048) (cc k : Fin 1024) : ridx_main_v8 (ix2 r cc) k = ix2 k cc :=
  funext fun a => Fin.ext (by match a with | ⟨0, _⟩ => rfl | ⟨1, _⟩ => rfl)
private theorem bidx_v8 (r : Fin 2048) (cc : Fin 1024) : idx_main_v9 (idx_main_v10 (ix2 r cc)) = ix1 cc :=
  funext fun a => Fin.ext (by match a with | ⟨0, _⟩ => rfl)

/-- Stage v14's contraction operands at (r, cc): row r of the input at column k, row k of the weights at column cc; the
    twice-broadcast bias at (r, cc) is its entry cc. -/
private theorem lidx_v14 (r : Fin 2048) (cc k : Fin 1024) : lidx_main_v14 (ix2 r cc) k = ix2 r k :=
  funext fun a => Fin.ext (by match a with | ⟨0, _⟩ => rfl | ⟨1, _⟩ => rfl)
private theorem ridx_v14 (r : Fin 2048) (cc k : Fin 1024) : ridx_main_v14 (ix2 r cc) k = ix2 k cc :=
  funext fun a => Fin.ext (by match a with | ⟨0, _⟩ => rfl | ⟨1, _⟩ => rfl)
private theorem bidx_v14 (r : Fin 2048) (cc : Fin 1024) : idx_main_v15 (idx_main_v16 (ix2 r cc)) = ix1 cc :=
  funext fun a => Fin.ext (by match a with | ⟨0, _⟩ => rfl)

/-- The three projections, entry by entry. -/
theorem ref_v3_apply (x0 : FVec Ideal S2048x1024 .f32) (x5 : FVec Ideal S1024x1024 .f32) (x6 : FVec Ideal S1024 .f32) (r : Fin 2048) (cc : Fin 1024) :
    val_main_v3 (F := Ideal) x0 x5 x6 (ix2 r cc) = Spec.projAt x0 x5 x6 r cc := by
  rw [val_main_v3_apply, val_main_v0_apply, val_main_v2_apply, val_main_v1_apply]
  simp only [lidx_v0, ridx_v0, bidx_v0, Ideal.addf_def]
  rfl
theorem ref_v11_apply (x1 : FVec Ideal S2048x1024 .f32) (x7 : FVec Ideal S1024x1024 .f32) (x8 : FVec Ideal S1024 .f32) (r : Fin 2048) (cc : Fin 1024) :
    val_main_v11 (F := Ideal) x1 x7 x8 (ix2 r cc) = Spec.projAt x1 x7 x8 r cc := by
  rw [val_main_v11_apply, val_main_v8_apply, val_main_v10_apply, val_main_v9_apply]
  simp only [lidx_v8, ridx_v8, bidx_v8, Ideal.addf_def]
  rfl
theorem ref_v17_apply (x2 : FVec Ideal S2048x1024 .f32) (x9 : FVec Ideal S1024x1024 .f32) (x10 : FVec Ideal S1024 .f32) (r : Fin 2048) (cc : Fin 1024) :
    val_main_v17 (F := Ideal) x2 x9 x10 (ix2 r cc) = Spec.projAt x2 x9 x10 r cc := by
  rw [val_main_v17_apply, val_main_v14_apply, val_main_v16_apply, val_main_v15_apply]
  simp only [lidx_v14, ridx_v14, bidx_v14, Ideal.addf_def]
  rfl

/-! ## The attention output -/

section Attn

variable (x0 x1 : FVec Ideal S2048x1024 .f32) (x3 : FVec Ideal S16x2048x2048 .f32) (x4 : IVec S2047x2047 32)
    (x5 : FVec Ideal S1024x1024 .f32) (x6 : FVec Ideal S1024 .f32) (x7 : FVec Ideal S1024x1024 .f32) (x8 : FVec Ideal S1024 .f32)

/-- Row (h, n)'s masked scores: query row n against every key row m of head h, plus the bias, zero where the keep bit is clear. -/
private def rowScore (h : Fin 16) (n : Fin 2048) : Fin 2048 → EReal := fun m =>
  Spec.maskedScore (val_main_v28 (F := Ideal) x4 (ix2 n m))
    (∑ dd : Fin 64, val_main_v7 (F := Ideal) x0 x5 x6 (ix3 h n dd) * val_main_v13 (F := Ideal) x1 x7 x8 (ix3 h m dd)) (x3 (ix3 h n m))

private theorem lidx_v20 (h : Fin 16) (n m : Fin 2048) (k : Fin 64) : lidx_main_v20 (ix3 h n m) k = ix3 h n k :=
  funext fun a => Fin.ext (by match a with | ⟨0, _⟩ => rfl | ⟨1, _⟩ => rfl | ⟨2, _⟩ => rfl)
private theorem ridx_v20 (h : Fin 16) (n m : Fin 2048) (k : Fin 64) : ridx_main_v20 (ix3 h n m) k = ix3 h m k :=
  funext fun a => Fin.ext (by match a with | ⟨0, _⟩ => rfl | ⟨1, _⟩ => rfl | ⟨2, _⟩ => rfl)

/-- The score of query row n against key row m in head h: the contraction over the 64 head coordinates. -/
private theorem v20_at (h : Fin 16) (n m : Fin 2048) :
    val_main_v20 (F := Ideal) x0 x1 x5 x6 x7 x8 (ix3 h n m)
      = ∑ dd : Fin 64, val_main_v7 (F := Ideal) x0 x5 x6 (ix3 h n dd) * val_main_v13 (F := Ideal) x1 x7 x8 (ix3 h m dd) := by
  rw [val_main_v20_apply]
  simp only [lidx_v20, ridx_v20]

/-- The keep mask is broadcast over the heads: at (h, n, m) it is the mask at (n, m). -/
private theorem midx_v30 (h : Fin 16) (n m : Fin 2048) : idx_main_v29 (idx_main_call0_v0 (ix3 h n m)) = ix2 n m :=
  funext fun a => Fin.ext (by match a with | ⟨0, _⟩ => rfl | ⟨1, _⟩ => rfl)

/-- The masked score at (h, n, m). -/
private theorem v30_at (h : Fin 16) (n m : Fin 2048) :
    val_main_v30 (F := Ideal) x0 x1 x3 x4 x5 x6 x7 x8 (ix3 h n m) = rowScore x0 x1 x3 x4 x5 x6 x7 x8 h n m := by
  rw [val_main_v30_apply, val_main_call0_v0_apply, val_main_v29_apply, midx_v30, val_main_v21_apply, v20_at,
    val_main_call0_v1_apply, val_main_cst_3_apply]
  rfl

private theorem red_v31 : S16x2048x2048.Reduces [2] S16x2048 := by decide

/-- The reduced index (h, n) with coordinate k put back on the last axis is (h, n, k). -/
private theorem lift_v31 (h : Fin 16) (n : Fin 2048) (k : Fin (S16x2048x2048.size 2)) :
    red_v31.lift (ix2 h n) k = ix3 h n (⟨k.val, k.isLt⟩ : Fin 2048) := by
  funext c; apply Fin.ext
  fin_cases c <;> rfl

/-- From −∞ the maximum-reduction of any array along its last axis, at (h, n), is the fold of max over that row: max is
    commutative and associative, so the order the reduction visits the row in does not matter. -/
private theorem reduceMax_row (x : FVec Ideal S16x2048x2048 .f32) (h : Fin 16) (n : Fin 2048) :
    Host.reduce FloatOps.maximumf x (val_main_cst_4 (F := Ideal)) reducesTo_S16x2048x2048_S16x2048_d2 h_S_ (ix2 h n)
      = (Finset.univ : Finset (Fin 2048)).fold max Spec.negInf (fun k => x (ix3 h n k)) := by
  refine (Host.reduce_eq_fold_single FloatOps.maximumf x _ reducesTo_S16x2048x2048_S16x2048_d2 red_v31 h_S_ (ix2 h n)).trans ?_
  have hf : (x ∘ red_v31.lift (ix2 h n)) = fun k : Fin 2048 => x (ix3 h n k) := funext fun k => congrArg x (lift_v31 h n k)
  exact congrArg (fun f => Finset.fold max Spec.negInf f (Finset.univ : Finset (Fin 2048))) hf

/-- The row's running maximum from −∞. -/
private theorem v31_at (h : Fin 16) (n : Fin 2048) :
    val_main_v31 (F := Ideal) x0 x1 x3 x4 x5 x6 x7 x8 (ix2 h n)
      = (Finset.univ : Finset (Fin 2048)).fold max Spec.negInf (rowScore x0 x1 x3 x4 x5 x6 x7 x8 h n) := by
  unfold val_main_v31
  refine (reduceMax_row _ h n).trans ?_
  exact congrArg (fun f => Finset.fold max Spec.negInf f (Finset.univ : Finset (Fin 2048)))
    (funext fun k => v30_at x0 x1 x3 x4 x5 x6 x7 x8 h n k)

/-- The row maximum. -/
private theorem v33_at (h : Fin 16) (n : Fin 2048) :
    val_main_v33 (F := Ideal) x0 x1 x3 x4 x5 x6 x7 x8 (ix2 h n) = Spec.rowMax (rowScore x0 x1 x3 x4 x5 x6 x7 x8 h n) := by
  rw [val_main_v33_apply, v31_at, val_main_v32_apply, val_main_cst_5_apply]
  rfl

private theorem bidx_v35 (h : Fin 16) (n m : Fin 2048) : idx_main_v34 (idx_main_v35 (ix3 h n m)) = ix2 h n :=
  funext fun a => Fin.ext (by match a with | ⟨0, _⟩ => rfl | ⟨1, _⟩ => rfl)
private theorem bidx_v40 (h : Fin 16) (n m : Fin 2048) : idx_main_v39 (idx_main_v40 (ix3 h n m)) = ix2 h n :=
  funext fun a => Fin.ext (by match a with | ⟨0, _⟩ => rfl | ⟨1, _⟩ => rfl)
private theorem idx_v38 (h : Fin 16) (n k : Fin 2048) : idx_main_v38 (ix2 h n) k = ix3 h n k :=
  funext fun a => Fin.ext (by match a with | ⟨0, _⟩ => rfl | ⟨1, _⟩ => rfl | ⟨2, _⟩ => rfl)

/-- The shifted score's exponential at (h, n, m). -/
private theorem v37_at (h : Fin 16) (n m : Fin 2048) :
    val_main_v37 (F := Ideal) x0 x1 x3 x4 x5 x6 x7 x8 (ix3 h n m)
      = Ideal.exp (rowScore x0 x1 x3 x4 x5 x6 x7 x8 h n m - Spec.rowMax (rowScore x0 x1 x3 x4 x5 x6 x7 x8 h n)) := by
  rw [val_main_v37_apply, val_main_v36_apply, v30_at, val_main_v35_apply, val_main_v34_apply, bidx_v35, v33_at,
    Ideal.hostUnary_exp_def, Ideal.subf_def]

/-- The row's normaliser: the sum of the exponentials, the initial value being 0. -/
private theorem v38_at (h : Fin 16) (n : Fin 2048) :
    val_main_v38 (F := Ideal) x0 x1 x3 x4 x5 x6 x7 x8 (ix2 h n)
      = ∑ m : Fin 2048, Ideal.exp (rowScore x0 x1 x3 x4 x5 x6 x7 x8 h n m - Spec.rowMax (rowScore x0 x1 x3 x4 x5 x6 x7 x8 h n)) := by
  rw [val_main_v38_apply, val_main_cst_6_apply]
  simp only [idx_v38, v37_at, Ideal.ofBits_def, Ideal.ofBits_zero_f32, zero_add]

/-- The softmax weight at (h, n, m). -/
private theorem v41_at (h : Fin 16) (n m : Fin 2048) :
    val_main_v41 (F := Ideal) x0 x1 x3 x4 x5 x6 x7 x8 (ix3 h n m)
      = Ideal.div (Ideal.exp (rowScore x0 x1 x3 x4 x5 x6 x7 x8 h n m - Spec.rowMax (rowScore x0 x1 x3 x4 x5 x6 x7 x8 h n)))
          (∑ m' : Fin 2048, Ideal.exp (rowScore x0 x1 x3 x4 x5 x6 x7 x8 h n m' - Spec.rowMax (rowScore x0 x1 x3 x4 x5 x6 x7 x8 h n))) := by
  rw [val_main_v41_apply, v37_at, val_main_v40_apply, val_main_v39_apply, bidx_v40, v38_at]
  rfl

private theorem lidx_v42 (h : Fin 16) (n : Fin 2048) (d : Fin 64) (k : Fin 2048) : lidx_main_v42 (ix3 h n d) k = ix3 h n k :=
  funext fun a => Fin.ext (by match a with | ⟨0, _⟩ => rfl | ⟨1, _⟩ => rfl | ⟨2, _⟩ => rfl)
private theorem ridx_v42 (h : Fin 16) (n : Fin 2048) (d : Fin 64) (k : Fin 2048) : ridx_main_v42 (ix3 h n d) k = ix3 h k d :=
  funext fun a => Fin.ext (by match a with | ⟨0, _⟩ => rfl | ⟨1, _⟩ => rfl | ⟨2, _⟩ => rfl)

end Attn

/-- THE REFERENCE'S ATTENTION OUTPUT, entry by entry. -/
theorem ref_v42_apply (x0 x1 x2 : FVec Ideal S2048x1024 .f32) (x3 : FVec Ideal S16x2048x2048 .f32) (x4 : IVec S2047x2047 32)
    (x5 : FVec Ideal S1024x1024 .f32) (x6 : FVec Ideal S1024 .f32) (x7 : FVec Ideal S1024x1024 .f32) (x8 : FVec Ideal S1024 .f32)
    (x9 : FVec Ideal S1024x1024 .f32) (x10 : FVec Ideal S1024 .f32) (h : Fin 16) (n : Fin 2048) (d : Fin 64) :
    val_main_v42 (F := Ideal) x0 x1 x2 x3 x4 x5 x6 x7 x8 x9 x10 (ix3 h n d)
      = Spec.rowAttn
          (fun m => Spec.maskedScore (val_main_v28 (F := Ideal) x4 (ix2 n m))
            (∑ dd : Fin 64, val_main_v7 (F := Ideal) x0 x5 x6 (ix3 h n dd) * val_main_v13 (F := Ideal) x1 x7 x8 (ix3 h m dd)) (x3 (ix3 h n m)))
          (fun m => val_main_v19 (F := Ideal) x2 x9 x10 (ix3 h m d)) := by
  rw [val_main_v42_apply]
  simp only [lidx_v42, ridx_v42, v41_at]
  rfl

end Cert.ReferenceIdeal.RefValue

end
-- ==== Proof.LibScatterMap.lean ====
/-
  A scatter whose body returns the update (jax's `x.at[...].set(u)`) commutes with any function applied entry by entry:
  mapping the operand and the updates and then scattering is scattering and then mapping. Which entry an update lands
  on depends on the indices only, never on the values.
-/
import Idealize.ShloMosaic.PureOps

namespace Cert.LibScatterMap

open Idealize.ShloMosaic

/-- A replacing scatter commutes with an entrywise map. -/
theorem scatter_replace_map {α β : Type} {s si u : Shape} {w : Nat} (g : α → β) (d : ScatterDims s si u)
    (x : s.Idx → α) (idx : IVec si w) (upd : u.Idx → α) :
    (fun i => g (Host.scatter d (fun _ b => b) x idx upd i))
      = Host.scatter d (fun _ b => b) (fun i => g (x i)) idx (fun n => g (upd n)) := by
  unfold Host.scatter
  generalize List.finRange u.numel = l
  -- the fold over the update indices, one step at a time; the operand is whatever the earlier steps left
  induction l generalizing x with
  | nil => rfl
  | cons n l ih =>
    simp only [List.foldl_cons]
    rw [ih]
    congr 1
    -- one step: where the update lands depends on the indices only
    cases d.resultIdx? (u.rowMajor.symm n) idx with
    | none => rfl
    | some i =>
      funext i'
      show g (if i' = i then upd (u.rowMajor.symm n) else x i') = if i' = i then g (upd (u.rowMajor.symm n)) else g (x i')
      split <;> rfl

end Cert.LibScatterMap
-- ==== Proof.KeepMask.lean ====
/-
  The keep mask as bits. The kernel's program builds the mask as floats — ones, overwritten from (1, 1) on by the
  indicator of explored ≠ 0 turned into 0.0 / 1.0 — and its body tests "mask > 0"; the reference builds the same scatter
  over bits. A replacing scatter commutes with an entrywise map, "1.0 > 0" is true, and "float of a bit > 0" is the bit:
  so testing the float mask gives the bit mask, entry by entry.
-/
import proofs.«117108_j26259430048704_1_alg».proof.Proof.LibScatterMap
import proofs.«117108_j26259430048704_1_alg».proof.Proof.Spec
import Idealize.ShloMosaic.PureOps.Ideal
import Idealize.ShloMosaic.Lib.ValueIdx

noncomputable section

namespace Cert.KeepMask

open Idealize.ShloMosaic Idealize.ShloMosaic.ValueIdx

/-- One is positive. -/
theorem one_gt_zero : FloatOps.cmpf (F := Ideal) (φ := .f32) .ogt (Ideal.ofBits .f32 0x3F800000#32) Spec.zeroF = 1#1 := by
  have h1 : Ideal.ofBits .f32 0x3F800000#32 = 1 := by simp [Ideal.ofBits, Ideal.ieee, -EReal.coe_mul]; norm_num
  have h0 : Spec.zeroF = 0 := by simp [Spec.zeroF, Ideal.ofBits, Ideal.ieee]
  -- the comparison is the order's: 0 < 1
  show BitVec.ofBool (decide (Spec.zeroF < Ideal.ofBits .f32 0x3F800000#32)) = 1#1
  rw [h1, h0]
  simp

/-- The float of a bit is positive exactly when the bit is set. -/
theorem uitofp_gt_zero (b : BitVec 1) : FloatOps.cmpf (F := Ideal) (φ := .f32) .ogt (FloatOps.uitofp (F := Ideal) .f32 b) Spec.zeroF = b := by
  have h0 : Spec.zeroF = 0 := by simp [Spec.zeroF, Ideal.ofBits, Ideal.ieee]
  -- the float of a bit is the bit's number, 0 or 1, as a real; the comparison is the order's
  show BitVec.ofBool (decide (Spec.zeroF < ((b.toNat : ℝ) : EReal))) = b
  rw [h0]
  rcases BitVec.eq_zero_or_eq_one b with hb | hb <;> subst hb <;> simp

/-- Testing the float mask entry by entry gives the bit mask. -/
theorem keep_bits {s si u : Shape} {w : Nat} (d : ScatterDims s si u) (idx : IVec si w) (bits : IVec u 1) :
    (fun j => FloatOps.cmpf (F := Ideal) (φ := .f32) .ogt
        (Host.scatter d (fun _ b => b) (fun _ => Ideal.ofBits .f32 0x3F800000#32) idx (uitofp (F := Ideal) .f32 bits) j) Spec.zeroF)
      = Host.scatter d (fun _ b => b) (fun _ => (1#1 : BitVec 1)) idx bits := by
  -- the test commutes with the replacing scatter; then the operand's entries are "1.0 > 0" and the updates' "float of a bit > 0"
  refine (LibScatterMap.scatter_replace_map (fun a => FloatOps.cmpf (F := Ideal) (φ := .f32) .ogt a Spec.zeroF) d
    (fun _ => Ideal.ofBits .f32 0x3F800000#32) idx (uitofp (F := Ideal) .f32 bits)).trans ?_
  have hx : (fun _ : s.Idx => FloatOps.cmpf (F := Ideal) (φ := .f32) .ogt (Ideal.ofBits .f32 0x3F800000#32) Spec.zeroF)
      = fun _ => (1#1 : BitVec 1) := funext fun _ => one_gt_zero
  have hu : (fun n : u.Idx => FloatOps.cmpf (F := Ideal) (φ := .f32) .ogt (uitofp (F := Ideal) .f32 bits n) Spec.zeroF)
      = bits := funext fun n => uitofp_gt_zero (bits n)
  rw [hx, hu]

end Cert.KeepMask

end
-- ==== Proof.Bridge.lean ====
/-
  The kernel's program computes the reference's function. At the exact instance: each slice of the projection region's
  output is the reference's projection x · w + b; hence the query, key and value heads the attention region is entered
  with are the reference's; the keep mask tested as "> 0" is the reference's bit mask; hence the attention region's
  output is the reference's attention output, entry by entry softmax attention along one row; and the final re-layout is
  the same on both sides.
-/
import proofs.«117108_j26259430048704_1_alg».proof.Proof.KiHost
import proofs.«117108_j26259430048704_1_alg».proof.Proof.KiValue0
import proofs.«117108_j26259430048704_1_alg».proof.Proof.KiValue1
import proofs.«117108_j26259430048704_1_alg».proof.Proof.RefValue
import proofs.«117108_j26259430048704_1_alg».proof.Proof.KeepMask

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

/-- Entry (i, r, cc) of the projection region's output is the i-th projection's entry (r, cc). -/
theorem proj_apply (c : Dev nD) (i : Fin 3) (r : Fin 2048) (cc : Fin 1024) :
    (E2 m c main_v13 : FVec Ideal S3x2048x1024 .f32) (ix3 i r cc) = Spec.projAt (stackX m c i) (stackW m c i) (stackB m c i) r cc := by
  have h3 : (E2 m c main_v13 : FVec Ideal S3x2048x1024 .f32) = projA (E1 m) c := W2_arr m c 3
  rw [h3, arr0_apply (E1 m) c i r cc]
  unfold Spec.projAt
  have hx : ∀ k : Fin 1024, xsA (E1 m) c (ix3 i r k) = stackX m c i (ix2 r k) := fun k => E1_v3_apply m c i r k
  have hw : ∀ k : Fin 1024, wsA (E1 m) c (ix3 i k cc) = stackW m c i (ix2 k cc) := fun k => E1_v7_apply m c i k cc
  have hb : bsA (E1 m) c (ix3 i 0 cc) = stackB m c i (ix1 cc) := E1_v12_apply m c i cc
  rw [hb]
  exact congrArg (· + _) (Finset.sum_congr rfl fun k _ => by rw [hx k, hw k])

/-- The three slices are the reference's three projections. -/
theorem slice0_eq (c : Dev nD) : projSlice m c 0 = Cert.ReferenceIdeal.ReadP.val_main_v3 (F := Ideal) (m ((c : Thread nD τ).loc main_arg0)) (m ((c : Thread nD τ).loc main_arg5)) (m ((c : Thread nD τ).loc main_arg6)) := by
  funext j
  obtain ⟨r, cc, rfl⟩ : ∃ (r : Fin 2048) (cc : Fin 1024), j = ix2 r cc := ⟨j 0, j 1, eq_ix2 j⟩
  rw [projSlice_apply, proj_apply m c 0 r cc, Cert.ReferenceIdeal.RefValue.ref_v3_apply]
  rfl
theorem slice1_eq (c : Dev nD) : projSlice m c 1 = Cert.ReferenceIdeal.ReadP.val_main_v11 (F := Ideal) (m ((c : Thread nD τ).loc main_arg1)) (m ((c : Thread nD τ).loc main_arg7)) (m ((c : Thread nD τ).loc main_arg8)) := by
  funext j
  obtain ⟨r, cc, rfl⟩ : ∃ (r : Fin 2048) (cc : Fin 1024), j = ix2 r cc := ⟨j 0, j 1, eq_ix2 j⟩
  rw [projSlice_apply, proj_apply m c 1 r cc, Cert.ReferenceIdeal.RefValue.ref_v11_apply]
  rfl
theorem slice2_eq (c : Dev nD) : projSlice m c 2 = Cert.ReferenceIdeal.ReadP.val_main_v17 (F := Ideal) (m ((c : Thread nD τ).loc main_arg2)) (m ((c : Thread nD τ).loc main_arg9)) (m ((c : Thread nD τ).loc main_arg10)) := by
  funext j
  obtain ⟨r, cc, rfl⟩ : ∃ (r : Fin 2048) (cc : Fin 1024), j = ix2 r cc := ⟨j 0, j 1, eq_ix2 j⟩
  rw [projSlice_apply, proj_apply m c 2 r cc, Cert.ReferenceIdeal.RefValue.ref_v17_apply]
  rfl

/-- The heads the attention region is entered with are the reference's. -/
theorem q_eq (c : Dev nD) : (E3 m c main_v23 : FVec Ideal S16x2048x64 .f32) = Cert.ReferenceIdeal.ReadP.val_main_v7 (F := Ideal) (m ((c : Thread nD τ).loc main_arg0)) (m ((c : Thread nD τ).loc main_arg5)) (m ((c : Thread nD τ).loc main_arg6)) := by
  rw [E3_v23, slice0_eq]; rfl
theorem k_eq (c : Dev nD) : (E3 m c main_v25 : FVec Ideal S16x2048x64 .f32) = Cert.ReferenceIdeal.ReadP.val_main_v13 (F := Ideal) (m ((c : Thread nD τ).loc main_arg1)) (m ((c : Thread nD τ).loc main_arg7)) (m ((c : Thread nD τ).loc main_arg8)) := by
  rw [E3_v25, slice1_eq]; rfl
theorem v_eq (c : Dev nD) : (E3 m c main_v27 : FVec Ideal S16x2048x64 .f32) = Cert.ReferenceIdeal.ReadP.val_main_v19 (F := Ideal) (m ((c : Thread nD τ).loc main_arg2)) (m ((c : Thread nD τ).loc main_arg9)) (m ((c : Thread nD τ).loc main_arg10)) := by
  rw [E3_v27, slice2_eq]; rfl

/-- The float keep mask tested as "> 0" is the reference's bit mask. -/
theorem keep_eq (c : Dev nD) (j : S2048x2048.Idx) :
    FloatOps.cmpf (F := Ideal) (φ := .f32) .ogt ((E3 m c main_v35 : FVec Ideal S2048x2048 .f32) j) Spec.zeroF
      = Cert.ReferenceIdeal.ReadP.val_main_v28 (F := Ideal) (m ((c : Thread nD τ).loc main_arg4)) j := by
  rw [E3_v35]
  exact congrFun (Cert.KeepMask.keep_bits scatter_S2048x2048_S2_S2047x2047_01_n_01_0 _ _) j

/-- The attention region's output is the reference's attention output. -/
theorem attn_eq (c : Dev nD) :
    (E4 m c main_v36 : FVec Ideal S16x2048x64 .f32) = Cert.ReferenceIdeal.ReadP.val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  funext j
  obtain ⟨h, n, d, rfl⟩ : ∃ (h : Fin 16) (n : Fin 2048) (d : Fin 64), j = ix3 h n d := ⟨j 0, j 1, j 2, eq_ix3 j⟩
  have h5 : (E4 m c main_v36 : FVec Ideal S16x2048x64 .f32) = attnA (E3 m) c := W4_arr m c 5
  rw [h5, arr1_apply (E3 m) c h n d, Cert.ReferenceIdeal.RefValue.ref_v42_apply]
  have hq : qA (E3 m) c = _ := q_eq m c
  have hk : kA (E3 m) c = _ := k_eq m c
  have hv : vA (E3 m) c = _ := v_eq m c
  have hb : biasA (E3 m) c = _ := E3_arg3 m c
  rw [hq, hk, hv, hb]
  have hm : ∀ mm : Fin 2048, FloatOps.cmpf (F := Ideal) (φ := .f32) .ogt (keepA (E3 m) c (ix2 n mm)) Spec.zeroF
      = Cert.ReferenceIdeal.ReadP.val_main_v28 (F := Ideal) (m ((c : Thread nD τ).loc main_arg4)) (ix2 n mm) := fun mm => keep_eq m c (ix2 n mm)
  simp only [hm]

/-- THE RESULT: what the kernel's program returns is the reference's last stage of the arguments. -/
theorem result_eq (c : Dev nD) :
    (W5 m c main_v38 : FVec Ideal S2048x1024 .f32) = Cert.ReferenceIdeal.ReadP.val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [W5_v38, attn_eq]; rfl

end Cert.KernelIdeal.Hand

end
-- ==== Proof.RefStages.lean ====
/-
  The reference program's run, read back stage by stage: every weakly fair execution terminates with the result buffer at
  the last stage's value of the arguments' launch contents — the composition of the stages, each one host operation of
  the program — and the arguments unchanged.
-/
import proofs.«117108_j26259430048704_1_alg».proof.Proof.RefRun
import proofs.«117108_j26259430048704_1_alg».proof.Proof.RefRead

noncomputable section

namespace Cert.ReferenceIdeal.RefStages

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- The fold over two lines one after the other is the second's fold over the first's. -/
private theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-- The query projection: the product, its bias, the split into heads and the scaling. -/
private abbrev opsQ : List (HloOp τ sig (Elt F)) :=
  [ binary main_arg0 main_arg5 main_v0 ((fun l r => Host.dotGeneral dot_S2048x1024_S1024x1024_S2048x1024_1_0_0_1_n_n none l r) : (⟨S2048x1024, .f32⟩ : BufTy).Contents (Elt F) → (⟨S1024x1024, .f32⟩ : BufTy).Contents (Elt F) → (⟨S2048x1024, .f32⟩ : BufTy).Contents (Elt F)),
    unary main_arg6 main_v1 (broadcastInDim S1x1024 ![1] bcast_S1024_S1x1024_1 : (⟨S1024, .f32⟩ : BufTy).Contents (Elt F) → (⟨S1x1024, .f32⟩ : BufTy).Contents (Elt F)),
    unary main_v1 main_v2 (broadcastInDim S2048x1024 ![0, 1] bcast_S1x1024_S2048x1024_0_1 : (⟨S1x1024, .f32⟩ : BufTy).Contents (Elt F) → (⟨S2048x1024, .f32⟩ : BufTy).Contents (Elt F)),
    binary main_v0 main_v2 main_v3 (addf : (⟨S2048x1024, .f32⟩ : BufTy).Contents (Elt F) → (⟨S2048x1024, .f32⟩ : BufTy).Contents (Elt F) → (⟨S2048x1024, .f32⟩ : BufTy).Contents (Elt F)),
    reshape main_v3 main_v4 rfl shapeCasts_S2048x1024_S2048x16x64,
    unary main_v4 main_v5 ((transpose S16x2048x64 [1, 0, 2] · transposes_S2048x16x64_S16x2048x64_1_0_2) : (⟨S2048x16x64, .f32⟩ : BufTy).Contents (Elt F) → (⟨S16x2048x64, .f32⟩ : BufTy).Contents (Elt F)),
    nullary main_cst (constant S_ .f32 0x3E000000#32),
    unary main_cst main_v6 (broadcastInDim S16x2048x64 ![] bcast_S_S16x2048x64 : (⟨S_, .f32⟩ : BufTy).Contents (Elt F) → (⟨S16x2048x64, .f32⟩ : BufTy).Contents (Elt F)),
    binary main_v5 main_v6 main_v7 (mulf : (⟨S16x2048x64, .f32⟩ : BufTy).Contents (Elt F) → (⟨S16x2048x64, .f32⟩ : BufTy).Contents (Elt F) → (⟨S16x2048x64, .f32⟩ : BufTy).Contents (Elt F)) ]
/-- The buffers it writes. -/
private abbrev opsQ_W : List (Ref sig .tc) := [main_v0, main_v1, main_v2, main_v3, main_v4, main_v5, main_cst, main_v6, main_v7]
private theorem opsQ_writes : (opsQ : List (HloOp τ sig (Elt F))).Forall fun op => op.writes ⊆ (opsQ_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer it does not write keeps its contents through it. -/
private theorem opsQ_keep (V : Valuation τ sig (Elt F)) (r : Ref sig .tc) (h : r ∉ opsQ_W) :
    after (opsQ (F := F)) V (Proc.devRef .tc r) = V (Proc.devRef .tc r) :=
  after_of_writes_sub opsQ V opsQ_writes h

/-- The key projection: the product, its bias and the split into heads. -/
private abbrev opsK : List (HloOp τ sig (Elt F)) :=
  [ binary main_arg1 main_arg7 main_v8 ((fun l r => Host.dotGeneral dot_S2048x1024_S1024x1024_S2048x1024_1_0_0_1_n_n none l r) : (⟨S2048x1024, .f32⟩ : BufTy).Contents (Elt F) → (⟨S1024x1024, .f32⟩ : BufTy).Contents (Elt F) → (⟨S2048x1024, .f32⟩ : BufTy).Contents (Elt F)),
    unary main_arg8 main_v9 (broadcastInDim S1x1024 ![1] bcast_S1024_S1x1024_1 : (⟨S1024, .f32⟩ : BufTy).Contents (Elt F) → (⟨S1x1024, .f32⟩ : BufTy).Contents (Elt F)),
    unary main_v9 main_v10 (broadcastInDim S2048x1024 ![0, 1] bcast_S1x1024_S2048x1024_0_1 : (⟨S1x1024, .f32⟩ : BufTy).Contents (Elt F) → (⟨S2048x1024, .f32⟩ : BufTy).Contents (Elt F)),
    binary main_v8 main_v10 main_v11 (addf : (⟨S2048x1024, .f32⟩ : BufTy).Contents (Elt F) → (⟨S2048x1024, .f32⟩ : BufTy).Contents (Elt F) → (⟨S2048x1024, .f32⟩ : BufTy).Contents (Elt F)),
    reshape main_v11 main_v12 rfl shapeCasts_S2048x1024_S2048x16x64,
    unary main_v12 main_v13 ((transpose S16x2048x64 [1, 0, 2] · transposes_S2048x16x64_S16x2048x64_1_0_2) : (⟨S2048x16x64, .f32⟩ : BufTy).Contents (Elt F) → (⟨S16x2048x64, .f32⟩ : BufTy).Contents (Elt F)) ]
/-- The buffers it writes. -/
private abbrev opsK_W : List (Ref sig .tc) := [main_v8, main_v9, main_v10, main_v11, main_v12, main_v13]
private theorem opsK_writes : (opsK : List (HloOp τ sig (Elt F))).Forall fun op => op.writes ⊆ (opsK_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer it does not write keeps its contents through it. -/
private theorem opsK_keep (V : Valuation τ sig (Elt F)) (r : Ref sig .tc) (h : r ∉ opsK_W) :
    after (opsK (F := F)) V (Proc.devRef .tc r) = V (Proc.devRef .tc r) :=
  after_of_writes_sub opsK V opsK_writes h

/-- The value projection: the product, its bias and the split into heads. -/
private abbrev opsV : List (HloOp τ sig (Elt F)) :=
  [ binary main_arg2 main_arg9 main_v14 ((fun l r => Host.dotGeneral dot_S2048x1024_S1024x1024_S2048x1024_1_0_0_1_n_n none l r) : (⟨S2048x1024, .f32⟩ : BufTy).Contents (Elt F) → (⟨S1024x1024, .f32⟩ : BufTy).Contents (Elt F) → (⟨S2048x1024, .f32⟩ : BufTy).Contents (Elt F)),
    unary main_arg10 main_v15 (broadcastInDim S1x1024 ![1] bcast_S1024_S1x1024_1 : (⟨S1024, .f32⟩ : BufTy).Contents (Elt F) → (⟨S1x1024, .f32⟩ : BufTy).Contents (Elt F)),
    unary main_v15 main_v16 (broadcastInDim S2048x1024 ![0, 1] bcast_S1x1024_S2048x1024_0_1 : (⟨S1x1024, .f32⟩ : BufTy).Contents (Elt F) → (⟨S2048x1024, .f32⟩ : BufTy).Contents (Elt F)),
    binary main_v14 main_v16 main_v17 (addf : (⟨S2048x1024, .f32⟩ : BufTy).Contents (Elt F) → (⟨S2048x1024, .f32⟩ : BufTy).Contents (Elt F) → (⟨S2048x1024, .f32⟩ : BufTy).Contents (Elt F)),
    reshape main_v17 main_v18 rfl shapeCasts_S2048x1024_S2048x16x64,
    unary main_v18 main_v19 ((transpose S16x2048x64 [1, 0, 2] · transposes_S2048x16x64_S16x2048x64_1_0_2) : (⟨S2048x16x64, .f32⟩ : BufTy).Contents (Elt F) → (⟨S16x2048x64, .f32⟩ : BufTy).Contents (Elt F)) ]
/-- The buffers it writes. -/
private abbrev opsV_W : List (Ref sig .tc) := [main_v14, main_v15, main_v16, main_v17, main_v18, main_v19]
private theorem opsV_writes : (opsV : List (HloOp τ sig (Elt F))).Forall fun op => op.writes ⊆ (opsV_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer it does not write keeps its contents through it. -/
private theorem opsV_keep (V : Valuation τ sig (Elt F)) (r : Ref sig .tc) (h : r ∉ opsV_W) :
    after (opsV (F := F)) V (Proc.devRef .tc r) = V (Proc.devRef .tc r) :=
  after_of_writes_sub opsV V opsV_writes h

/-- The scores: each head's queries against its keys, plus the bias. -/
private abbrev opsScore : List (HloOp τ sig (Elt F)) :=
  [ binary main_v7 main_v13 main_v20 ((fun l r => Host.dotGeneral dot_S16x2048x64_S16x2048x64_S16x2048x2048_2_2_1_1_0_0 none l r) : (⟨S16x2048x64, .f32⟩ : BufTy).Contents (Elt F) → (⟨S16x2048x64, .f32⟩ : BufTy).Contents (Elt F) → (⟨S16x2048x2048, .f32⟩ : BufTy).Contents (Elt F)),
    binary main_v20 main_arg3 main_v21 (addf : (⟨S16x2048x2048, .f32⟩ : BufTy).Contents (Elt F) → (⟨S16x2048x2048, .f32⟩ : BufTy).Contents (Elt F) → (⟨S16x2048x2048, .f32⟩ : BufTy).Contents (Elt F)) ]
/-- The buffers it writes. -/
private abbrev opsScore_W : List (Ref sig .tc) := [main_v20, main_v21]
private theorem opsScore_writes : (opsScore : List (HloOp τ sig (Elt F))).Forall fun op => op.writes ⊆ (opsScore_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer it does not write keeps its contents through it. -/
private theorem opsScore_keep (V : Valuation τ sig (Elt F)) (r : Ref sig .tc) (h : r ∉ opsScore_W) :
    after (opsScore (F := F)) V (Proc.devRef .tc r) = V (Proc.devRef .tc r) :=
  after_of_writes_sub opsScore V opsScore_writes h

/-- The keep mask: the comparison scattered into an all-true square, with a leading unit axis. -/
private abbrev opsKeep : List (HloOp τ sig (Elt F)) :=
  [ nullary main_c (constantI S_ 1 1#1),
    unary main_c main_v22 (broadcastInDim S2048x2048 ![] bcast_S_S2048x2048 : (⟨S_, .i1⟩ : BufTy).Contents (Elt F) → (⟨S2048x2048, .i1⟩ : BufTy).Contents (Elt F)),
    nullary main_c_0 (constantI S_ 32 0#32),
    unary main_c_0 main_v23 (broadcastInDim S2047x2047 ![] bcast_S_S2047x2047 : (⟨S_, .i32⟩ : BufTy).Contents (Elt F) → (⟨S2047x2047, .i32⟩ : BufTy).Contents (Elt F)),
    binary main_arg4 main_v23 main_v24 (cmpi .ne : (⟨S2047x2047, .i32⟩ : BufTy).Contents (Elt F) → (⟨S2047x2047, .i32⟩ : BufTy).Contents (Elt F) → (⟨S2047x2047, .i1⟩ : BufTy).Contents (Elt F)),
    nullary main_c_1 (constantI S_ 32 1#32),
    unary main_c_1 main_v25 (broadcastInDim S1 ![] bcast_S_S1 : (⟨S_, .i32⟩ : BufTy).Contents (Elt F) → (⟨S1, .i32⟩ : BufTy).Contents (Elt F)),
    nullary main_c_2 (constantI S_ 32 1#32),
    unary main_c_2 main_v26 (broadcastInDim S1 ![] bcast_S_S1 : (⟨S_, .i32⟩ : BufTy).Contents (Elt F) → (⟨S1, .i32⟩ : BufTy).Contents (Elt F)),
    binary main_v25 main_v26 main_v27 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    ternary main_v22 main_v27 main_v24 main_v28 ((fun x i u => Host.scatter scatter_S2048x2048_S2_S2047x2047_01_n_01_0 (fun _ b => b) x i u) : (⟨S2048x2048, .i1⟩ : BufTy).Contents (Elt F) → (⟨S2, .i32⟩ : BufTy).Contents (Elt F) → (⟨S2047x2047, .i1⟩ : BufTy).Contents (Elt F) → (⟨S2048x2048, .i1⟩ : BufTy).Contents (Elt F)),
    unary main_v28 main_v29 (broadcastInDim S1x2048x2048 ![1, 2] bcast_S2048x2048_S1x2048x2048_1_2 : (⟨S2048x2048, .i1⟩ : BufTy).Contents (Elt F) → (⟨S1x2048x2048, .i1⟩ : BufTy).Contents (Elt F)) ]
/-- The buffers it writes. -/
private abbrev opsKeep_W : List (Ref sig .tc) := [main_c, main_v22, main_c_0, main_v23, main_v24, main_c_1, main_v25, main_c_2, main_v26, main_v27, main_v28, main_v29]
private theorem opsKeep_writes : (opsKeep : List (HloOp τ sig (Elt F))).Forall fun op => op.writes ⊆ (opsKeep_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer it does not write keeps its contents through it. -/
private theorem opsKeep_keep (V : Valuation τ sig (Elt F)) (r : Ref sig .tc) (h : r ∉ opsKeep_W) :
    after (opsKeep (F := F)) V (Proc.devRef .tc r) = V (Proc.devRef .tc r) :=
  after_of_writes_sub opsKeep V opsKeep_writes h

/-- The masking: scores kept where the mask is set, zero elsewhere. -/
private abbrev opsWhere : List (HloOp τ sig (Elt F)) :=
  [ nullary main_cst_3 (constant S_ .f32 0x00000000#32),
    TRef.unary (TRef.of (T := ⟨S1x2048x2048, .i1⟩) main_v29) (TRef.of (T := ⟨S16x2048x2048, .i1⟩) main_call0_v0) (broadcastInDim S16x2048x2048 ![0, 1, 2] bcast_S1x2048x2048_S16x2048x2048_0_1_2),
    TRef.unary (TRef.of (T := ⟨S_, .f32⟩) main_cst_3) (TRef.of (T := ⟨S16x2048x2048, .f32⟩) main_call0_v1) (broadcastInDim S16x2048x2048 ![] bcast_S_S16x2048x2048),
    TRef.ternary (TRef.of (T := ⟨S16x2048x2048, .i1⟩) main_call0_v0) (TRef.of (T := ⟨S16x2048x2048, .f32⟩) main_v21) (TRef.of (T := ⟨S16x2048x2048, .f32⟩) main_call0_v1) (TRef.of (T := ⟨S16x2048x2048, .f32⟩) main_v30) select ]
/-- The buffers it writes. -/
private abbrev opsWhere_W : List (Ref sig .tc) := [main_cst_3, main_call0_v0, main_call0_v1, main_v30]
private theorem opsWhere_writes : (opsWhere : List (HloOp τ sig (Elt F))).Forall fun op => op.writes ⊆ (opsWhere_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer it does not write keeps its contents through it. -/
private theorem opsWhere_keep (V : Valuation τ sig (Elt F)) (r : Ref sig .tc) (h : r ∉ opsWhere_W) :
    after (opsWhere (F := F)) V (Proc.devRef .tc r) = V (Proc.devRef .tc r) :=
  after_of_writes_sub opsWhere V opsWhere_writes h

/-- The shifted exponentials: each row's maximum taken from minus infinity, subtracted, exponentiated. -/
private abbrev opsExp : List (HloOp τ sig (Elt F)) :=
  [ nullary main_cst_4 (constant S_ .f32 0xFF800000#32),
    binary main_v30 main_cst_4 main_v31 ((fun x v => Host.reduce FloatOps.maximumf x v reducesTo_S16x2048x2048_S16x2048_d2 h_S_) : (⟨S16x2048x2048, .f32⟩ : BufTy).Contents (Elt F) → (⟨S_, .f32⟩ : BufTy).Contents (Elt F) → (⟨S16x2048, .f32⟩ : BufTy).Contents (Elt F)),
    nullary main_cst_5 (constant S_ .f32 0xFF800000#32),
    unary main_cst_5 main_v32 (broadcastInDim S16x2048 ![] bcast_S_S16x2048 : (⟨S_, .f32⟩ : BufTy).Contents (Elt F) → (⟨S16x2048, .f32⟩ : BufTy).Contents (Elt F)),
    binary main_v32 main_v31 main_v33 (maximumf : (⟨S16x2048, .f32⟩ : BufTy).Contents (Elt F) → (⟨S16x2048, .f32⟩ : BufTy).Contents (Elt F) → (⟨S16x2048, .f32⟩ : BufTy).Contents (Elt F)),
    unary main_v33 main_v34 (broadcastInDim S16x2048x1 ![0, 1] bcast_S16x2048_S16x2048x1_0_1 : (⟨S16x2048, .f32⟩ : BufTy).Contents (Elt F) → (⟨S16x2048x1, .f32⟩ : BufTy).Contents (Elt F)),
    unary main_v34 main_v35 (broadcastInDim S16x2048x2048 ![0, 1, 2] bcast_S16x2048x1_S16x2048x2048_0_1_2 : (⟨S16x2048x1, .f32⟩ : BufTy).Contents (Elt F) → (⟨S16x2048x2048, .f32⟩ : BufTy).Contents (Elt F)),
    binary main_v30 main_v35 main_v36 (subf : (⟨S16x2048x2048, .f32⟩ : BufTy).Contents (Elt F) → (⟨S16x2048x2048, .f32⟩ : BufTy).Contents (Elt F) → (⟨S16x2048x2048, .f32⟩ : BufTy).Contents (Elt F)),
    unary main_v36 main_v37 (Host.exp : (⟨S16x2048x2048, .f32⟩ : BufTy).Contents (Elt F) → (⟨S16x2048x2048, .f32⟩ : BufTy).Contents (Elt F)) ]
/-- The buffers it writes. -/
private abbrev opsExp_W : List (Ref sig .tc) := [main_cst_4, main_v31, main_cst_5, main_v32, main_v33, main_v34, main_v35, main_v36, main_v37]
private theorem opsExp_writes : (opsExp : List (HloOp τ sig (Elt F))).Forall fun op => op.writes ⊆ (opsExp_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer it does not write keeps its contents through it. -/
private theorem opsExp_keep (V : Valuation τ sig (Elt F)) (r : Ref sig .tc) (h : r ∉ opsExp_W) :
    after (opsExp (F := F)) V (Proc.devRef .tc r) = V (Proc.devRef .tc r) :=
  after_of_writes_sub opsExp V opsExp_writes h

/-- The output: the exponentials normalised by their row sums, applied to the values, heads merged. -/
private abbrev opsOut : List (HloOp τ sig (Elt F)) :=
  [ nullary main_cst_6 (constant S_ .f32 0x00000000#32),
    binary main_v37 main_cst_6 main_v38 ((fun x v => Host.reduceAdd x v reducesTo_S16x2048x2048_S16x2048_d2 h_S_) : (⟨S16x2048x2048, .f32⟩ : BufTy).Contents (Elt F) → (⟨S_, .f32⟩ : BufTy).Contents (Elt F) → (⟨S16x2048, .f32⟩ : BufTy).Contents (Elt F)),
    unary main_v38 main_v39 (broadcastInDim S16x2048x1 ![0, 1] bcast_S16x2048_S16x2048x1_0_1 : (⟨S16x2048, .f32⟩ : BufTy).Contents (Elt F) → (⟨S16x2048x1, .f32⟩ : BufTy).Contents (Elt F)),
    unary main_v39 main_v40 (broadcastInDim S16x2048x2048 ![0, 1, 2] bcast_S16x2048x1_S16x2048x2048_0_1_2 : (⟨S16x2048x1, .f32⟩ : BufTy).Contents (Elt F) → (⟨S16x2048x2048, .f32⟩ : BufTy).Contents (Elt F)),
    binary main_v37 main_v40 main_v41 (Host.divf : (⟨S16x2048x2048, .f32⟩ : BufTy).Contents (Elt F) → (⟨S16x2048x2048, .f32⟩ : BufTy).Contents (Elt F) → (⟨S16x2048x2048, .f32⟩ : BufTy).Contents (Elt F)),
    binary main_v41 main_v19 main_v42 ((fun l r => Host.dotGeneral dot_S16x2048x2048_S16x2048x64_S16x2048x64_2_1_1_2_0_0 none l r) : (⟨S16x2048x2048, .f32⟩ : BufTy).Contents (Elt F) → (⟨S16x2048x64, .f32⟩ : BufTy).Contents (Elt F) → (⟨S16x2048x64, .f32⟩ : BufTy).Contents (Elt F)),
    unary main_v42 main_v43 ((transpose S2048x16x64 [1, 0, 2] · transposes_S16x2048x64_S2048x16x64_1_0_2) : (⟨S16x2048x64, .f32⟩ : BufTy).Contents (Elt F) → (⟨S2048x16x64, .f32⟩ : BufTy).Contents (Elt F)),
    reshape main_v43 main_v44 rfl shapeCasts_S2048x16x64_S2048x1024 ]
/-- The buffers it writes. -/
private abbrev opsOut_W : List (Ref sig .tc) := [main_cst_6, main_v38, main_v39, main_v40, main_v41, main_v42, main_v43, main_v44]
private theorem opsOut_writes : (opsOut : List (HloOp τ sig (Elt F))).Forall fun op => op.writes ⊆ (opsOut_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer it does not write keeps its contents through it. -/
private theorem opsOut_keep (V : Valuation τ sig (Elt F)) (r : Ref sig .tc) (h : r ∉ opsOut_W) :
    after (opsOut (F := F)) V (Proc.devRef .tc r) = V (Proc.devRef .tc r) :=
  after_of_writes_sub opsOut V opsOut_writes h

/-- The program's operations are those eight lines in order. -/
private theorem ops_cut : (ops : List (HloOp τ sig (Elt F))) = opsQ ++ (opsK ++ (opsV ++ (opsScore ++ (opsKeep ++ (opsWhere ++ (opsExp ++ (opsOut))))))) := rfl

/-- The scaled queries, from the arguments the line reads. -/
private theorem opsQ_v7 (V : Valuation τ sig (Elt F)) (x0 : (⟨S2048x1024, .f32⟩ : BufTy).Contents (Elt F)) (x5 : (⟨S1024x1024, .f32⟩ : BufTy).Contents (Elt F)) (x6 : (⟨S1024, .f32⟩ : BufTy).Contents (Elt F)) (h0 : V (Proc.devRef .tc main_arg0) = x0) (h5 : V (Proc.devRef .tc main_arg5) = x5) (h6 : V (Proc.devRef .tc main_arg6) = x6) :
    after (opsQ (F := F)) V (Proc.devRef .tc main_v7) = val_main_v7 (F := F) x0 x5 x6 := by
  subst h0 h5 h6
  after_results
  all_goals rfl

/-- The keys. -/
private theorem opsK_v13 (V : Valuation τ sig (Elt F)) (x1 : (⟨S2048x1024, .f32⟩ : BufTy).Contents (Elt F)) (x7 : (⟨S1024x1024, .f32⟩ : BufTy).Contents (Elt F)) (x8 : (⟨S1024, .f32⟩ : BufTy).Contents (Elt F)) (h1 : V (Proc.devRef .tc main_arg1) = x1) (h7 : V (Proc.devRef .tc main_arg7) = x7) (h8 : V (Proc.devRef .tc main_arg8) = x8) :
    after (opsK (F := F)) V (Proc.devRef .tc main_v13) = val_main_v13 (F := F) x1 x7 x8 := by
  subst h1 h7 h8
  after_results
  all_goals rfl

/-- The values. -/
private theorem opsV_v19 (V : Valuation τ sig (Elt F)) (x2 : (⟨S2048x1024, .f32⟩ : BufTy).Contents (Elt F)) (x9 : (⟨S1024x1024, .f32⟩ : BufTy).Contents (Elt F)) (x10 : (⟨S1024, .f32⟩ : BufTy).Contents (Elt F)) (h2 : V (Proc.devRef .tc main_arg2) = x2) (h9 : V (Proc.devRef .tc main_arg9) = x9) (h10 : V (Proc.devRef .tc main_arg10) = x10) :
    after (opsV (F := F)) V (Proc.devRef .tc main_v19) = val_main_v19 (F := F) x2 x9 x10 := by
  subst h2 h9 h10
  after_results
  all_goals rfl

/-- The biased scores, from the scaled queries and the keys as the line finds them. -/
private theorem opsScore_v21 (V : Valuation τ sig (Elt F)) (x0 : (⟨S2048x1024, .f32⟩ : BufTy).Contents (Elt F)) (x1 : (⟨S2048x1024, .f32⟩ : BufTy).Contents (Elt F)) (x3 : (⟨S16x2048x2048, .f32⟩ : BufTy).Contents (Elt F)) (x5 : (⟨S1024x1024, .f32⟩ : BufTy).Contents (Elt F)) (x6 : (⟨S1024, .f32⟩ : BufTy).Contents (Elt F)) (x7 : (⟨S1024x1024, .f32⟩ : BufTy).Contents (Elt F)) (x8 : (⟨S1024, .f32⟩ : BufTy).Contents (Elt F))
    (hq : V (Proc.devRef .tc main_v7) = val_main_v7 (F := F) x0 x5 x6) (hk : V (Proc.devRef .tc main_v13) = val_main_v13 (F := F) x1 x7 x8) (h3 : V (Proc.devRef .tc main_arg3) = x3) :
    after (opsScore (F := F)) V (Proc.devRef .tc main_v21) = val_main_v21 (F := F) x0 x1 x3 x5 x6 x7 x8 := by
  subst h3
  after_results
  rw [hq, hk]
  rfl

/-- The keep mask with its leading unit axis, from the comparison's argument. -/
private theorem opsKeep_v29 (V : Valuation τ sig (Elt F)) (x4 : (⟨S2047x2047, .i32⟩ : BufTy).Contents (Elt F)) (h4 : V (Proc.devRef .tc main_arg4) = x4) :
    after (opsKeep (F := F)) V (Proc.devRef .tc main_v29) = val_main_v29 (F := F) x4 := by
  subst h4
  after_results
  unfold val_main_v29 val_main_v28 val_main_v27 val_main_v26 val_main_v25 val_main_c_2 val_main_c_1 val_main_v24 val_main_v23 val_main_c_0 val_main_v22 val_main_c
  rfl

/-- The masking on arbitrary mask and scores: kept where the mask, broadcast over the heads, is set; zero elsewhere. -/
private theorem opsWhere_raw (V : Valuation τ sig (Elt F)) (M : (⟨S1x2048x2048, .i1⟩ : BufTy).Contents (Elt F)) (S : (⟨S16x2048x2048, .f32⟩ : BufTy).Contents (Elt F))
    (hm : V (Proc.devRef .tc main_v29) = M) (hs : V (Proc.devRef .tc main_v21) = S) :
    after (opsWhere (F := F)) V (Proc.devRef .tc main_v30)
      = select (broadcastInDim S16x2048x2048 ![0, 1, 2] bcast_S1x2048x2048_S16x2048x2048_0_1_2 M) S
          (broadcastInDim S16x2048x2048 ![] bcast_S_S16x2048x2048 (constant (F := F) S_ .f32 0x00000000#32)) := by
  subst hm hs
  after_results
  all_goals rfl

/-- The masked scores, from the mask and the biased scores as the line finds them. -/
private theorem opsWhere_v30 (V : Valuation τ sig (Elt F)) (x0 : (⟨S2048x1024, .f32⟩ : BufTy).Contents (Elt F)) (x1 : (⟨S2048x1024, .f32⟩ : BufTy).Contents (Elt F)) (x3 : (⟨S16x2048x2048, .f32⟩ : BufTy).Contents (Elt F)) (x4 : (⟨S2047x2047, .i32⟩ : BufTy).Contents (Elt F)) (x5 : (⟨S1024x1024, .f32⟩ : BufTy).Contents (Elt F)) (x6 : (⟨S1024, .f32⟩ : BufTy).Contents (Elt F)) (x7 : (⟨S1024x1024, .f32⟩ : BufTy).Contents (Elt F)) (x8 : (⟨S1024, .f32⟩ : BufTy).Contents (Elt F))
    (hm : V (Proc.devRef .tc main_v29) = val_main_v29 (F := F) x4) (hs : V (Proc.devRef .tc main_v21) = val_main_v21 (F := F) x0 x1 x3 x5 x6 x7 x8) :
    after (opsWhere (F := F)) V (Proc.devRef .tc main_v30) = val_main_v30 (F := F) x0 x1 x3 x4 x5 x6 x7 x8 :=
  (opsWhere_raw V _ _ hm hs).trans rfl

/-- The shifted exponentials of arbitrary scores: each row's maximum taken from minus infinity, subtracted, exponentiated. -/
private theorem opsExp_raw (V : Valuation τ sig (Elt F)) (S : (⟨S16x2048x2048, .f32⟩ : BufTy).Contents (Elt F)) (hs : V (Proc.devRef .tc main_v30) = S) :
    after (opsExp (F := F)) V (Proc.devRef .tc main_v37)
      = Host.exp (subf S (broadcastInDim S16x2048x2048 ![0, 1, 2] bcast_S16x2048x1_S16x2048x2048_0_1_2
          (broadcastInDim S16x2048x1 ![0, 1] bcast_S16x2048_S16x2048x1_0_1
            (maximumf (broadcastInDim S16x2048 ![] bcast_S_S16x2048 (constant (F := F) S_ .f32 0xFF800000#32))
              (Host.reduce FloatOps.maximumf S (constant (F := F) S_ .f32 0xFF800000#32) reducesTo_S16x2048x2048_S16x2048_d2 h_S_))))) := by
  subst hs
  after_results
  all_goals rfl

/-- The shifted exponentials, from the masked scores as the line finds them. -/
private theorem opsExp_v37 (V : Valuation τ sig (Elt F)) (x0 : (⟨S2048x1024, .f32⟩ : BufTy).Contents (Elt F)) (x1 : (⟨S2048x1024, .f32⟩ : BufTy).Contents (Elt F)) (x3 : (⟨S16x2048x2048, .f32⟩ : BufTy).Contents (Elt F)) (x4 : (⟨S2047x2047, .i32⟩ : BufTy).Contents (Elt F)) (x5 : (⟨S1024x1024, .f32⟩ : BufTy).Contents (Elt F)) (x6 : (⟨S1024, .f32⟩ : BufTy).Contents (Elt F)) (x7 : (⟨S1024x1024, .f32⟩ : BufTy).Contents (Elt F)) (x8 : (⟨S1024, .f32⟩ : BufTy).Contents (Elt F))
    (hs : V (Proc.devRef .tc main_v30) = val_main_v30 (F := F) x0 x1 x3 x4 x5 x6 x7 x8) :
    after (opsExp (F := F)) V (Proc.devRef .tc main_v37) = val_main_v37 (F := F) x0 x1 x3 x4 x5 x6 x7 x8 :=
  (opsExp_raw V _ hs).trans rfl

/-- The output of arbitrary exponentials and values: normalised by the row sums, applied to the values, heads merged. -/
private theorem opsOut_raw (V : Valuation τ sig (Elt F)) (E : (⟨S16x2048x2048, .f32⟩ : BufTy).Contents (Elt F)) (W : (⟨S16x2048x64, .f32⟩ : BufTy).Contents (Elt F))
    (he : V (Proc.devRef .tc main_v37) = E) (hw : V (Proc.devRef .tc main_v19) = W) :
    after (opsOut (F := F)) V (Proc.devRef .tc main_v44)
      = shapeCast S2048x1024 (transpose S2048x16x64 [1, 0, 2]
          (Host.dotGeneral dot_S16x2048x2048_S16x2048x64_S16x2048x64_2_1_1_2_0_0 none
            (Host.divf E (broadcastInDim S16x2048x2048 ![0, 1, 2] bcast_S16x2048x1_S16x2048x2048_0_1_2
              (broadcastInDim S16x2048x1 ![0, 1] bcast_S16x2048_S16x2048x1_0_1
                (Host.reduceAdd E (constant (F := F) S_ .f32 0x00000000#32) reducesTo_S16x2048x2048_S16x2048_d2 h_S_)))) W)
          transposes_S16x2048x64_S2048x16x64_1_0_2) shapeCasts_S2048x16x64_S2048x1024 := by
  subst he hw
  after_results
  all_goals rfl

/-- The result, from the exponentials and the values as the line finds them. -/
private theorem opsOut_v44 (V : Valuation τ sig (Elt F)) (x0 : (⟨S2048x1024, .f32⟩ : BufTy).Contents (Elt F)) (x1 : (⟨S2048x1024, .f32⟩ : BufTy).Contents (Elt F)) (x2 : (⟨S2048x1024, .f32⟩ : BufTy).Contents (Elt F)) (x3 : (⟨S16x2048x2048, .f32⟩ : BufTy).Contents (Elt F)) (x4 : (⟨S2047x2047, .i32⟩ : BufTy).Contents (Elt F)) (x5 : (⟨S1024x1024, .f32⟩ : BufTy).Contents (Elt F)) (x6 : (⟨S1024, .f32⟩ : BufTy).Contents (Elt F)) (x7 : (⟨S1024x1024, .f32⟩ : BufTy).Contents (Elt F)) (x8 : (⟨S1024, .f32⟩ : BufTy).Contents (Elt F)) (x9 : (⟨S1024x1024, .f32⟩ : BufTy).Contents (Elt F)) (x10 : (⟨S1024, .f32⟩ : BufTy).Contents (Elt F))
    (he : V (Proc.devRef .tc main_v37) = val_main_v37 (F := F) x0 x1 x3 x4 x5 x6 x7 x8) (hw : V (Proc.devRef .tc main_v19) = val_main_v19 (F := F) x2 x9 x10) :
    after (opsOut (F := F)) V (Proc.devRef .tc main_v44) = val_main_v44 (F := F) x0 x1 x2 x3 x4 x5 x6 x7 x8 x9 x10 :=
  (opsOut_raw V _ _ he hw).trans rfl

/-- The result buffer after the whole line, over an arbitrary entry valuation: each line's result from the earlier
    lines' results, which the lines in between do not write. -/
private theorem after_v44_of (V : Valuation τ sig (Elt F)) :
    after (ops (F := F)) V (Proc.devRef .tc main_v44)
      = val_main_v44 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  rw [ops_cut, after_app, after_app, after_app, after_app, after_app, after_app, after_app]
  refine opsOut_v44 _ _ _ _ _ _ _ _ _ _ _ _ ?_ ?_
  · refine opsExp_v37 _ _ _ _ _ _ _ _ _ ?_
    refine opsWhere_v30 _ _ _ _ _ _ _ _ _ ?_ ?_
    · refine opsKeep_v29 _ _ ?_
      rw [opsScore_keep _ main_arg4 (by decide), opsV_keep _ main_arg4 (by decide), opsK_keep _ main_arg4 (by decide), opsQ_keep _ main_arg4 (by decide)]
    · rw [opsKeep_keep _ main_v21 (by decide)]
      refine opsScore_v21 _ _ _ _ _ _ _ _ ?_ ?_ ?_
      · rw [opsV_keep _ main_v7 (by decide), opsK_keep _ main_v7 (by decide)]
        exact opsQ_v7 _ _ _ _ rfl rfl rfl
      · rw [opsV_keep _ main_v13 (by decide)]
        refine opsK_v13 _ _ _ _ ?_ ?_ ?_
        · rw [opsQ_keep _ main_arg1 (by decide)]
        · rw [opsQ_keep _ main_arg7 (by decide)]
        · rw [opsQ_keep _ main_arg8 (by decide)]
      · rw [opsV_keep _ main_arg3 (by decide), opsK_keep _ main_arg3 (by decide), opsQ_keep _ main_arg3 (by decide)]
  · rw [opsExp_keep _ main_v19 (by decide), opsWhere_keep _ main_v19 (by decide), opsKeep_keep _ main_v19 (by decide), opsScore_keep _ main_v19 (by decide)]
    refine opsV_v19 _ _ _ _ ?_ ?_ ?_
    · rw [opsK_keep _ main_arg2 (by decide), opsQ_keep _ main_arg2 (by decide)]
    · rw [opsK_keep _ main_arg9 (by decide), opsQ_keep _ main_arg9 (by decide)]
    · rw [opsK_keep _ main_arg10 (by decide), opsQ_keep _ main_arg10 (by decide)]

/-- What the result buffer holds after the program's operations, from the launch contents: the last stage. -/
theorem after_v44 (m : (ℓ : Loc nD τ sig) → Buf (Elt F) ℓ) (c : Dev nD) :
    after (ops (F := F)) (launchContents m c) (Proc.devRef .tc main_v44)
      = val_main_v44 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  after_v44_of (launchContents m c)

/-- No operation writes an argument. -/
theorem after_arg (m : (ℓ : Loc nD τ sig) → Buf (Elt F) ℓ) (c : Dev nD) (r : Ref sig .tc)
    (hr : ∀ op ∈ (ops (F := F)), (Proc.devRef .tc r : DevRef τ sig) ∉ op.writes) :
    after (ops (F := F)) (launchContents m c) (Proc.devRef .tc r) = m ((c.tc : Thread nD τ).loc r) :=
  after_of_forall_not_mem _ _ hr

/-- THE REFERENCE'S RUN: the result at the last stage of the arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v44) = val_main_v44 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v44).trans (after_v44 m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl)⟩)
    (run_after m ρ)

end Cert.ReferenceIdeal.RefStages

end
-- ==== Proof.lean ====
/-
  The certificate of a multi-head attention block against its plain reference: the kernel's program projects queries,
  keys and values (one kernel region over the three stacked operands), re-lays them as sixteen heads, builds a keep mask
  from `explored ≠ 0`, runs masked softmax attention head by head (a second kernel region) and re-lays the result; the
  reference does the same with whole-array operations. Over the extended reals both compute, entry by entry,
  softmax attention along a row of masked scores q·k + bias against the head's values; the two differ only in the order
  of their sums and in how the arrays are tiled, which changes nothing there (sums over a finite index set in a
  commutative monoid). No precondition is used beyond what the claims state.

  The three frames — every weakly fair execution terminates, faults nowhere and leaves the arguments unchanged — come from
  one run theorem per program: for the kernel's program (at both float families) the pipeline library's launch over its
  five segments, host stretch, region, host stretch, region, host stretch; for the reference the run of a straight
  line of host operations. The idealization rewrote nothing, so `preserves` is trivial. `algebraic` states both runs
  with ONE result: the reference's last stage applied to the arguments.
-/
import proofs.«117108_j26259430048704_1_alg».proof.Defs
import proofs.«117108_j26259430048704_1_alg».proof.Proof.Gen.Kernel
import proofs.«117108_j26259430048704_1_alg».proof.Proof.Gen.KernelIdeal
import proofs.«117108_j26259430048704_1_alg».proof.Proof.Gen.ReferenceIdeal
import proofs.«117108_j26259430048704_1_alg».proof.Proof.Gen.Pre_finite_inputs
import proofs.«117108_j26259430048704_1_alg».proof.Proof.KRun
import proofs.«117108_j26259430048704_1_alg».proof.Proof.Bridge
import proofs.«117108_j26259430048704_1_alg».proof.Proof.RefStages

set_option maxRecDepth 16384

noncomputable section

namespace Cert.Proof

open Idealize.ShloMosaic Idealize.ShloMosaic.TcCoe Idealize.SL.Sem

/-- The word-level program runs and keeps its arguments. -/
theorem frame_k : Cert.frame_Kernel := fun m ρ _ => Cert.Kernel.Hand.frame (F := Bits) m ρ

/-- The idealized program runs and keeps its arguments. -/
theorem frame_ki : Cert.frame_KernelIdeal := fun m ρ _ => Cert.KernelIdeal.Hand.frame (F := Ideal) m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.RefStages.run (F := Ideal) m ρ)

/-- From memories agreeing on the arguments both idealized programs end with the same result: the kernel's program at the
    last boundary's contents of its result buffer, which is the reference's last stage of the arguments; the reference
    at that stage of its own arguments, which are the same. -/
theorem algebraic : Cert.algebraic_KernelIdeal_ReferenceIdeal := by
  intro m ρ m' ρ' _ hagree
  refine ⟨fun c => Cert.KernelIdeal.Hand.W5 m c (Proc.devRef .tc Cert.KernelIdeal.main_v38), ?_, ?_⟩
  · exact (θ_run Cert.KernelIdeal.defs _ _).mono (fun r h c => ⟨h c _ (Cert.KernelIdeal.Hand.mem_uc Cert.KernelIdeal.main_v38 (by decide)),
      (h c _ (Cert.KernelIdeal.Hand.mem_uc Cert.KernelIdeal.main_arg0 (by decide))).trans (Cert.KernelIdeal.Hand.W5_main_arg0 m c),
      (h c _ (Cert.KernelIdeal.Hand.mem_uc Cert.KernelIdeal.main_arg1 (by decide))).trans (Cert.KernelIdeal.Hand.W5_main_arg1 m c),
      (h c _ (Cert.KernelIdeal.Hand.mem_uc Cert.KernelIdeal.main_arg2 (by decide))).trans (Cert.KernelIdeal.Hand.W5_main_arg2 m c),
      (h c _ (Cert.KernelIdeal.Hand.mem_uc Cert.KernelIdeal.main_arg3 (by decide))).trans (Cert.KernelIdeal.Hand.W5_main_arg3 m c),
      (h c _ (Cert.KernelIdeal.Hand.mem_uc Cert.KernelIdeal.main_arg4 (by decide))).trans (Cert.KernelIdeal.Hand.W5_main_arg4 m c),
      (h c _ (Cert.KernelIdeal.Hand.mem_uc Cert.KernelIdeal.main_arg5 (by decide))).trans (Cert.KernelIdeal.Hand.W5_main_arg5 m c),
      (h c _ (Cert.KernelIdeal.Hand.mem_uc Cert.KernelIdeal.main_arg6 (by decide))).trans (Cert.KernelIdeal.Hand.W5_main_arg6 m c),
      (h c _ (Cert.KernelIdeal.Hand.mem_uc Cert.KernelIdeal.main_arg7 (by decide))).trans (Cert.KernelIdeal.Hand.W5_main_arg7 m c),
      (h c _ (Cert.KernelIdeal.Hand.mem_uc Cert.KernelIdeal.main_arg8 (by decide))).trans (Cert.KernelIdeal.Hand.W5_main_arg8 m c),
      (h c _ (Cert.KernelIdeal.Hand.mem_uc Cert.KernelIdeal.main_arg9 (by decide))).trans (Cert.KernelIdeal.Hand.W5_main_arg9 m c),
      (h c _ (Cert.KernelIdeal.Hand.mem_uc Cert.KernelIdeal.main_arg10 (by decide))).trans (Cert.KernelIdeal.Hand.W5_main_arg10 m c)⟩)
      (Cert.KernelIdeal.Hand.run_all (F := Ideal) m ρ)
  · refine (θ_run Cert.ReferenceIdeal.defs _ _).mono (fun r h c => ⟨(h c).1.trans ?_, (h c).2⟩) (Cert.ReferenceIdeal.RefStages.run (F := Ideal) m' ρ')
    obtain ⟨e0, e1, e2, e3, e4, e5, e6, e7, e8, e9, e10⟩ := hagree c
    rw [e0, e1, e2, e3, e4, e5, e6, e7, e8, e9, e10]
    exact (Cert.KernelIdeal.Hand.result_eq m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
